-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64 : Shape := ⟨1, ![64]⟩
abbrev S5000 : Shape := ⟨1, ![5000]⟩
abbrev S30522x768 : Shape := ⟨2, ![30522, 768]⟩
abbrev S12x768x768 : Shape := ⟨3, ![12, 768, 768]⟩
abbrev S12x768 : Shape := ⟨2, ![12, 768]⟩
abbrev S_ : Shape := ⟨0, ![]⟩

class Facts : Prop where
  bcast_S_S30522x768 : S_.BroadcastsInDim S30522x768 (![] : Fin 0 → Fin S30522x768.rank)
  reducesTo_S30522x768_S_d0_1 : S30522x768.ReducesTo [0, 1] S_
  h_S_ : 0 < S_.numel
  bcast_S_S12x768x768 : S_.BroadcastsInDim S12x768x768 (![] : Fin 0 → Fin S12x768x768.rank)
  reducesTo_S12x768x768_S_d0_1_2 : S12x768x768.ReducesTo [0, 1, 2] S_
  bcast_S_S12x768 : S_.BroadcastsInDim S12x768 (![] : Fin 0 → Fin S12x768.rank)
  reducesTo_S12x768_S_d0_1 : S12x768.ReducesTo [0, 1] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S5000 : S_.BroadcastsInDim S5000 (![] : Fin 0 → Fin S5000.rank)
  reducesTo_S5000_S_d0 : S5000.ReducesTo [0] S_

variable [Facts]

def fn_part2 {F : FTy → Type} [FloatOps F] (main_arg1 : IVec S64 32) (main_arg2 : IVec S5000 32) (main_v30 : IVec S_ 1) (main_v32 : IVec S64 1) (main_c_12 : IVec S_ 32) : IVec S_ 1 :=
  let main_v33 : IVec S64 32 := broadcastInDim S64 ![] bcast_S_S64 main_c_12
  let main_v34 : IVec S64 1 := cmpi .slt main_arg1 main_v33
  let main_v35 : IVec S64 1 := andi main_v32 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v30 main_v36
  let main_c_14 : IVec S_ 32 := constantI S_ 32 0#32
  let main_v38 : IVec S5000 32 := broadcastInDim S5000 ![] bcast_S_S5000 main_c_14
  let main_v39 : IVec S5000 1 := cmpi .sge main_arg2 main_v38
  let main_c_15 : IVec S_ 32 := constantI S_ 32 30522#32
  let main_v40 : IVec S5000 32 := broadcastInDim S5000 ![] bcast_S_S5000 main_c_15
  let main_v41 : IVec S5000 1 := cmpi .slt main_arg2 main_v40
  let main_v42 : IVec S5000 1 := andi main_v39 main_v41
  let main_c_16 : IVec S_ 1 := constantI S_ 1 1#1
  let main_v43 : IVec S_ 1 := (fun x v => Host.reduce IntOp.andi x v reducesTo_S5000_S_d0 h_S_) main_v42 main_c_16
  let main_v44 : IVec S_ 1 := andi main_v37 main_v43
  main_v44

def fn_part1 {F : FTy → Type} [FloatOps F] (main_arg0 : IVec S64x512 32) (main_arg1 : IVec S64 32) (main_arg2 : IVec S5000 32) (main_arg7 : FVec F S12x768 .f32) (main_v13 : IVec S_ 1) (main_v16 : IVec S12x768x768 1) : IVec S_ 1 :=
  let main_c_5 : IVec S_ 1 := constantI S_ 1 1#1
  let main_v17 : IVec S_ 1 := (fun x v => Host.reduce IntOp.andi x v reducesTo_S12x768x768_S_d0_1_2 h_S_) main_v16 main_c_5
  let main_v18 : IVec S_ 1 := andi main_v13 main_v17
  let main_v19 : FVec F S12x768 .f32 := Host.absf main_arg7
  let main_cst_6 : FVec F S_ .f32 := constant S_ .f32 0x7F800000#32
  let main_v20 : FVec F S12x768 .f32 := broadcastInDim S12x768 ![] bcast_S_S12x768 main_cst_6
  let main_v21 : IVec S12x768 1 := cmpf .olt main_v19 main_v20
  let main_c_7 : IVec S_ 1 := constantI S_ 1 1#1
  let main_v22 : IVec S_ 1 := (fun x v => Host.reduce IntOp.andi x v reducesTo_S12x768_S_d0_1 h_S_) main_v21 main_c_7
  let main_v23 : IVec S_ 1 := andi main_v18 main_v22
  let main_c_8 : IVec S_ 32 := constantI S_ 32 0#32
  let main_v24 : IVec S64x512 32 := broadcastInDim S64x512 ![] bcast_S_S64x512 main_c_8
  let main_v25 : IVec S64x512 1 := cmpi .sge main_arg0 main_v24
  let main_c_9 : IVec S_ 32 := constantI S_ 32 30522#32
  let main_v26 : IVec S64x512 32 := broadcastInDim S64x512 ![] bcast_S_S64x512 main_c_9
  let main_v27 : IVec S64x512 1 := cmpi .slt main_arg0 main_v26
  let main_v28 : IVec S64x512 1 := andi main_v25 main_v27
  let main_c_10 : IVec S_ 1 := constantI S_ 1 1#1
  let main_v29 : IVec S_ 1 := (fun x v => Host.reduce IntOp.andi x v reducesTo_S64x512_S_d0_1 h_S_) main_v28 main_c_10
  let main_v30 : IVec S_ 1 := andi main_v23 main_v29
  let main_c_11 : IVec S_ 32 := constantI S_ 32 0#32
  let main_v31 : IVec S64 32 := broadcastInDim S64 ![] bcast_S_S64 main_c_11
  let main_v32 : IVec S64 1 := cmpi .sge main_arg1 main_v31
  let main_c_12 : IVec S_ 32 := constantI S_ 32 12#32
  fn_part2 (F := F) main_arg1 main_arg2 main_v30 main_v32 main_c_12

def fn {F : FTy → Type} [FloatOps F] (main_arg0 : IVec S64x512 32) (main_arg1 : IVec S64 32) (main_arg2 : IVec S5000 32) (main_arg3 : FVec F S30522x768 .f32) (main_arg4 : FVec F S12x768x768 .f32) (main_arg5 : FVec F S12x768 .f32) (main_arg6 : FVec F S12x768x768 .f32) (main_arg7 : FVec F S12x768 .f32) : IVec S_ 1 :=
  let main_v0 : FVec F S30522x768 .f32 := Host.absf main_arg3
  let main_cst : FVec F S_ .f32 := constant S_ .f32 0x7F800000#32
  let main_v1 : FVec F S30522x768 .f32 := broadcastInDim S30522x768 ![] bcast_S_S30522x768 main_cst
  let main_v2 : IVec S30522x768 1 := cmpf .olt main_v0 main_v1
  let main_c : IVec S_ 1 := constantI S_ 1 1#1
  let main_v3 : IVec S_ 1 := (fun x v => Host.reduce IntOp.andi x v reducesTo_S30522x768_S_d0_1 h_S_) main_v2 main_c
  let main_v4 : FVec F S12x768x768 .f32 := Host.absf main_arg4
  let main_cst_0 : FVec F S_ .f32 := constant S_ .f32 0x7F800000#32
  let main_v5 : FVec F S12x768x768 .f32 := broadcastInDim S12x768x768 ![] bcast_S_S12x768x768 main_cst_0
  let main_v6 : IVec S12x768x768 1 := cmpf .olt main_v4 main_v5
  let main_c_1 : IVec S_ 1 := constantI S_ 1 1#1
  let main_v7 : IVec S_ 1 := (fun x v => Host.reduce IntOp.andi x v reducesTo_S12x768x768_S_d0_1_2 h_S_) main_v6 main_c_1
  let main_v8 : IVec S_ 1 := andi main_v3 main_v7
  let main_v9 : FVec F S12x768 .f32 := Host.absf main_arg5
  let main_cst_2 : FVec F S_ .f32 := constant S_ .f32 0x7F800000#32
  let main_v10 : FVec F S12x768 .f32 := broadcastInDim S12x768 ![] bcast_S_S12x768 main_cst_2
  let main_v11 : IVec S12x768 1 := cmpf .olt main_v9 main_v10
  let main_c_3 : IVec S_ 1 := constantI S_ 1 1#1
  let main_v12 : IVec S_ 1 := (fun x v => Host.reduce IntOp.andi x v reducesTo_S12x768_S_d0_1 h_S_) main_v11 main_c_3
  let main_v13 : IVec S_ 1 := andi main_v8 main_v12
  let main_v14 : FVec F S12x768x768 .f32 := Host.absf main_arg6
  let main_cst_4 : FVec F S_ .f32 := constant S_ .f32 0x7F800000#32
  let main_v15 : FVec F S12x768x768 .f32 := broadcastInDim S12x768x768 ![] bcast_S_S12x768x768 main_cst_4
  let main_v16 : IVec S12x768x768 1 := cmpf .olt main_v14 main_v15
  fn_part1 (F := F) main_arg0 main_arg1 main_arg2 main_arg7 main_v13 main_v16
-- ==== Kernel.lean ====
abbrev S64x512 : Shape := ⟨2, ![64, 512]⟩
abbrev S64 : Shape := ⟨1, ![64]⟩
abbrev S5000 : Shape := ⟨1, ![5000]⟩
abbrev S30522x768 : Shape := ⟨2, ![30522, 768]⟩
abbrev S12x768x768 : Shape := ⟨3, ![12, 768, 768]⟩
abbrev S12x768 : Shape := ⟨2, ![12, 768]⟩
abbrev S_ : Shape := ⟨0, ![]⟩
abbrev S64x512x1 : Shape := ⟨3, ![64, 512, 1]⟩
abbrev S1 : Shape := ⟨1, ![1]⟩
abbrev S1x1x1 : Shape := ⟨3, ![1, 1, 1]⟩
abbrev S64x512x768 : Shape := ⟨3, ![64, 512, 768]⟩
abbrev S30522 : Shape := ⟨1, ![30522]⟩
abbrev S5000x1 : Shape := ⟨2, ![5000, 1]⟩
abbrev S64x1 : Shape := ⟨2, ![64, 1]⟩
abbrev S64x768 : Shape := ⟨2, ![64, 768]⟩
abbrev S64x1x768 : Shape := ⟨3, ![64, 1, 768]⟩
abbrev S1x256x768 : Shape := ⟨3, ![1, 256, 768]⟩
abbrev S1x256x1 : Shape := ⟨3, ![1, 256, 1]⟩
abbrev S1x1x768 : Shape := ⟨3, ![1, 1, 768]⟩
abbrev S256x768 : Shape := ⟨2, ![256, 768]⟩
abbrev S256x1 : Shape := ⟨2, ![256, 1]⟩
abbrev S1x768 : Shape := ⟨2, ![1, 768]⟩
abbrev S1x768x768 : Shape := ⟨3, ![1, 768, 768]⟩
abbrev S768x768 : Shape := ⟨2, ![768, 768]⟩

abbrev nBuf : Space → Nat
  | .hbm => 119
  | .vmem => 20
  | .smem => 2
  | _ => 0

abbrev bufTy : (tb : Table) → Fin (tcTables nBuf tb) → BufTy
  | .hbm, ⟨0, _⟩ => ⟨S64x512, .i32⟩
  | .hbm, ⟨1, _⟩ => ⟨S64, .i32⟩
  | .hbm, ⟨2, _⟩ => ⟨S5000, .i32⟩
  | .hbm, ⟨3, _⟩ => ⟨S30522x768, .f32⟩
  | .hbm, ⟨4, _⟩ => ⟨S12x768x768, .f32⟩
  | .hbm, ⟨5, _⟩ => ⟨S12x768, .f32⟩
  | .hbm, ⟨6, _⟩ => ⟨S12x768x768, .f32⟩
  | .hbm, ⟨7, _⟩ => ⟨S12x768, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S5000, .i32⟩
  | .hbm, ⟨12, _⟩ => ⟨S5000, .i32⟩
  | .hbm, ⟨13, _⟩ => ⟨S_, .i32⟩
  | .hbm, ⟨14, _⟩ => ⟨S5000, .i32⟩
  | .hbm, ⟨15, _⟩ => ⟨S5000, .i32⟩
  | .hbm, ⟨16, _⟩ => ⟨S_, .i32⟩
  | .hbm, ⟨17, _⟩ => ⟨S64x512, .i32⟩
  | .hbm, ⟨18, _⟩ => ⟨S64x512, .i1⟩
  | .hbm, ⟨19, _⟩ => ⟨S_, .i32⟩
  | .hbm, ⟨20, _⟩ => ⟨S64x512, .i32⟩
  | .hbm, ⟨21, _⟩ => ⟨S64x512, .i32⟩
  | .hbm, ⟨22, _⟩ => ⟨S64x512, .i32⟩
  | .hbm, ⟨23, _⟩ => ⟨S64x512x1, .i32⟩
  | .hbm, ⟨24, _⟩ => ⟨S1, .i32⟩
  | .hbm, ⟨25, _⟩ => ⟨S_, .i32⟩
  | .hbm, ⟨26, _⟩ => ⟨S64x512x1, .i32⟩
  | .hbm, ⟨27, _⟩ => ⟨S64x512x1, .i1⟩
  | .hbm, ⟨28, _⟩ => ⟨S1x1x1, .i32⟩
  | .hbm, ⟨29, _⟩ => ⟨S64x512x1, .i32⟩
  | .hbm, ⟨30, _⟩ => ⟨S64x512x1, .i1⟩
  | .hbm, ⟨31, _⟩ => ⟨S64x512x1, .i1⟩
  | .hbm, ⟨32, _⟩ => ⟨S_, .i1⟩
  | .hbm, ⟨33, _⟩ => ⟨S64x512, .i1⟩
  | .hbm, ⟨34, _⟩ => ⟨S64x512x768, .f32⟩
  | .hbm, ⟨35, _⟩ => ⟨S64x512x768, .i1⟩
  | .hbm, ⟨36, _⟩ => ⟨S_, .f32⟩
  | .hbm, ⟨37, _⟩ => ⟨S64x512x768, .f32⟩
  | .hbm, ⟨38, _⟩ => ⟨S64x512x768, .f32⟩
  | .hbm, ⟨39, _⟩ => ⟨S_, .f32⟩
  | .hbm, ⟨40, _⟩ => ⟨S30522, .f32⟩
  | .hbm, ⟨41, _⟩ => ⟨S_, .i32⟩
  | .hbm, ⟨42, _⟩ => ⟨S5000, .i32⟩
  | .hbm, ⟨43, _⟩ => ⟨S5000, .i1⟩
  | .hbm, ⟨44, _⟩ => ⟨S_, .i32⟩
  | .hbm, ⟨45, _⟩ => ⟨S5000, .i32⟩
  | .hbm, ⟨46, _⟩ => ⟨S5000, .i32⟩
  | .hbm, ⟨47, _⟩ => ⟨S5000, .i32⟩
  | .hbm, ⟨48, _⟩ => ⟨S5000x1, .i32⟩
  | .hbm, ⟨49, _⟩ => ⟨S_, .f32⟩
  | .hbm, ⟨50, _⟩ => ⟨S5000, .f32⟩
  | .hbm, ⟨51, _⟩ => ⟨S30522, .f32⟩
  | .hbm, ⟨52, _⟩ => ⟨S_, .i32⟩
  | .hbm, ⟨53, _⟩ => ⟨S64x512, .i32⟩
  | .hbm, ⟨54, _⟩ => ⟨S64x512, .i1⟩
  | .hbm, ⟨55, _⟩ => ⟨S_, .i32⟩
  | .hbm, ⟨56, _⟩ => ⟨S64x512, .i32⟩
  | .hbm, ⟨57, _⟩ => ⟨S64x512, .i32⟩
  | .hbm, ⟨58, _⟩ => ⟨S64x512, .i32⟩
  | .hbm, ⟨59, _⟩ => ⟨S64x512x1, .i32⟩
  | .hbm, ⟨60, _⟩ => ⟨S64x512, .f32⟩
  | .hbm, ⟨61, _⟩ => ⟨S64x512x1, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S_, .i32⟩
  | .hbm, ⟨68, _⟩ => ⟨S64, .i32⟩
  | .hbm, ⟨69, _⟩ => ⟨S_, .i32⟩
  | .hbm, ⟨70, _⟩ => ⟨S64, .i32⟩
  | .hbm, ⟨71, _⟩ => ⟨S64, .i32⟩
  | .hbm, ⟨72, _⟩ => ⟨S_, .i32⟩
  | .hbm, ⟨73, _⟩ => ⟨S64, .i32⟩
  | .hbm, ⟨74, _⟩ => ⟨S_, .i32⟩
  | .hbm, ⟨75, _⟩ => ⟨S64, .i32⟩
  | .hbm, ⟨76, _⟩ => ⟨S64, .i1⟩
  | .hbm, ⟨77, _⟩ => ⟨S_, .i32⟩
  | .hbm, ⟨78, _⟩ => ⟨S64, .i32⟩
  | .hbm, ⟨79, _⟩ => ⟨S64, .i32⟩
  | .hbm, ⟨80, _⟩ => ⟨S64, .i32⟩
  | .hbm, ⟨81, _⟩ => ⟨S64x1, .i32⟩
  | .hbm, ⟨82, _⟩ => ⟨S64x768, .f32⟩
  | .hbm, ⟨83, _⟩ => ⟨S64x1x768, .f32⟩
  | .hbm, ⟨84, _⟩ => ⟨S_, .i32⟩
  | .hbm, ⟨85, _⟩ => ⟨S64, .i32⟩
  | .hbm, ⟨86, _⟩ => ⟨S64, .i1⟩
  | .hbm, ⟨87, _⟩ => ⟨S_, .i32⟩
  | .hbm, ⟨88, _⟩ => ⟨S64, .i32⟩
  | .hbm, ⟨89, _⟩ => ⟨S64, .i32⟩
  | .hbm, ⟨90, _⟩ => ⟨S64, .i32⟩
  | .hbm, ⟨91, _⟩ => ⟨S64x1, .i32⟩
  | .hbm, ⟨92, _⟩ => ⟨S64x768, .f32⟩
  | .hbm, ⟨93, _⟩ => ⟨S64x1x768, .f32⟩
  | .hbm, ⟨94, _⟩ => ⟨S_, .i32⟩
  | .hbm, ⟨95, _⟩ => ⟨S64, .i32⟩
  | .hbm, ⟨96, _⟩ => ⟨S64, .i1⟩
  | .hbm, ⟨97, _⟩ => ⟨S_, .i32⟩
  | .hbm, ⟨98, _⟩ => ⟨S64, .i32⟩
  | .hbm, ⟨99, _⟩ => ⟨S64, .i32⟩
  | .hbm, ⟨100, _⟩ => ⟨S64, .i32⟩
  | .hbm, ⟨101, _⟩ => ⟨S64x1, .i32⟩
  | .hbm, ⟨102, _⟩ => ⟨S64x768, .f32⟩
  | .hbm, ⟨103, _⟩ => ⟨S64x1x768, .f32⟩
  | .hbm, ⟨104, _⟩ => ⟨S_, .i32⟩
  | .hbm, ⟨105, _⟩ => ⟨S64, .i32⟩
  | .hbm, ⟨106, _⟩ => ⟨S64, .i1⟩
  | .hbm, ⟨107, _⟩ => ⟨S_, .i32⟩
  | .hbm, ⟨108, _⟩ => ⟨S64, .i32⟩
  | .hbm, ⟨109, _⟩ => ⟨S64, .i32⟩
  | .hbm, ⟨110, _⟩ => ⟨S64, .i32⟩
  | .hbm, ⟨111, _⟩ => ⟨S64x1, .i32⟩
  | .hbm, ⟨112, _⟩ => ⟨S64x768, .f32⟩
  | .hbm, ⟨113, _⟩ => ⟨S64x1x768, .f32⟩
  | .hbm, ⟨114, _⟩ => ⟨S12x768x768, .bf16⟩
  | .hbm, ⟨115, _⟩ => ⟨S12x768x768, .bf16⟩
  | .hbm, ⟨116, _⟩ => ⟨S64x512x768, .f32⟩
  | .hbm, ⟨117, _⟩ => ⟨S64x512x768, .f32⟩
  | .hbm, ⟨118, _⟩ => ⟨S64x512x768, .f32⟩
  | .local _ .vmem, ⟨0, _⟩ => ⟨S1x256x768, .f32⟩
  | .local _ .vmem, ⟨1, _⟩ => ⟨S1x256x768, .f32⟩
  | .local _ .vmem, ⟨2, _⟩ => ⟨S1x256x1, .f32⟩
  | .local _ .vmem, ⟨3, _⟩ => ⟨S1x256x1, .f32⟩
  | .local _ .vmem, ⟨4, _⟩ => ⟨S12x768x768, .bf16⟩
  | .local _ .vmem, ⟨5, _⟩ => ⟨S1x1x768, .f32⟩
  | .local _ .vmem, ⟨6, _⟩ => ⟨S1x1x768, .f32⟩
  | .local _ .vmem, ⟨7, _⟩ => ⟨S1x1x768, .f32⟩
  | .local _ .vmem, ⟨8, _⟩ => ⟨S1x1x768, .f32⟩
  | .local _ .vmem, ⟨9, _⟩ => ⟨S12x768x768, .bf16⟩
  | .local _ .vmem, ⟨10, _⟩ => ⟨S1x1x768, .f32⟩
  | .local _ .vmem, ⟨11, _⟩ => ⟨S1x1x768, .f32⟩
  | .local _ .vmem, ⟨12, _⟩ => ⟨S1x1x768, .f32⟩
  | .local _ .vmem, ⟨13, _⟩ => ⟨S1x1x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | .local _ .smem, ⟨0, _⟩ => ⟨S64, .i32⟩
  | .local _ .smem, ⟨1, _⟩ => ⟨S64, .i32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v1 : Ref sig .tc := ⟨.hbm, 38, rfl⟩
abbrev main_cst : Ref sig .tc := ⟨.hbm, 39, rfl⟩
abbrev main_v2 : Ref sig .tc := ⟨.hbm, 40, rfl⟩
abbrev main_c_1 : Ref sig .tc := ⟨.hbm, 41, rfl⟩
abbrev main_v3 : Ref sig .tc := ⟨.hbm, 42, rfl⟩
abbrev main_v4 : Ref sig .tc := ⟨.hbm, 43, rfl⟩
abbrev main_c_2 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst_3 : Ref sig .tc := ⟨.hbm, 49, rfl⟩
abbrev main_v9 : Ref sig .tc := ⟨.hbm, 50, rfl⟩
abbrev main_v10 : Ref sig .tc := ⟨.hbm, 51, rfl⟩
abbrev main_c_4 : Ref sig .tc := ⟨.hbm, 52, rfl⟩
abbrev main_v11 : Ref sig .tc := ⟨.hbm, 53, rfl⟩
abbrev main_v12 : Ref sig .tc := ⟨.hbm, 54, rfl⟩
abbrev main_c_5 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_c_6 : Ref sig .tc := ⟨.hbm, 62, rfl⟩
abbrev main_c_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_c_8 : Ref sig .tc := ⟨.hbm, 69, rfl⟩
abbrev main_v20 : Ref sig .tc := ⟨.hbm, 70, rfl⟩
abbrev main_v21 : Ref sig .tc := ⟨.hbm, 71, rfl⟩
abbrev main_c_9 : Ref sig .tc := ⟨.hbm, 72, rfl⟩
abbrev main_v22 : Ref sig .tc := ⟨.hbm, 73, rfl⟩
abbrev main_c_10 : Ref sig .tc := ⟨.hbm, 74, rfl⟩
abbrev main_v24 : Ref sig .tc := ⟨.hbm, 75, rfl⟩
abbrev main_v25 : Ref sig .tc := ⟨.hbm, 76, rfl⟩
abbrev main_c_11 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_c_12 : Ref sig .tc := ⟨.hbm, 84, rfl⟩
abbrev main_v32 : Ref sig .tc := ⟨.hbm, 85, rfl⟩
abbrev main_v33 : Ref sig .tc := ⟨.hbm, 86, rfl⟩
abbrev main_c_13 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_c_14 : Ref sig .tc := ⟨.hbm, 94, rfl⟩
abbrev main_v40 : Ref sig .tc := ⟨.hbm, 95, rfl⟩
abbrev main_v41 : Ref sig .tc := ⟨.hbm, 96, rfl⟩
abbrev main_c_15 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_c_16 : Ref sig .tc := ⟨.hbm, 104, rfl⟩
abbrev main_v48 : Ref sig .tc := ⟨.hbm, 105, rfl⟩
abbrev main_v49 : Ref sig .tc := ⟨.hbm, 106, rfl⟩
abbrev main_c_17 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58_0 : Ref sig .tc := ⟨.hbm, 116, rfl⟩
abbrev main_v58_1 : Ref sig .tc := ⟨.hbm, 117, rfl⟩
abbrev main_v58_2 : Ref sig .tc := ⟨.hbm, 118, rfl⟩
abbrev main_v19 : Ref sig .tc := ⟨.smem, 0, rfl⟩
abbrev main_v23 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![64, 2], ![false, false]⟩

abbrev pre0 : Pipeline.Prefetch sig := ⟨2, ![main_v19.idx, main_v23.idx], fun | 0 => main_v19.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let v13 : Index := Scalar.indexCast v1
  let c0_11 : Index := 0#32
  let c0_12 : Index := 0#32
  ![v13.toNat, 0, 0]

def k0_chk1 (v1 : BitVec 32) : Prop :=
  (∀ a, (k0_off2 v1) a + S1x768x768.size a ≤ S12x768x768.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x768x768.size a ≤ S12x768x768.size a := fun v1 k0_hw1 => k0_hw1

def k0_off3 (v3 : BitVec 32) : Fin 3 → Nat :=
  let v46 : Index := Scalar.indexCast v3
  let c0_29 : Index := 0#32
  let c0_30 : Index := 0#32
  ![v46.toNat, 0, 0]
def k0_cond2 (v1 : BitVec 32) (v3 : BitVec 32) : BitVec 1 :=
  let v36 : BitVec 1 := Scalar.cmpi .eq v1 v3
  let v_true : BitVec 1 := 1#1
  let v39 : BitVec 1 := Scalar.xori v36 v_true
  let v40 : BitVec 32 := Scalar.extui v39
  let c0_i32_22 : BitVec 32 := 0#32
  let v41 : BitVec 1 := Scalar.cmpi .ne v40 c0_i32_22
  v41

def k0_chk2 (v1 : BitVec 32) (v3 : BitVec 32) : Prop :=
  (∀ (k0_h2 : k0_cond2 v1 v3 = 1#1), ∀ a, (k0_off3 v3) a + S1x768x768.size a ≤ S12x768x768.size a)
instance k0_chk2.dec : ∀ (v1 : BitVec 32) (v3 : BitVec 32), Decidable (k0_chk2 v1 v3) := fun v1 v3 => decidable_of_iff' _ (Iff.of_eq (k0_chk2.eq_1 v1 v3))
theorem k0_off3_inb : ∀ (v1 : BitVec 32) (v3 : BitVec 32) (k0_hw2 : k0_chk2 v1 v3), ∀ (k0_h2 : k0_cond2 v1 v3 = 1#1), ∀ a, (k0_off3 v3) a + S1x768x768.size a ≤ S12x768x768.size a := fun v1 v3 k0_hw2 k0_h2 => k0_hw2 k0_h2

def k0_cond1 (v1 : BitVec 32) (v3 : BitVec 32) : BitVec 1 :=
  let v36 : BitVec 1 := Scalar.cmpi .eq v1 v3
  let v37 : BitVec 32 := Scalar.extui v36
  let c0_i32 : BitVec 32 := 0#32
  let v38 : BitVec 1 := Scalar.cmpi .ne v37 c0_i32
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S12x768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S12x768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bcast_S_S5000 : S_.BroadcastsInDim S5000 (![] : Fin 0 → Fin S5000.rank)
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S1_S1x1x1_2 : S1.BroadcastsInDim S1x1x1 (![2] : Fin 1 → Fin S1x1x1.rank)
  bcast_S1x1x1_S64x512x1_0_1_2 : S1x1x1.BroadcastsInDim S64x512x1 (![0, 1, 2] : Fin 3 → Fin S64x512x1.rank)
  reducesTo_S64x512x1_S64x512_d2 : S64x512x1.ReducesTo [2] S64x512
  h_S_ : 0 < S_.numel
  bcast_S64x512_S64x512x768_0_1 : S64x512.BroadcastsInDim S64x512x768 (![0, 1] : Fin 2 → Fin S64x512x768.rank)
  bcast_S_S64x512x768 : S_.BroadcastsInDim S64x512x768 (![] : Fin 0 → Fin S64x512x768.rank)
  bcast_S_S30522 : S_.BroadcastsInDim S30522 (![] : Fin 0 → Fin S30522.rank)
  bcast_S5000_S5000x1_0 : S5000.BroadcastsInDim S5000x1 (![0] : Fin 1 → Fin S5000x1.rank)
  bcast_S_S64 : S_.BroadcastsInDim S64 (![] : Fin 0 → Fin S64.rank)
  bcast_S64_S64x1_0 : S64.BroadcastsInDim S64x1 (![0] : Fin 1 → Fin S64x1.rank)
  bcast_S64x768_S64x1x768_0_2 : S64x768.BroadcastsInDim S64x1x768 (![0, 2] : Fin 2 → Fin S64x1x768.rank)
  bitsLt_bf16_f32 : FTy.bits .bf16 < FTy.bits .f32
  numel1_S1 : S1.numel = 1
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x768_S1x1x768_0_0_0 : ∀ a, (![0, 0, 0] : Fin 3 → Nat) a + S1x1x768.size a ≤ S1x1x768.size a
  h_S1x1x768 : 0 < S1x1x768.numel
  shapeCasts_S1x1x768_S1x768 : S1x1x768.ShapeCasts S1x768
  h_S1x768x768 : 0 < S1x768x768.numel
  shapeCasts_S1x768x768_S768x768 : S1x768x768.ShapeCasts S768x768
  broadcasts_S1x768_S256x768 : S1x768.Broadcasts S256x768
  broadcasts_S256x1_S256x768 : S256x1.Broadcasts S256x768
  shapeCasts_S256x768_S1x256x768 : S256x768.ShapeCasts S1x256x768
  gather_S30522x768_S64x512x1_S64x512x768_2_0_n_n_0_2_1768_wf : GatherDims.WF S30522x768 S64x512x1 S64x512x768 [2] [0] [] [0] [] 2 ![1, 768]
  scatter_S30522_S5000x1_S5000_n_0_0_1_wf : ScatterDims.WF S30522 S5000x1 S5000 [] [0] [0] 1
  gather_S30522_S64x512x1_S64x512_n_0_n_n_0_2_1_wf : GatherDims.WF S30522 S64x512x1 S64x512 [] [0] [] [0] [] 2 ![1]
  gather_S12x768_S64x1_S64x768_1_0_n_n_0_1_1768_wf : GatherDims.WF S12x768 S64x1 S64x768 [1] [0] [] [0] [] 1 ![1, 768]
  dot_S256x768_S768x768_S256x768_1_0_0_1_n_n_wf : DotDims.WF S256x768 S768x768 S256x768 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S64x512x768.size a
  hwx0_0 : ∀ i : grid0.Coords, EltTy.bits .f32 = 32 ∨ (Rect.block (s := S64x512x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S64x512x1.size a
  hwx0_1 : ∀ i : grid0.Coords, EltTy.bits .f32 = 32 ∨ (Rect.block (s := S64x512x1) S1x256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x768x768.size a ≤ S12x768x768.size a
  hwx0_2 : ∀ i : grid0.Coords, EltTy.bits .bf16 = 32 ∨ (Rect.block (s := S12x768x768) S12x768x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x768.size a ≤ S64x1x768.size a
  hwx0_3 : ∀ i : grid0.Coords, EltTy.bits .f32 = 32 ∨ (Rect.block (s := S64x1x768) S1x1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x768.size a ≤ S64x1x768.size a
  hwx0_4 : ∀ i : grid0.Coords, EltTy.bits .f32 = 32 ∨ (Rect.block (s := S64x1x768) S1x1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x768x768.size a ≤ S12x768x768.size a
  hwx0_5 : ∀ i : grid0.Coords, EltTy.bits .bf16 = 32 ∨ (Rect.block (s := S12x768x768) S12x768x768.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x768.size a ≤ S64x1x768.size a
  hwx0_6 : ∀ i : grid0.Coords, EltTy.bits .f32 = 32 ∨ (Rect.block (s := S64x1x768) S1x1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x768.size a ≤ S64x1x768.size a
  hwx0_7 : ∀ i : grid0.Coords, EltTy.bits .f32 = 32 ∨ (Rect.block (s := S64x1x768) S1x1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x768.size a ≤ S64x512x768.size a
  hwx0_8 : ∀ i : grid0.Coords, EltTy.bits .f32 = 32 ∨ (Rect.block (s := S64x512x768) S1x256x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x768.size a ≤ S64x512x768.size a
  hwx0_9 : ∀ i : grid0.Coords, EltTy.bits .f32 = 32 ∨ (Rect.block (s := S64x512x768) S1x256x768.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x768.size a ≤ S64x512x768.size a
  hwx0_10 : ∀ i : grid0.Coords, EltTy.bits .f32 = 32 ∨ (Rect.block (s := S64x512x768) S1x256x768.size (cc0_transform_10 i) (hinb0_10 i)).WholeWords (EltTy.packing .f32)

variable [Facts₀]

def gather_S30522x768_S64x512x1_S64x512x768_2_0_n_n_0_2_1768 : GatherDims S30522x768 S64x512x1 S64x512x768 where
  offsetDims := [2]
  collapsedSliceDims := [0]
  operandBatchingDims := []
  startIndicesBatchingDims := []
  startIndexMap := [0]
  indexVectorDim := 2
  sliceSizes := ![1, 768]
  wf := gather_S30522x768_S64x512x1_S64x512x768_2_0_n_n_0_2_1768_wf
def scatter_S30522_S5000x1_S5000_n_0_0_1 : ScatterDims S30522 S5000x1 S5000 where
  updateWindowDims := []
  insertedWindowDims := [0]
  scatterDimsToOperandDims := [0]
  indexVectorDim := 1
  wf := scatter_S30522_S5000x1_S5000_n_0_0_1_wf
def gather_S30522_S64x512x1_S64x512_n_0_n_n_0_2_1 : GatherDims S30522 S64x512x1 S64x512 where
  offsetDims := []
  collapsedSliceDims := [0]
  operandBatchingDims := []
  startIndicesBatchingDims := []
  startIndexMap := [0]
  indexVectorDim := 2
  sliceSizes := ![1]
  wf := gather_S30522_S64x512x1_S64x512_n_0_n_n_0_2_1_wf
def gather_S12x768_S64x1_S64x768_1_0_n_n_0_1_1768 : GatherDims S12x768 S64x1 S64x768 where
  offsetDims := [1]
  collapsedSliceDims := [0]
  operandBatchingDims := []
  startIndicesBatchingDims := []
  startIndexMap := [0]
  indexVectorDim := 1
  sliceSizes := ![1, 768]
  wf := gather_S12x768_S64x1_S64x768_1_0_n_n_0_1_1768_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev spec0_0 : Pipeline.WinSpec sig grid0.rank :=
  Pipeline.WinSpec.ofSpec (Memref.whole main_v1) S1x256x768.size reads0_0 false false 2 stage0_0 sem0_0 nbuf0_0 hstage0_0

abbrev spec0_1 : Pipeline.WinSpec sig grid0.rank :=
  Pipeline.WinSpec.ofSpec (Memref.whole main_v18) S1x256x1.size reads0_1 false false 2 stage0_1 sem0_1 nbuf0_1 hstage0_1

abbrev spec0_2 : Pipeline.WinSpec sig grid0.rank :=
  Pipeline.WinSpec.ofSpec (Memref.whole main_v56) S12x768x768.size reads0_2 false true 1 stage0_2 sem0_2 nbuf0_2 hstage0_2

abbrev spec0_3 : Pipeline.WinSpec sig grid0.rank :=
  Pipeline.WinSpec.ofSpec (Memref.whole main_v31) S1x1x768.size reads0_3 false false 2 stage0_3 sem0_3 nbuf0_3 hstage0_3

abbrev spec0_4 : Pipeline.WinSpec sig grid0.rank :=
  Pipeline.WinSpec.ofSpec (Memref.whole main_v39) S1x1x768.size reads0_4 false false 2 stage0_4 sem0_4 nbuf0_4 hstage0_4

abbrev spec0_5 : Pipeline.WinSpec sig grid0.rank :=
  Pipeline.WinSpec.ofSpec (Memref.whole main_v57) S12x768x768.size reads0_5 false true 1 stage0_5 sem0_5 nbuf0_5 hstage0_5

abbrev spec0_6 : Pipeline.WinSpec sig grid0.rank :=
  Pipeline.WinSpec.ofSpec (Memref.whole main_v47) S1x1x768.size reads0_6 false false 2 stage0_6 sem0_6 nbuf0_6 hstage0_6

abbrev spec0_7 : Pipeline.WinSpec sig grid0.rank :=
  Pipeline.WinSpec.ofSpec (Memref.whole main_v55) S1x1x768.size reads0_7 false false 2 stage0_7 sem0_7 nbuf0_7 hstage0_7

abbrev spec0_8 : Pipeline.WinSpec sig grid0.rank :=
  Pipeline.WinSpec.ofSpec (Memref.whole main_v58_0) S1x256x768.size reads0_8 true false 2 stage0_8 sem0_8 nbuf0_8 hstage0_8

abbrev spec0_9 : Pipeline.WinSpec sig grid0.rank :=
  Pipeline.WinSpec.ofSpec (Memref.whole main_v58_1) S1x256x768.size reads0_9 true false 2 stage0_9 sem0_9 nbuf0_9 hstage0_9

abbrev spec0_10 : Pipeline.WinSpec sig grid0.rank :=
  Pipeline.WinSpec.ofSpec (Memref.whole main_v58_2) S1x256x768.size reads0_10 true false 2 stage0_10 sem0_10 nbuf0_10 hstage0_10

abbrev spec0 : Fin 11 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | ⟨_ + 11, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | ⟨_ + 11, h⟩ => absurd h (Nat.not_lt.2 (Nat.le_add_left _ _))
abbrev ix0 (pf : pre0.Contents (Elt F)) : (w : Fin 11) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | 10 => cc0_transform_10 | ⟨_ + 11, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | 10 => hreads0_10 | ⟨_ + 11, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | 10 => hinb0_10 | ⟨_ + 11, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | 10 => hwx0_10 | ⟨_ + 11, h⟩ => absurd h (Nat.not_lt.2 (Nat.le_add_left _ _))
abbrev idle0 (pf : pre0.Contents (Elt F)) : Fin 11 → grid0.Coords → Bool := fun | 0 => fun _ => false | 1 => fun _ => false | 2 => fun _ => false | 3 => fun _ => false | 4 => fun _ => false | 5 => fun _ => false | 6 => fun _ => false | 7 => fun _ => false | 8 => fun i => !(k0_cond1 (pf.atD 0 (k0_off1 i)) (pf.atD 1 (k0_off1 i)) == 1#1) && !(k0_cond2 (pf.atD 0 (k0_off1 i)) (pf.atD 1 (k0_off1 i)) == 1#1) | 9 => fun _ => false | 10 => fun _ => false | ⟨_ + 11, h⟩ => absurd h (Nat.not_lt.2 (Nat.le_add_left _ _))

class Facts : Prop extends Facts₀ where
  harr0 : ∀ w, (spec0 w).arr.IsWhole

variable [Facts]
-- ==== ReferenceIdeal.lean ====
abbrev S64x512 : Shape := ⟨2, ![64, 512]⟩
abbrev S64 : Shape := ⟨1, ![64]⟩
abbrev S5000 : Shape := ⟨1, ![5000]⟩
abbrev S30522x768 : Shape := ⟨2, ![30522, 768]⟩
abbrev S12x768x768 : Shape := ⟨3, ![12, 768, 768]⟩
abbrev S12x768 : Shape := ⟨2, ![12, 768]⟩
abbrev S_ : Shape := ⟨0, ![]⟩
abbrev S64x512x1 : Shape := ⟨3, ![64, 512, 1]⟩
abbrev S64x512x768 : Shape := ⟨3, ![64, 512, 768]⟩
abbrev S32768 : Shape := ⟨1, ![32768]⟩
abbrev S32768x1 : Shape := ⟨2, ![32768, 1]⟩
abbrev S1x5000 : Shape := ⟨2, ![1, 5000]⟩
abbrev S32768x5000 : Shape := ⟨2, ![32768, 5000]⟩
abbrev S64x1 : Shape := ⟨2, ![64, 1]⟩
abbrev S64x768x768 : Shape := ⟨3, ![64, 768, 768]⟩
abbrev S64x768 : Shape := ⟨2, ![64, 768]⟩
abbrev S64x1x768 : Shape := ⟨3, ![64, 1, 768]⟩

abbrev nBuf : Space → Nat
  | .hbm => 129
  | .vmem => 0
  | .smem => 0
  | _ => 0

abbrev hbmTy0_0 (i : Nat) : BufTy := match i % 128 with
  | 0 => ⟨S64x512, .i32⟩
  | 1 => ⟨S64, .i32⟩
  | 2 => ⟨S5000, .i32⟩
  | 3 => ⟨S30522x768, .f32⟩
  | 4 => ⟨S12x768x768, .f32⟩
  | 5 => ⟨S12x768, .f32⟩
  | 6 => ⟨S12x768x768, .f32⟩
  | 7 => ⟨S12x768, .f32⟩
  | 8 => ⟨S_, .i32⟩
  | 9 => ⟨S64x512, .i32⟩
  | 10 => ⟨S64x512, .i1⟩
  | 11 => ⟨S_, .i32⟩
  | 12 => ⟨S64x512, .i32⟩
  | 13 => ⟨S64x512, .i32⟩
  | 14 => ⟨S64x512, .i32⟩
  | 15 => ⟨S64x512x1, .i32⟩
  | 16 => ⟨S64x512x768, .f32⟩
  | 17 => ⟨S32768, .i32⟩
  | 18 => ⟨S32768x1, .i32⟩
  | 19 => ⟨S1x5000, .i32⟩
  | 20 => ⟨S32768x5000, .i32⟩
  | 21 => ⟨S32768x5000, .i32⟩
  | 22 => ⟨S32768x5000, .i1⟩
  | 23 => ⟨S_, .i1⟩
  | 24 => ⟨S32768, .i1⟩
  | 25 => ⟨S64x512, .i1⟩
  | 26 => ⟨S64x512x1, .i1⟩
  | 27 => ⟨S64x512x1, .f32⟩
  | 28 => ⟨S_, .i32⟩
  | 29 => ⟨S64, .i32⟩
  | 30 => ⟨S64, .i32⟩
  | 31 => ⟨S_, .i32⟩
  | 32 => ⟨S64, .i32⟩
  | 33 => ⟨S64, .i32⟩
  | 34 => ⟨S_, .i32⟩
  | 35 => ⟨S64, .i32⟩
  | 36 => ⟨S64, .i1⟩
  | 37 => ⟨S_, .i32⟩
  | 38 => ⟨S64, .i32⟩
  | 39 => ⟨S64, .i32⟩
  | 40 => ⟨S64, .i32⟩
  | 41 => ⟨S64x1, .i32⟩
  | 42 => ⟨S64x768x768, .f32⟩
  | 43 => ⟨S64x512x768, .f32⟩
  | 44 => ⟨S_, .i32⟩
  | 45 => ⟨S64, .i32⟩
  | 46 => ⟨S64, .i1⟩
  | 47 => ⟨S_, .i32⟩
  | 48 => ⟨S64, .i32⟩
  | 49 => ⟨S64, .i32⟩
  | 50 => ⟨S64, .i32⟩
  | 51 => ⟨S64x1, .i32⟩
  | 52 => ⟨S64x768, .f32⟩
  | 53 => ⟨S64x1x768, .f32⟩
  | 54 => ⟨S64x512x768, .f32⟩
  | 55 => ⟨S64x512x768, .f32⟩
  | 56 => ⟨S64x512x768, .f32⟩
  | 57 => ⟨S_, .i32⟩
  | 58 => ⟨S64, .i32⟩
  | 59 => ⟨S64, .i1⟩
  | 60 => ⟨S_, .i32⟩
  | 61 => ⟨S64, .i32⟩
  | 62 => ⟨S64, .i32⟩
  | 63 => ⟨S64, .i32⟩
  | 64 => ⟨S64x1, .i32⟩
  | 65 => ⟨S64x768x768, .f32⟩
  | 66 => ⟨S64x512x768, .f32⟩
  | 67 => ⟨S_, .i32⟩
  | 68 => ⟨S64, .i32⟩
  | 69 => ⟨S64, .i1⟩
  | 70 => ⟨S_, .i32⟩
  | 71 => ⟨S64, .i32⟩
  | 72 => ⟨S64, .i32⟩
  | 73 => ⟨S64, .i32⟩
  | 74 => ⟨S64x1, .i32⟩
  | 75 => ⟨S64x768, .f32⟩
  | 76 => ⟨S64x1x768, .f32⟩
  | 77 => ⟨S64x512x768, .f32⟩
  | 78 => ⟨S64x512x768, .f32⟩
  | 79 => ⟨S64x512x768, .f32⟩
  | 80 => ⟨S64x512x768, .f32⟩
  | 81 => ⟨S_, .i32⟩
  | 82 => ⟨S64, .i32⟩
  | 83 => ⟨S64, .i1⟩
  | 84 => ⟨S_, .i32⟩
  | 85 => ⟨S64, .i32⟩
  | 86 => ⟨S64, .i32⟩
  | 87 => ⟨S64, .i32⟩
  | 88 => ⟨S64x1, .i32⟩
  | 89 => ⟨S64x768x768, .f32⟩
  | 90 => ⟨S64x512x768, .f32⟩
  | 91 => ⟨S_, .i32⟩
  | 92 => ⟨S64, .i32⟩
  | 93 => ⟨S64, .i1⟩
  | 94 => ⟨S_, .i32⟩
  | 95 => ⟨S64, .i32⟩
  | 96 => ⟨S64, .i32⟩
  | 97 => ⟨S64, .i32⟩
  | 98 => ⟨S64x1, .i32⟩
  | 99 => ⟨S64x768, .f32⟩
  | 100 => ⟨S64x1x768, .f32⟩
  | 101 => ⟨S64x512x768, .f32⟩
  | 102 => ⟨S64x512x768, .f32⟩
  | 103 => ⟨S64x512x768, .f32⟩
  | 104 => ⟨S_, .i32⟩
  | 105 => ⟨S64, .i32⟩
  | 106 => ⟨S64, .i1⟩
  | 107 => ⟨S_, .i32⟩
  | 108 => ⟨S64, .i32⟩
  | 109 => ⟨S64, .i32⟩
  | 110 => ⟨S64, .i32⟩
  | 111 => ⟨S64x1, .i32⟩
  | 112 => ⟨S64x768x768, .f32⟩
  | 113 => ⟨S64x512x768, .f32⟩
  | 114 => ⟨S_, .i32⟩
  | 115 => ⟨S64, .i32⟩
  | 116 => ⟨S64, .i1⟩
  | 117 => ⟨S_, .i32⟩
  | 118 => ⟨S64, .i32⟩
  | 119 => ⟨S64, .i32⟩
  | 120 => ⟨S64, .i32⟩
  | 121 => ⟨S64x1, .i32⟩
  | 122 => ⟨S64x768, .f32⟩
  | 123 => ⟨S64x1x768, .f32⟩
  | 124 => ⟨S64x512x768, .f32⟩
  | 125 => ⟨S64x512x768, .f32⟩
  | 126 => ⟨S64x512x768, .f32⟩
  | 127 => ⟨S64x512x768, .f32⟩
  | _ => ⟨S64x512, .i32⟩

abbrev hbmTy0_1 (i : Nat) : BufTy := match i % 128 with
  | 0 => ⟨S64x512x768, .f32⟩
  | _ => ⟨S64x512, .i32⟩

abbrev hbmTy (i : Nat) : BufTy := match i / 128 with
  | 0 => hbmTy0_0 i
  | 1 => hbmTy0_1 i
  | _ => ⟨S64x512, .i32⟩

abbrev bufTy : (tb : Table) → Fin (tcTables nBuf tb) → BufTy
  | .hbm, ⟨i, _⟩ => hbmTy i
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_15 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_c_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  shapeCasts_S64x512_S32768 : S64x512.ShapeCasts S32768
  bcast_S32768_S32768x1_0 : S32768.BroadcastsInDim S32768x1 (![0] : Fin 1 → Fin S32768x1.rank)
  bcast_S5000_S1x5000_1 : S5000.BroadcastsInDim S1x5000 (![1] : Fin 1 → Fin S1x5000.rank)
  bcast_S32768x1_S32768x5000_0_1 : S32768x1.BroadcastsInDim S32768x5000 (![0, 1] : Fin 2 → Fin S32768x5000.rank)
  bcast_S1x5000_S32768x5000_0_1 : S1x5000.BroadcastsInDim S32768x5000 (![0, 1] : Fin 2 → Fin S32768x5000.rank)
  reducesTo_S32768x5000_S32768_d1 : S32768x5000.ReducesTo [1] S32768
  h_S_ : 0 < S_.numel
  shapeCasts_S32768_S64x512 : S32768.ShapeCasts S64x512
  bcast_S_S64 : S_.BroadcastsInDim S64 (![] : Fin 0 → Fin S64.rank)
  bcast_S64_S64x1_0 : S64.BroadcastsInDim S64x1 (![0] : Fin 1 → Fin S64x1.rank)
  bcast_S64x768_S64x1x768_0_2 : S64x768.BroadcastsInDim S64x1x768 (![0, 2] : Fin 2 → Fin S64x1x768.rank)
  bcast_S64x1x768_S64x512x768_0_1_2 : S64x1x768.BroadcastsInDim S64x512x768 (![0, 1, 2] : Fin 3 → Fin S64x512x768.rank)
  bcast_S64x512x1_S64x512x768_0_1_2 : S64x512x1.BroadcastsInDim S64x512x768 (![0, 1, 2] : Fin 3 → Fin S64x512x768.rank)
  gather_S30522x768_S64x512x1_S64x512x768_2_0_n_n_0_2_1768_wf : GatherDims.WF S30522x768 S64x512x1 S64x512x768 [2] [0] [] [0] [] 2 ![1, 768]
  gather_S12x768x768_S64x1_S64x768x768_12_0_n_n_0_1_1768768_wf : GatherDims.WF S12x768x768 S64x1 S64x768x768 [1, 2] [0] [] [0] [] 1 ![1, 768, 768]
  dot_S64x512x768_S64x768x768_S64x512x768_2_1_1_2_0_0_wf : DotDims.WF S64x512x768 S64x768x768 S64x512x768 [2] [1] [1] [2] [0] [0]
  gather_S12x768_S64x1_S64x768_1_0_n_n_0_1_1768_wf : GatherDims.WF S12x768 S64x1 S64x768 [1] [0] [] [0] [] 1 ![1, 768]

variable [Facts₀]

def gather_S30522x768_S64x512x1_S64x512x768_2_0_n_n_0_2_1768 : GatherDims S30522x768 S64x512x1 S64x512x768 where
  offsetDims := [2]
  collapsedSliceDims := [0]
  operandBatchingDims := []
  startIndicesBatchingDims := []
  startIndexMap := [0]
  indexVectorDim := 2
  sliceSizes := ![1, 768]
  wf := gather_S30522x768_S64x512x1_S64x512x768_2_0_n_n_0_2_1768_wf
def gather_S12x768x768_S64x1_S64x768x768_12_0_n_n_0_1_1768768 : GatherDims S12x768x768 S64x1 S64x768x768 where
  offsetDims := [1, 2]
  collapsedSliceDims := [0]
  operandBatchingDims := []
  startIndicesBatchingDims := []
  startIndexMap := [0]
  indexVectorDim := 1
  sliceSizes := ![1, 768, 768]
  wf := gather_S12x768x768_S64x1_S64x768x768_12_0_n_n_0_1_1768768_wf
def dot_S64x512x768_S64x768x768_S64x512x768_2_1_1_2_0_0 : DotDims S64x512x768 S64x768x768 S64x512x768 where
  lhsContracting := [2]
  rhsContracting := [1]
  lhsNonContracting := [1]
  rhsNonContracting := [2]
  lhsBatch := [0]
  rhsBatch := [0]
  wf := dot_S64x512x768_S64x768x768_S64x512x768_2_1_1_2_0_0_wf
def gather_S12x768_S64x1_S64x768_1_0_n_n_0_1_1768 : GatherDims S12x768 S64x1 S64x768 where
  offsetDims := [1]
  collapsedSliceDims := [0]
  operandBatchingDims := []
  startIndicesBatchingDims := []
  startIndexMap := [0]
  indexVectorDim := 1
  sliceSizes := ![1, 768]
  wf := gather_S12x768_S64x1_S64x768_1_0_n_n_0_1_1768_wf

class Facts : Prop extends Facts₀ where

variable [Facts]
-- ==== Proof.KIBase.lean ====
import proofs.«405048_j65712999629030_3_alg».proof.Proof.Gen.KernelIdeal.Launch
import proofs.«405048_j65712999629030_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch

The program is six stretches of host operations (the clip of the filter ids, the filling row gather, the scatter
of ones and its gather back, the clip of the times and the four bias gathers, the two weight conversions) and then
ONE launch over the grid 64 × 2 with two prefetched tables of 64 words each. -/

/-- Core `c`'s buffers when the launch is entered: the given memory after the six host stretches. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

/-- The program reduces to the launch holding the buffers at `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- No host operation before the launch writes argument 0: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 1: the launch finds it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 2: the launch finds it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 3: the launch finds it as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 4: the launch finds it as it was given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 5: the launch finds it as it was given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 6: the launch finds it as it was given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 7: the launch finds it as it was given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The two tables -/

/-- The tables' contents at the launch: the clipped times and the clipped times less one, floored at zero. -/
def tbl : pre0.Contents (Elt F) := fun j => V m (0 : Dev nD) (pre0.ref j)
/-- There is one device. -/
theorem V_pre (c : Dev nD) (j : Fin 2) : V m c (pre0.ref j) = tbl m j := by
  obtain rfl : c = 0 := Subsingleton.elim _ _; rfl
/-- No index map reads a table, so every contents is admissible. -/
abbrev adm : (pcfg0 (F := F)).Adm := ⟨tbl m, trivial⟩
abbrev cfgM : Pipeline.Cfg sig Λ₀ := cfg0 (adm m)

/-- Each table as the body is handed it. -/
abbrev tbM0_0 : Memref sig .tc .smem S64 .i32 := Memref.whole main_v19
abbrev htbM0_0 : tbM0_0.IsWhole := Memref.isWhole_whole _
abbrev tbM0_1 : Memref sig .tc .smem S64 .i32 := Memref.whole main_v23
abbrev htbM0_1 : tbM0_1.IsWhole := Memref.isWhole_whole _

abbrev TbBuf0 (c : Dev nD) {S : Shape} {e : EltTy} (M : Memref sig .tc .smem S e) : Type := Buf (Elt F) (M.view.loc (c : Thread nD τ))
/-- A table held read-only: half the full share. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the launch lends the body, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the launch finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current staging buffer holds the window's block of the array at every point, fetched there or not. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block of the array at every point, fetched there or not. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block of the array at every point, fetched there or not. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block of the array at every point, fetched there or not. -/
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block of the array at every point, fetched there or not. -/
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block of the array at every point, fetched there or not. -/
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block of the array at every point, fetched there or not. -/
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds the window's block of the array at every point, fetched there or not. -/
theorem before0_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs and the body at a point -/

abbrev ms0_0 (t : Fin (cfgM m).N) : Memref sig .tc .vmem S1x256x768 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x256x1 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S12x768x768 .bf16 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x1x768 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x1x768 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S12x768x768 .bf16 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x1x768 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S1x1x768 .f32 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S1x256x768 .f32 := spec0_8.stage ((cfgM m).slots t 8)
abbrev hs0_8 (t : Fin (cfgM m).N) : (ms0_8 m t).IsWhole := hstage0_8 (((cfgM m).slots t 8).cast nbuf0_8)
abbrev ms0_9 (t : Fin (cfgM m).N) : Memref sig .tc .vmem S1x256x768 .f32 := spec0_9.stage ((cfgM m).slots t 9)
abbrev hs0_9 (t : Fin (cfgM m).N) : (ms0_9 m t).IsWhole := hstage0_9 (((cfgM m).slots t 9).cast nbuf0_9)
abbrev ms0_10 (t : Fin (cfgM m).N) : Memref sig .tc .vmem S1x256x768 .f32 := spec0_10.stage ((cfgM m).slots t 10)
abbrev hs0_10 (t : Fin (cfgM m).N) : (ms0_10 m t).IsWhole := hstage0_10 (((cfgM m).slots t 10).cast nbuf0_10)

/-- The kernel body as the launch calls it at point `t`. -/
abbrev bodyAt0 (a : (pcfg0 (F := F)).Adm) (t : Fin (cfg0 a).N) : Prog (TpuEff nD τ sig (Elt F) Λ₀ .tc) PUnit :=
  cc0__offset_routing_kernel (grid0.coords t) (Memref.whole main_v19) (Memref.isWhole_whole _) (Memref.whole main_v23) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10))

/-- One staging buffer of each output window, through which its contents are stated. -/
abbrev VO0_8 : View sig .tc .vmem S1x256x768 .f32 := (Memref.whole cc0_stg8_0 : Memref sig .tc .vmem S1x256x768 .f32).view
abbrev VO0_9 : View sig .tc .vmem S1x256x768 .f32 := (Memref.whole cc0_stg9_0 : Memref sig .tc .vmem S1x256x768 .f32).view
abbrev VO0_10 : View sig .tc .vmem S1x256x768 .f32 := (Memref.whole cc0_stg10_0 : Memref sig .tc .vmem S1x256x768 .f32).view

/-! ## The two words the body reads, and what it assumes of them -/

/-- The word the body reads from a table at grid coordinates `i`: the entry at the first coordinate. -/
abbrev word0 (c : Dev nD) (xt0 : TbBuf0 (F := F) c tbM0_0) (i : grid0.Coords) : Elt F .i32 :=
  tbM0_0.view.readAt (Elt F) (Rect.unit (s := S64) (k0_off1 i) S1.size (k0_off1_inb i)).toLoadRect xt0 (Shape.Idx.first (numel1_S1.symm ▸ Nat.one_pos))
abbrev word1 (c : Dev nD) (xt1 : TbBuf0 (F := F) c tbM0_1) (i : grid0.Coords) : Elt F .i32 :=
  tbM0_1.view.readAt (Elt F) (Rect.unit (s := S64) (k0_off1 i) S1.size (k0_off1_inb i)).toLoadRect xt1 (Shape.Idx.first (numel1_S1.symm ▸ Nat.one_pos))

end Cert.KernelIdeal.Route

end
-- ==== Proof.KIHyps.lean ====
import proofs.«405048_j65712999629030_3_alg».proof.Proof.KIBase

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches are complementary -/

/-- The second conditional's test is the negation of the first's: both are read off the one bit "the two words agree". -/
theorem cond2_iff_not_cond1 (v1 v3 : BitVec 32) : k0_cond2 v1 v3 = 1#1 ↔ ¬ k0_cond1 v1 v3 = 1#1 := by
  unfold k0_cond1 k0_cond2
  generalize Scalar.cmpi .eq v1 v3 = b
  revert b; decide

/-! ## No window is idle at any point -/

/-- The `last` output is written at every point: one of the two conditionals stores into it, whatever the two words are. -/
theorem idle8_false (pf : pre0.Contents (Elt F)) (i : grid0.Coords) : idle0 pf 8 i = false := by
  show (!(k0_cond1 (pf.atD 0 (k0_off1 i)) (pf.atD 1 (k0_off1 i)) == 1#1) && !(k0_cond2 (pf.atD 0 (k0_off1 i)) (pf.atD 1 (k0_off1 i)) == 1#1)) = false
  by_cases h : k0_cond1 (pf.atD 0 (k0_off1 i)) (pf.atD 1 (k0_off1 i)) = 1#1
  · simp [h]
  · have h2 := (cond2_iff_not_cond1 (pf.atD 0 (k0_off1 i)) (pf.atD 1 (k0_off1 i))).mpr h
    simp [h2]

/-- At any admissible contents of the tables, no window is idle anywhere. -/
theorem idle_all (a : (pcfg0 (F := F)).Adm) (w : Fin 11) (i : grid0.Coords) : (cfg0 a).idle w i = false := by
  have h : (cfg0 a).idle w i = idle0 a.1 w i := rfl
  rw [h]
  fin_cases w <;> first | rfl | exact idle8_false _ _

/-! ## What the body assumes of the two words, at every point -/

/-- At every point, the slot word is at most 11, and so is the earlier-slot word where the two differ: the two
    slabs of twelve the body loads by them lie inside the weight tables. -/
def Hyps (m : (ℓ : Loc nD τ sig) → Buf (Elt F) ℓ) : Prop :=
  ∀ (c : Dev nD) (t : Fin (cfgM m).N), k0_chk1 (word0 c (tbl m 0) (grid0.coords t)) ∧ k0_chk2 (word0 c (tbl m 0) (grid0.coords t)) (word1 c (tbl m 1) (grid0.coords t))

variable {m} in
theorem Hyps.c0 (hH : Hyps m) (c : Dev nD) (t : Fin (cfgM m).N) : k0_chk1 (word0 c (tbl m 0) (grid0.coords t)) := (hH c t).1
variable {m} in
theorem Hyps.c1 (hH : Hyps m) (c : Dev nD) (t : Fin (cfgM m).N) : k0_chk2 (word0 c (tbl m 0) (grid0.coords t)) (word1 c (tbl m 1) (grid0.coords t)) := (hH c t).2

end Cert.KernelIdeal.Route

end
-- ==== Proof.Spec.lean ====
/-
  What both programs compute, as functions of the eight argument arrays, index by index over the extended reals.

  A token id `reviews[b, l]` selects a row `x` of the embedding table (768 numbers). A time `t ∈ [0, 12)` selects a
  pair of 768 × 768 matrices and two bias rows, and the routed map of a row is
      mlp x = tanh (x · W1[t] + b1[t]) · W2[t] + b2[t]            (row-vector times matrix, tanh entry by entry).
  The membership bit of a token is 1 when its id occurs in the filter list and 0 otherwise. The three results are
      last[b, l, :] = mlp at time max (times[b] − 1, 0), times the membership bit,
      now [b, l, :] = mlp at time times[b],               times the membership bit,
      emb [b, l, :] = x + now[b, l, :].
  Under the certificate's precondition every token id lies in [0, 30522), every time in [0, 12); the three index readers
  below clamp so that they are total, and on those ranges the clamp does nothing.
-/
import Idealize.ShloMosaic.PureOps.Ideal
import Idealize.ShloMosaic.Lib.ValueIdx

noncomputable section

namespace Cert.Spec

open Idealize.ShloMosaic Idealize.ShloMosaic.ValueIdx

abbrev S64x512 : Shape := ⟨2, ![64, 512]⟩
abbrev S64 : Shape := ⟨1, ![64]⟩
abbrev S5000 : Shape := ⟨1, ![5000]⟩
abbrev S30522x768 : Shape := ⟨2, ![30522, 768]⟩
abbrev S12x768x768 : Shape := ⟨3, ![12, 768, 768]⟩
abbrev S12x768 : Shape := ⟨2, ![12, 768]⟩
abbrev S64x512x768 : Shape := ⟨3, ![64, 512, 768]⟩

/-- A token id read as a row of the embedding table. -/
def rowOf (w : BitVec 32) : Fin 30522 := ⟨min w.toInt.toNat 30521, by omega⟩
/-- A time read as a slot of the twelve. -/
def slotOf (w : BitVec 32) : Fin 12 := ⟨min w.toInt.toNat 11, by omega⟩
/-- The slot before a time's, the first slot its own predecessor: `max (t − 1) 0`. -/
def prevOf (w : BitVec 32) : Fin 12 := ⟨min (w.toInt.toNat - 1) 11, by omega⟩

/-- The routed map on one row: `tanh (x · w1 + c1) · w2 + c2`, read at output coordinate `e`. -/
def mlp (x : Fin 768 → EReal) (w1 : Fin 768 → Fin 768 → EReal) (c1 : Fin 768 → EReal)
    (w2 : Fin 768 → Fin 768 → EReal) (c2 : Fin 768 → EReal) (e : Fin 768) : EReal :=
  (∑ k : Fin 768, Ideal.tanh ((∑ d : Fin 768, x d * w1 d k) + c1 k) * w2 k e) + c2 e

section
variable (rv : IVec S64x512 32) (tm : IVec S64 32) (vf : IVec S5000 32) (emb : FVec Ideal S30522x768 .f32)
  (W1 : FVec Ideal S12x768x768 .f32) (b1 : FVec Ideal S12x768 .f32) (W2 : FVec Ideal S12x768x768 .f32) (b2 : FVec Ideal S12x768 .f32)

/-- The embedding row of token `(b, l)`. -/
def embRow (b : Fin 64) (l : Fin 512) (d : Fin 768) : EReal := emb (ix2 (rowOf (rv (ix2 b l))) d)

/-- The membership bit of token `(b, l)`, as a number. -/
def member (b : Fin 64) (l : Fin 512) : EReal := if ∃ j : Fin 5000, vf (ix1 j) = rv (ix2 b l) then 1 else 0

/-- The routed map of token `(b, l)` at slot `t`. -/
def offsetAt (t : Fin 12) (b : Fin 64) (l : Fin 512) (e : Fin 768) : EReal :=
  mlp (embRow rv emb b l) (fun d k => W1 (ix3 t d k)) (fun k => b1 (ix2 t k)) (fun k e => W2 (ix3 t k e)) (fun e => b2 (ix2 t e)) e

def lastAt (b : Fin 64) (l : Fin 512) (e : Fin 768) : EReal :=
  offsetAt rv emb W1 b1 W2 b2 (prevOf (tm (ix1 b))) b l e * member rv vf b l
def nowAt (b : Fin 64) (l : Fin 512) (e : Fin 768) : EReal :=
  offsetAt rv emb W1 b1 W2 b2 (slotOf (tm (ix1 b))) b l e * member rv vf b l
def embAt (b : Fin 64) (l : Fin 512) (e : Fin 768) : EReal :=
  embRow rv emb b l e + nowAt rv tm vf emb W1 b1 W2 b2 b l e

/-- The three results as arrays. -/
def Glast : FVec Ideal S64x512x768 .f32 := fun i => lastAt rv tm vf emb W1 b1 W2 b2 (i 0) (i 1) (i 2)
def Gnow : FVec Ideal S64x512x768 .f32 := fun i => nowAt rv tm vf emb W1 b1 W2 b2 (i 0) (i 1) (i 2)
def Gemb : FVec Ideal S64x512x768 .f32 := fun i => embAt rv tm vf emb W1 b1 W2 b2 (i 0) (i 1) (i 2)

theorem Glast_ix3 (b : Fin 64) (l : Fin 512) (e : Fin 768) : Glast rv tm vf emb W1 b1 W2 b2 (ix3 b l e) = lastAt rv tm vf emb W1 b1 W2 b2 b l e := rfl
theorem Gnow_ix3 (b : Fin 64) (l : Fin 512) (e : Fin 768) : Gnow rv tm vf emb W1 b1 W2 b2 (ix3 b l e) = nowAt rv tm vf emb W1 b1 W2 b2 b l e := rfl
theorem Gemb_ix3 (b : Fin 64) (l : Fin 512) (e : Fin 768) : Gemb rv tm vf emb W1 b1 W2 b2 (ix3 b l e) = embAt rv tm vf emb W1 b1 W2 b2 b l e := rfl

end

/-- The ranges the precondition gives the three integer inputs. -/
structure InRange (rv : IVec S64x512 32) (tm : IVec S64 32) (vf : IVec S5000 32) : Prop where
  rv : ∀ j, 0 ≤ (rv j).toInt ∧ (rv j).toInt < 30522
  tm : ∀ j, 0 ≤ (tm j).toInt ∧ (tm j).toInt < 12
  vf : ∀ j, 0 ≤ (vf j).toInt ∧ (vf j).toInt < 30522

end Cert.Spec

end
-- ==== Proof.KIArgs.lean ====
import proofs.«405048_j65712999629030_3_alg».proof.Proof.KIHyps
import proofs.«405048_j65712999629030_3_alg».proof.Proof.Spec
import Idealize.ShloMosaic.Lib.ValueIdx

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

/-! ## The eight argument arrays on a core, and a point's two coordinates -/

abbrev rvArr (c : Dev nD) : IVec S64x512 32 := m ((c : Thread nD τ).loc main_arg0)
abbrev tmArr (c : Dev nD) : IVec S64 32 := m ((c : Thread nD τ).loc main_arg1)
abbrev vfArr (c : Dev nD) : IVec S5000 32 := m ((c : Thread nD τ).loc main_arg2)
abbrev embArr (c : Dev nD) : FVec F S30522x768 .f32 := m ((c : Thread nD τ).loc main_arg3)
abbrev w1Arr (c : Dev nD) : FVec F S12x768x768 .f32 := m ((c : Thread nD τ).loc main_arg4)
abbrev b1Arr (c : Dev nD) : FVec F S12x768 .f32 := m ((c : Thread nD τ).loc main_arg5)
abbrev w2Arr (c : Dev nD) : FVec F S12x768x768 .f32 := m ((c : Thread nD τ).loc main_arg6)
abbrev b2Arr (c : Dev nD) : FVec F S12x768 .f32 := m ((c : Thread nD τ).loc main_arg7)

/-- A grid point's batch row (first coordinate, of 64) and its half of the sequence (second coordinate, of 2). -/
def bOf (i : grid0.Coords) : Fin 64 := i 0
def lOf (i : grid0.Coords) : Fin 2 := i 1

/-- The ranges of the three integer arrays on core `c`. -/
abbrev InR (c : Dev nD) : Prop := Cert.Spec.InRange (rvArr m c) (tmArr m c) (vfArr m c)

end Cert.KernelIdeal.Route

end
-- ==== Proof.KIRunA.lean ====
import proofs.«405048_j65712999629030_3_alg».proof.Proof.KIBase

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 4000000 in
/-- THE BODY WHEN THE TWO TABLE WORDS AGREE (the clipped time is 0, so is its predecessor): what the stores leave in the three output buffers, as pieces, with the proof that the body runs from whole staging buffers — the eight inputs at their contents, the three outputs at anything, the two tables lent read-only — to the continuation holding the inputs and tables as they were and each output with its pieces written. The first conditional is taken (the `now` product is stored as the `last` output too), the second is not. -/
noncomputable def kernelRun0_A (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i))
    (hc1 : k0_cond1 (word0 c xt0 i) (word1 c xt1 i) = 1#1) (hc2 : ¬ k0_cond2 (word0 c xt0 i) (word1 c xt1 i) = 1#1) :
    { L : List (View.Piece (Elt F) S1x256x768 .f32) × List (View.Piece (Elt F) S1x256x768 .f32) × List (View.Piece (Elt F) S1x256x768 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
            ∗ (∃ d, owns (c : Thread nD τ) arg12 fullShare d) ∗ (∃ d, owns (c : Thread nD τ) arg13 fullShare d) ∗ (∃ d, owns (c : Thread nD τ) arg14 fullShare d)
            ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
                ∗ (∃ f, arg12.view.loc (c : Thread nD τ) ↦[arg12.view.set]{fullShare} arg12.view.writes (Elt F) f L.1)
                ∗ (∃ f, arg13.view.loc (c : Thread nD τ) ↦[arg13.view.set]{fullShare} arg13.view.writes (Elt F) f L.2.1)
                ∗ (∃ f, arg14.view.loc (c : Thread nD τ) ↦[arg14.view.set]{fullShare} arg14.view.writes (Elt F) f L.2.2)
                ∗ tbPt0 c tbM0_0 xt0 ∗ tbPt0 c tbM0_1 xt1) -∗ K ⟨⟩))
          ⊢ wp frame (wpE (defs₀ (F := F)) Variants.none c none) E (cc0__offset_routing_kernel i tbM0_0 htbM0_0 tbM0_1 htbM0_1 arg4 harg4 arg5 harg5 arg6 harg6 arg7 harg7 arg8 harg8 arg9 harg9 arg10 harg10 arg11 harg11 arg12 harg12 arg13 harg13 arg14 harg14) K } := by
  refine ⟨(?_, ?_, ?_), fun E K => ?run⟩
  case run =>
    simp only [cc0__offset_routing_kernel_eq_skeleton]; unfold cc0__offset_routing_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT0, HT1, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf5; obtain rfl := harg10.eq_unread hf6; obtain rfl := harg11.eq_unread hf7
    sl_exec (disch := first | sl_exact k0_hw1 | sl_exact k0_hw2 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]; · iexists _; iexact H8
    isplitl [H9]; · iexists _; iexact H9
    isplitl [H10]; · iexists _; iexact H10
    isplitl [HT0]; · iexact HT0
    iexact HT1

end Cert.KernelIdeal.Route

end
-- ==== Proof.KIRunB.lean ====
import proofs.«405048_j65712999629030_3_alg».proof.Proof.KIBase

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 4000000 in
/-- THE BODY WHEN THE TWO TABLE WORDS DIFFER (the clipped time is positive): what the stores leave in the three output buffers, as pieces, with the proof that the body runs from whole staging buffers — the eight inputs at their contents, the three outputs at anything, the two tables lent read-only — to the continuation holding the inputs and tables as they were and each output with its pieces written. The first conditional is skipped; the second is taken: the routed map is computed again with the weights and biases of the earlier slot and stored as the `last` output. -/
noncomputable def kernelRun0_B (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i))
    (hc1 : ¬ k0_cond1 (word0 c xt0 i) (word1 c xt1 i) = 1#1) (hc2 : k0_cond2 (word0 c xt0 i) (word1 c xt1 i) = 1#1) :
    { L : List (View.Piece (Elt F) S1x256x768 .f32) × List (View.Piece (Elt F) S1x256x768 .f32) × List (View.Piece (Elt F) S1x256x768 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
            ∗ (∃ d, owns (c : Thread nD τ) arg12 fullShare d) ∗ (∃ d, owns (c : Thread nD τ) arg13 fullShare d) ∗ (∃ d, owns (c : Thread nD τ) arg14 fullShare d)
            ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
                ∗ (∃ f, arg12.view.loc (c : Thread nD τ) ↦[arg12.view.set]{fullShare} arg12.view.writes (Elt F) f L.1)
                ∗ (∃ f, arg13.view.loc (c : Thread nD τ) ↦[arg13.view.set]{fullShare} arg13.view.writes (Elt F) f L.2.1)
                ∗ (∃ f, arg14.view.loc (c : Thread nD τ) ↦[arg14.view.set]{fullShare} arg14.view.writes (Elt F) f L.2.2)
                ∗ tbPt0 c tbM0_0 xt0 ∗ tbPt0 c tbM0_1 xt1) -∗ K ⟨⟩))
          ⊢ wp frame (wpE (defs₀ (F := F)) Variants.none c none) E (cc0__offset_routing_kernel i tbM0_0 htbM0_0 tbM0_1 htbM0_1 arg4 harg4 arg5 harg5 arg6 harg6 arg7 harg7 arg8 harg8 arg9 harg9 arg10 harg10 arg11 harg11 arg12 harg12 arg13 harg13 arg14 harg14) K } := by
  refine ⟨(?_, ?_, ?_), fun E K => ?run⟩
  case run =>
    simp only [cc0__offset_routing_kernel_eq_skeleton]; unfold cc0__offset_routing_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT0, HT1, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf5; obtain rfl := harg10.eq_unread hf6; obtain rfl := harg11.eq_unread hf7
    sl_exec (disch := first | sl_exact k0_hw1 | sl_exact k0_hw2 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]; · iexists _; iexact H8
    isplitl [H9]; · iexists _; iexact H9
    isplitl [H10]; · iexists _; iexact H10
    isplitl [HT0]; · iexact HT0
    iexact HT1

end Cert.KernelIdeal.Route

end
-- ==== Proof.KIOuts.lean ====
import proofs.«405048_j65712999629030_3_alg».proof.Proof.KIRunA
import proofs.«405048_j65712999629030_3_alg».proof.Proof.KIRunB

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the three output buffers -/

/-- Case A's one store into the `last` output's buffer is of the whole block, so its pieces cover it. -/
theorem cover0_A_8 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) (y : S1x256x768.Idx) :
    ∃ pc ∈ (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1 S1x256x768.size (by sl_kernel_rfl) y

/-- What case A leaves in the `last` output's staging buffer: its pieces read back. -/
def out0_A_8 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) : Vec F S1x256x768 .f32 :=
  VO0_8.read (Elt F) (VO0_8.writes (Elt F) VO0_8.junk (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1)

/-- Case A's one store into the `now` output's buffer is of the whole block, so its pieces cover it. -/
theorem cover0_A_9 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) (y : S1x256x768.Idx) :
    ∃ pc ∈ (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1 S1x256x768.size (by sl_kernel_rfl) y

/-- What case A leaves in the `now` output's staging buffer: its pieces read back. -/
def out0_A_9 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) : Vec F S1x256x768 .f32 :=
  VO0_9.read (Elt F) (VO0_9.writes (Elt F) VO0_9.junk (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1)

/-- Case A's one store into the sum output's buffer is of the whole block, so its pieces cover it. -/
theorem cover0_A_10 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) (y : S1x256x768.Idx) :
    ∃ pc ∈ (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2 S1x256x768.size (by sl_kernel_rfl) y

/-- What case A leaves in the sum output's staging buffer: its pieces read back. -/
def out0_A_10 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) : Vec F S1x256x768 .f32 :=
  VO0_10.read (Elt F) (VO0_10.writes (Elt F) VO0_10.junk (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2)

/-- Case B's one store into the `last` output's buffer is of the whole block, so its pieces cover it. -/
theorem cover0_B_8 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) (y : S1x256x768.Idx) :
    ∃ pc ∈ (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1 S1x256x768.size (by sl_kernel_rfl) y

/-- What case B leaves in the `last` output's staging buffer: its pieces read back. -/
def out0_B_8 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) : Vec F S1x256x768 .f32 :=
  VO0_8.read (Elt F) (VO0_8.writes (Elt F) VO0_8.junk (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1)

/-- Case B's one store into the `now` output's buffer is of the whole block, so its pieces cover it. -/
theorem cover0_B_9 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) (y : S1x256x768.Idx) :
    ∃ pc ∈ (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1 S1x256x768.size (by sl_kernel_rfl) y

/-- What case B leaves in the `now` output's staging buffer: its pieces read back. -/
def out0_B_9 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) : Vec F S1x256x768 .f32 :=
  VO0_9.read (Elt F) (VO0_9.writes (Elt F) VO0_9.junk (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1)

/-- Case B's one store into the sum output's buffer is of the whole block, so its pieces cover it. -/
theorem cover0_B_10 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) (y : S1x256x768.Idx) :
    ∃ pc ∈ (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2 S1x256x768.size (by sl_kernel_rfl) y

/-- What case B leaves in the sum output's staging buffer: its pieces read back. -/
def out0_B_10 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) : Vec F S1x256x768 .f32 :=
  VO0_10.read (Elt F) (VO0_10.writes (Elt F) VO0_10.junk (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2)

end Cert.KernelIdeal.Route

end
-- ==== Proof.KIPieces.lean ====
import proofs.«405048_j65712999629030_3_alg».proof.Proof.KIOuts
import Idealize.ShloMosaic.Lib.Pipeline.Value

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave, as the body's arithmetic over the loaded blocks

Every output is written by ONE store of its whole 1 × 256 × 768 block, so the buffer ends holding that store's value:
the body's pure term over the blocks it loaded — the four small windows whole, and out of each weight table the
768 × 768 slab at the offset a table word names. -/

theorem hz3 : (![0, 0, 0] : Fin 3 → Nat) = fun _ => 0 := funext fun a => by fin_cases a <;> rfl

/-- The 768 × 768 slab of a weight table at offset `off` along the leading axis. -/
abbrev slab (x : Vec F S12x768x768 .bf16) (off : Fin 3 → Nat) (h : ∀ a, off a + S1x768x768.size a ≤ S12x768x768.size a) :
    Vec F S1x768x768 .bf16 :=
  View.ld x (Rect.unit (s := S12x768x768) off S1x768x768.size h)

/-- The `now` output's buffer ends holding the routed map of the block at the slot word's slabs, times the membership column. -/
theorem out0_A_9_eq (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) :
    out0_A_9 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2 = k0_pay8 x0 x1 x3 x6 (slab x2 (k0_off2 (word0 c xt0 i)) (k0_off2_inb _ k0_hw1)) (slab x5 (k0_off2 (word0 c xt0 i)) (k0_off2_inb _ k0_hw1)) := by
  unfold out0_A_9
  rw [View.read_writes_eq_canon _ _ _ (cover0_A_9 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2)]
  unfold kernelRun0_A
  dsimp only
  try sl_unfold_words
  rw [View.canon_unit_zero hz3]
  simp only [View.readAt_eq_ld, harg4.read_unread, harg5.read_unread, harg6.read_unread, harg7.read_unread, harg8.read_unread, harg9.read_unread, harg10.read_unread, harg11.read_unread,
    View.ld_unit_zero (S := S1x256x768) hz3, View.ld_unit_zero (S := S1x256x1) hz3, View.ld_unit_zero (S := S1x1x768) hz3]
  try rfl

/-- Where the two words agree, the `last` output's buffer ends holding the `now` product. -/
theorem out0_A_8_eq (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) :
    out0_A_8 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2 = k0_pay2 (k0_pay7 x0 x1 x3 x6 (slab x2 (k0_off2 (word0 c xt0 i)) (k0_off2_inb _ k0_hw1)) (slab x5 (k0_off2 (word0 c xt0 i)) (k0_off2_inb _ k0_hw1))) := by
  unfold out0_A_8
  rw [View.read_writes_eq_canon _ _ _ (cover0_A_8 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2)]
  unfold kernelRun0_A
  dsimp only
  try sl_unfold_words
  rw [View.canon_unit_zero hz3]
  simp only [View.readAt_eq_ld, harg4.read_unread, harg5.read_unread, harg6.read_unread, harg7.read_unread, harg8.read_unread, harg9.read_unread, harg10.read_unread, harg11.read_unread,
    View.ld_unit_zero (S := S1x256x768) hz3, View.ld_unit_zero (S := S1x256x1) hz3, View.ld_unit_zero (S := S1x1x768) hz3]
  try rfl

/-- The sum output's buffer ends holding the block plus the `now` product. -/
theorem out0_A_10_eq (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) :
    out0_A_10 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2 = k0_pay1 (k0_pay9 x0 x1 x3 x6 (slab x2 (k0_off2 (word0 c xt0 i)) (k0_off2_inb _ k0_hw1)) (slab x5 (k0_off2 (word0 c xt0 i)) (k0_off2_inb _ k0_hw1))) := by
  unfold out0_A_10
  rw [View.read_writes_eq_canon _ _ _ (cover0_A_10 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2)]
  unfold kernelRun0_A
  dsimp only
  try sl_unfold_words
  rw [View.canon_unit_zero hz3]
  simp only [View.readAt_eq_ld, harg4.read_unread, harg5.read_unread, harg6.read_unread, harg7.read_unread, harg8.read_unread, harg9.read_unread, harg10.read_unread, harg11.read_unread,
    View.ld_unit_zero (S := S1x256x768) hz3, View.ld_unit_zero (S := S1x256x1) hz3, View.ld_unit_zero (S := S1x1x768) hz3]
  try rfl

/-- The `now` output's buffer, as in the other case. -/
theorem out0_B_9_eq (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) :
    out0_B_9 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2 = k0_pay8 x0 x1 x3 x6 (slab x2 (k0_off2 (word0 c xt0 i)) (k0_off2_inb _ k0_hw1)) (slab x5 (k0_off2 (word0 c xt0 i)) (k0_off2_inb _ k0_hw1)) := by
  unfold out0_B_9
  rw [View.read_writes_eq_canon _ _ _ (cover0_B_9 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2)]
  unfold kernelRun0_B
  dsimp only
  try sl_unfold_words
  rw [View.canon_unit_zero hz3]
  simp only [View.readAt_eq_ld, harg4.read_unread, harg5.read_unread, harg6.read_unread, harg7.read_unread, harg8.read_unread, harg9.read_unread, harg10.read_unread, harg11.read_unread,
    View.ld_unit_zero (S := S1x256x768) hz3, View.ld_unit_zero (S := S1x256x1) hz3, View.ld_unit_zero (S := S1x1x768) hz3]
  try rfl

/-- Where the two words differ, the `last` output's buffer ends holding the routed map at the earlier-slot word's slabs and the `last` bias rows, times the membership column. -/
theorem out0_B_8_eq (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) :
    out0_B_8 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2 = k0_pay3 (k0_pay5 x1) (k0_pay6 x0) x4 x7 (slab x2 (k0_off3 (word1 c xt1 i)) (k0_off3_inb _ _ k0_hw2 hc2)) (slab x5 (k0_off3 (word1 c xt1 i)) (k0_off3_inb _ _ k0_hw2 hc2)) := by
  unfold out0_B_8
  rw [View.read_writes_eq_canon _ _ _ (cover0_B_8 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2)]
  unfold kernelRun0_B
  dsimp only
  try sl_unfold_words
  rw [View.canon_unit_zero hz3]
  simp only [View.readAt_eq_ld, harg4.read_unread, harg5.read_unread, harg6.read_unread, harg7.read_unread, harg8.read_unread, harg9.read_unread, harg10.read_unread, harg11.read_unread,
    View.ld_unit_zero (S := S1x256x768) hz3, View.ld_unit_zero (S := S1x256x1) hz3, View.ld_unit_zero (S := S1x1x768) hz3]
  try rfl

/-- The sum output's buffer, as in the other case. -/
theorem out0_B_10_eq (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) :
    out0_B_10 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2 = k0_pay1 (k0_pay9 x0 x1 x3 x6 (slab x2 (k0_off2 (word0 c xt0 i)) (k0_off2_inb _ k0_hw1)) (slab x5 (k0_off2 (word0 c xt0 i)) (k0_off2_inb _ k0_hw1))) := by
  unfold out0_B_10
  rw [View.read_writes_eq_canon _ _ _ (cover0_B_10 c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2)]
  unfold kernelRun0_B
  dsimp only
  try sl_unfold_words
  rw [View.canon_unit_zero hz3]
  simp only [View.readAt_eq_ld, harg4.read_unread, harg5.read_unread, harg6.read_unread, harg7.read_unread, harg8.read_unread, harg9.read_unread, harg10.read_unread, harg11.read_unread,
    View.ld_unit_zero (S := S1x256x768) hz3, View.ld_unit_zero (S := S1x256x1) hz3, View.ld_unit_zero (S := S1x1x768) hz3]
  try rfl

end Cert.KernelIdeal.Route

end
-- ==== Proof.KIBlocks.lean ====
import proofs.«405048_j65712999629030_3_alg».proof.Proof.KIArgs
import proofs.«405048_j65712999629030_3_alg».proof.Proof.KIPieces

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

/-! ## Each input window's block at a point, as entries of the array it stages

At the point with coordinates `(b, h)` (batch row `b` of 64, half `h` of 2): the embedding window's block is rows
`256 h … 256 h + 255` of batch row `b` of the gathered rows; the membership window's block the same rows of the
membership column; each bias window's block is the one row of batch row `b`; the two weight windows' block is the
whole table at every point. And a slab of a weight table at leading offset `s` is its `s`-th 768 × 768 matrix. -/

/-- Row `256 h + r` of the sequence, for `h` one of the two halves and `r` a row of the block. -/
def rowAt (i : grid0.Coords) (r : Fin 256) : Fin 512 := ⟨256 * (lOf i).val + r.val, by have := (lOf i).isLt; have := r.isLt; omega⟩

/-! ### The index maps in closed form over the grid, and a point's coordinates from its number

No index map reads a table: each is a fixed function of the point's two coordinates. The grid is 64 × 2, run
row-major, so point number `t` has coordinates `(t / 2, t % 2)`. -/

private theorem tr0_eq : ∀ i : grid0.Coords, cc0_transform_0 i = ![(i 0).val, (i 1).val, 0] := by decide +kernel
private theorem tr1_eq : ∀ i : grid0.Coords, cc0_transform_1 i = ![(i 0).val, (i 1).val, 0] := by decide +kernel
private theorem tr2_eq : ∀ i : grid0.Coords, cc0_transform_2 i = ![0, 0, 0] := by decide +kernel
private theorem tr3_eq : ∀ i : grid0.Coords, cc0_transform_3 i = ![(i 0).val, 0, 0] := by decide +kernel
private theorem tr4_eq : ∀ i : grid0.Coords, cc0_transform_4 i = ![(i 0).val, 0, 0] := by decide +kernel
private theorem tr5_eq : ∀ i : grid0.Coords, cc0_transform_5 i = ![0, 0, 0] := by decide +kernel
private theorem tr6_eq : ∀ i : grid0.Coords, cc0_transform_6 i = ![(i 0).val, 0, 0] := by decide +kernel
private theorem tr7_eq : ∀ i : grid0.Coords, cc0_transform_7 i = ![(i 0).val, 0, 0] := by decide +kernel
private theorem tr8_eq : ∀ i : grid0.Coords, cc0_transform_8 i = ![(i 0).val, (i 1).val, 0] := by decide +kernel
private theorem tr9_eq : ∀ i : grid0.Coords, cc0_transform_9 i = ![(i 0).val, (i 1).val, 0] := by decide +kernel
private theorem tr10_eq : ∀ i : grid0.Coords, cc0_transform_10 i = ![(i 0).val, (i 1).val, 0] := by decide +kernel

private theorem coords_closed : ∀ t : Fin grid0.N, (grid0.coords t 0).val = t.val / 2 ∧ (grid0.coords t 1).val = t.val % 2 := by decide +kernel

/-! ### A block read off an array, at any contents of the tables

Along each axis the block's entry sits in the array at block index × block size + its coordinate inside the block. -/

private theorem blkRead0 (a : (pcfg0 (F := F)).Adm) (G : S64x512x768.Idx → Elt F .f32) (t : Fin (cfg0 a).N) (r : Fin 256) (d : Fin 768) :
    ((((cfg0 a).win 0).blk t).view.read (Elt F) G : Vec F S1x256x768 .f32) (ix3 0 r d)
      = G (ix3 (bOf (grid0.coords t)) (rowAt (grid0.coords t) r) d) := by
  show G _ = G _
  congr 1
  funext ax
  apply Fin.ext
  have h := tr0_eq (grid0.coords t)
  have h0 : cc0_transform_0 (grid0.coords t) (0 : Fin 3) = (grid0.coords t 0).val := congrFun h 0
  have h1 : cc0_transform_0 (grid0.coords t) (1 : Fin 3) = (grid0.coords t 1).val := congrFun h 1
  have h2 : cc0_transform_0 (grid0.coords t) (2 : Fin 3) = 0 := congrFun h 2
  match ax with
  | ⟨0, _⟩ =>
    show cc0_transform_0 (grid0.coords t) (0 : Fin 3) * 1 + 1 * 0 = (grid0.coords t 0).val
    omega
  | ⟨1, _⟩ =>
    show cc0_transform_0 (grid0.coords t) (1 : Fin 3) * 256 + 1 * r.val = 256 * (grid0.coords t 1).val + r.val
    omega
  | ⟨2, _⟩ =>
    show cc0_transform_0 (grid0.coords t) (2 : Fin 3) * 768 + 1 * d.val = d.val
    omega

private theorem blkRead1 (a : (pcfg0 (F := F)).Adm) (G : S64x512x1.Idx → Elt F .f32) (t : Fin (cfg0 a).N) (r : Fin 256) :
    ((((cfg0 a).win 1).blk t).view.read (Elt F) G : Vec F S1x256x1 .f32) (ix3 0 r 0)
      = G (ix3 (bOf (grid0.coords t)) (rowAt (grid0.coords t) r) 0) := by
  show G _ = G _
  congr 1
  funext ax
  apply Fin.ext
  have h := tr1_eq (grid0.coords t)
  have h0 : cc0_transform_1 (grid0.coords t) (0 : Fin 3) = (grid0.coords t 0).val := congrFun h 0
  have h1 : cc0_transform_1 (grid0.coords t) (1 : Fin 3) = (grid0.coords t 1).val := congrFun h 1
  have h2 : cc0_transform_1 (grid0.coords t) (2 : Fin 3) = 0 := congrFun h 2
  match ax with
  | ⟨0, _⟩ =>
    show cc0_transform_1 (grid0.coords t) (0 : Fin 3) * 1 + 1 * 0 = (grid0.coords t 0).val
    omega
  | ⟨1, _⟩ =>
    show cc0_transform_1 (grid0.coords t) (1 : Fin 3) * 256 + 1 * r.val = 256 * (grid0.coords t 1).val + r.val
    omega
  | ⟨2, _⟩ =>
    show cc0_transform_1 (grid0.coords t) (2 : Fin 3) * 1 + 1 * 0 = 0
    omega

private theorem blkRead2 (a : (pcfg0 (F := F)).Adm) (G : S12x768x768.Idx → Elt F .bf16) (t : Fin (cfg0 a).N) :
    ((((cfg0 a).win 2).blk t).view.read (Elt F) G : Vec F S12x768x768 .bf16) = G := by
  funext y
  show G _ = G y
  congr 1
  funext ax
  apply Fin.ext
  have h := tr2_eq (grid0.coords t)
  have h0 : cc0_transform_2 (grid0.coords t) (0 : Fin 3) = 0 := congrFun h 0
  have h1 : cc0_transform_2 (grid0.coords t) (1 : Fin 3) = 0 := congrFun h 1
  have h2 : cc0_transform_2 (grid0.coords t) (2 : Fin 3) = 0 := congrFun h 2
  match ax with
  | ⟨0, hlt⟩ =>
    show cc0_transform_2 (grid0.coords t) (0 : Fin 3) * 12 + 1 * (y ⟨0, hlt⟩).val = (y ⟨0, hlt⟩).val
    omega
  | ⟨1, hlt⟩ =>
    show cc0_transform_2 (grid0.coords t) (1 : Fin 3) * 768 + 1 * (y ⟨1, hlt⟩).val = (y ⟨1, hlt⟩).val
    omega
  | ⟨2, hlt⟩ =>
    show cc0_transform_2 (grid0.coords t) (2 : Fin 3) * 768 + 1 * (y ⟨2, hlt⟩).val = (y ⟨2, hlt⟩).val
    omega

private theorem blkRead3 (a : (pcfg0 (F := F)).Adm) (G : S64x1x768.Idx → Elt F .f32) (t : Fin (cfg0 a).N) (k : Fin 768) :
    ((((cfg0 a).win 3).blk t).view.read (Elt F) G : Vec F S1x1x768 .f32) (ix3 0 0 k)
      = G (ix3 (bOf (grid0.coords t)) 0 k) := by
  show G _ = G _
  congr 1
  funext ax
  apply Fin.ext
  have h := tr3_eq (grid0.coords t)
  have h0 : cc0_transform_3 (grid0.coords t) (0 : Fin 3) = (grid0.coords t 0).val := congrFun h 0
  have h1 : cc0_transform_3 (grid0.coords t) (1 : Fin 3) = 0 := congrFun h 1
  have h2 : cc0_transform_3 (grid0.coords t) (2 : Fin 3) = 0 := congrFun h 2
  match ax with
  | ⟨0, _⟩ =>
    show cc0_transform_3 (grid0.coords t) (0 : Fin 3) * 1 + 1 * 0 = (grid0.coords t 0).val
    omega
  | ⟨1, _⟩ =>
    show cc0_transform_3 (grid0.coords t) (1 : Fin 3) * 1 + 1 * 0 = 0
    omega
  | ⟨2, _⟩ =>
    show cc0_transform_3 (grid0.coords t) (2 : Fin 3) * 768 + 1 * k.val = k.val
    omega

private theorem blkRead4 (a : (pcfg0 (F := F)).Adm) (G : S64x1x768.Idx → Elt F .f32) (t : Fin (cfg0 a).N) (k : Fin 768) :
    ((((cfg0 a).win 4).blk t).view.read (Elt F) G : Vec F S1x1x768 .f32) (ix3 0 0 k)
      = G (ix3 (bOf (grid0.coords t)) 0 k) := by
  show G _ = G _
  congr 1
  funext ax
  apply Fin.ext
  have h := tr4_eq (grid0.coords t)
  have h0 : cc0_transform_4 (grid0.coords t) (0 : Fin 3) = (grid0.coords t 0).val := congrFun h 0
  have h1 : cc0_transform_4 (grid0.coords t) (1 : Fin 3) = 0 := congrFun h 1
  have h2 : cc0_transform_4 (grid0.coords t) (2 : Fin 3) = 0 := congrFun h 2
  match ax with
  | ⟨0, _⟩ =>
    show cc0_transform_4 (grid0.coords t) (0 : Fin 3) * 1 + 1 * 0 = (grid0.coords t 0).val
    omega
  | ⟨1, _⟩ =>
    show cc0_transform_4 (grid0.coords t) (1 : Fin 3) * 1 + 1 * 0 = 0
    omega
  | ⟨2, _⟩ =>
    show cc0_transform_4 (grid0.coords t) (2 : Fin 3) * 768 + 1 * k.val = k.val
    omega

private theorem blkRead5 (a : (pcfg0 (F := F)).Adm) (G : S12x768x768.Idx → Elt F .bf16) (t : Fin (cfg0 a).N) :
    ((((cfg0 a).win 5).blk t).view.read (Elt F) G : Vec F S12x768x768 .bf16) = G := by
  funext y
  show G _ = G y
  congr 1
  funext ax
  apply Fin.ext
  have h := tr5_eq (grid0.coords t)
  have h0 : cc0_transform_5 (grid0.coords t) (0 : Fin 3) = 0 := congrFun h 0
  have h1 : cc0_transform_5 (grid0.coords t) (1 : Fin 3) = 0 := congrFun h 1
  have h2 : cc0_transform_5 (grid0.coords t) (2 : Fin 3) = 0 := congrFun h 2
  match ax with
  | ⟨0, hlt⟩ =>
    show cc0_transform_5 (grid0.coords t) (0 : Fin 3) * 12 + 1 * (y ⟨0, hlt⟩).val = (y ⟨0, hlt⟩).val
    omega
  | ⟨1, hlt⟩ =>
    show cc0_transform_5 (grid0.coords t) (1 : Fin 3) * 768 + 1 * (y ⟨1, hlt⟩).val = (y ⟨1, hlt⟩).val
    omega
  | ⟨2, hlt⟩ =>
    show cc0_transform_5 (grid0.coords t) (2 : Fin 3) * 768 + 1 * (y ⟨2, hlt⟩).val = (y ⟨2, hlt⟩).val
    omega

private theorem blkRead6 (a : (pcfg0 (F := F)).Adm) (G : S64x1x768.Idx → Elt F .f32) (t : Fin (cfg0 a).N) (k : Fin 768) :
    ((((cfg0 a).win 6).blk t).view.read (Elt F) G : Vec F S1x1x768 .f32) (ix3 0 0 k)
      = G (ix3 (bOf (grid0.coords t)) 0 k) := by
  show G _ = G _
  congr 1
  funext ax
  apply Fin.ext
  have h := tr6_eq (grid0.coords t)
  have h0 : cc0_transform_6 (grid0.coords t) (0 : Fin 3) = (grid0.coords t 0).val := congrFun h 0
  have h1 : cc0_transform_6 (grid0.coords t) (1 : Fin 3) = 0 := congrFun h 1
  have h2 : cc0_transform_6 (grid0.coords t) (2 : Fin 3) = 0 := congrFun h 2
  match ax with
  | ⟨0, _⟩ =>
    show cc0_transform_6 (grid0.coords t) (0 : Fin 3) * 1 + 1 * 0 = (grid0.coords t 0).val
    omega
  | ⟨1, _⟩ =>
    show cc0_transform_6 (grid0.coords t) (1 : Fin 3) * 1 + 1 * 0 = 0
    omega
  | ⟨2, _⟩ =>
    show cc0_transform_6 (grid0.coords t) (2 : Fin 3) * 768 + 1 * k.val = k.val
    omega

private theorem blkRead7 (a : (pcfg0 (F := F)).Adm) (G : S64x1x768.Idx → Elt F .f32) (t : Fin (cfg0 a).N) (k : Fin 768) :
    ((((cfg0 a).win 7).blk t).view.read (Elt F) G : Vec F S1x1x768 .f32) (ix3 0 0 k)
      = G (ix3 (bOf (grid0.coords t)) 0 k) := by
  show G _ = G _
  congr 1
  funext ax
  apply Fin.ext
  have h := tr7_eq (grid0.coords t)
  have h0 : cc0_transform_7 (grid0.coords t) (0 : Fin 3) = (grid0.coords t 0).val := congrFun h 0
  have h1 : cc0_transform_7 (grid0.coords t) (1 : Fin 3) = 0 := congrFun h 1
  have h2 : cc0_transform_7 (grid0.coords t) (2 : Fin 3) = 0 := congrFun h 2
  match ax with
  | ⟨0, _⟩ =>
    show cc0_transform_7 (grid0.coords t) (0 : Fin 3) * 1 + 1 * 0 = (grid0.coords t 0).val
    omega
  | ⟨1, _⟩ =>
    show cc0_transform_7 (grid0.coords t) (1 : Fin 3) * 1 + 1 * 0 = 0
    omega
  | ⟨2, _⟩ =>
    show cc0_transform_7 (grid0.coords t) (2 : Fin 3) * 768 + 1 * k.val = k.val
    omega

private theorem blkRead8 (a : (pcfg0 (F := F)).Adm) (G : S64x512x768.Idx → Elt F .f32) (t : Fin (cfg0 a).N) (r : Fin 256) (d : Fin 768) :
    ((((cfg0 a).win 8).blk t).view.read (Elt F) G : Vec F S1x256x768 .f32) (ix3 0 r d)
      = G (ix3 (bOf (grid0.coords t)) (rowAt (grid0.coords t) r) d) := by
  show G _ = G _
  congr 1
  funext ax
  apply Fin.ext
  have h := tr8_eq (grid0.coords t)
  have h0 : cc0_transform_8 (grid0.coords t) (0 : Fin 3) = (grid0.coords t 0).val := congrFun h 0
  have h1 : cc0_transform_8 (grid0.coords t) (1 : Fin 3) = (grid0.coords t 1).val := congrFun h 1
  have h2 : cc0_transform_8 (grid0.coords t) (2 : Fin 3) = 0 := congrFun h 2
  match ax with
  | ⟨0, _⟩ =>
    show cc0_transform_8 (grid0.coords t) (0 : Fin 3) * 1 + 1 * 0 = (grid0.coords t 0).val
    omega
  | ⟨1, _⟩ =>
    show cc0_transform_8 (grid0.coords t) (1 : Fin 3) * 256 + 1 * r.val = 256 * (grid0.coords t 1).val + r.val
    omega
  | ⟨2, _⟩ =>
    show cc0_transform_8 (grid0.coords t) (2 : Fin 3) * 768 + 1 * d.val = d.val
    omega

private theorem blkRead9 (a : (pcfg0 (F := F)).Adm) (G : S64x512x768.Idx → Elt F .f32) (t : Fin (cfg0 a).N) (r : Fin 256) (d : Fin 768) :
    ((((cfg0 a).win 9).blk t).view.read (Elt F) G : Vec F S1x256x768 .f32) (ix3 0 r d)
      = G (ix3 (bOf (grid0.coords t)) (rowAt (grid0.coords t) r) d) := by
  show G _ = G _
  congr 1
  funext ax
  apply Fin.ext
  have h := tr9_eq (grid0.coords t)
  have h0 : cc0_transform_9 (grid0.coords t) (0 : Fin 3) = (grid0.coords t 0).val := congrFun h 0
  have h1 : cc0_transform_9 (grid0.coords t) (1 : Fin 3) = (grid0.coords t 1).val := congrFun h 1
  have h2 : cc0_transform_9 (grid0.coords t) (2 : Fin 3) = 0 := congrFun h 2
  match ax with
  | ⟨0, _⟩ =>
    show cc0_transform_9 (grid0.coords t) (0 : Fin 3) * 1 + 1 * 0 = (grid0.coords t 0).val
    omega
  | ⟨1, _⟩ =>
    show cc0_transform_9 (grid0.coords t) (1 : Fin 3) * 256 + 1 * r.val = 256 * (grid0.coords t 1).val + r.val
    omega
  | ⟨2, _⟩ =>
    show cc0_transform_9 (grid0.coords t) (2 : Fin 3) * 768 + 1 * d.val = d.val
    omega

private theorem blkRead10 (a : (pcfg0 (F := F)).Adm) (G : S64x512x768.Idx → Elt F .f32) (t : Fin (cfg0 a).N) (r : Fin 256) (d : Fin 768) :
    ((((cfg0 a).win 10).blk t).view.read (Elt F) G : Vec F S1x256x768 .f32) (ix3 0 r d)
      = G (ix3 (bOf (grid0.coords t)) (rowAt (grid0.coords t) r) d) := by
  show G _ = G _
  congr 1
  funext ax
  apply Fin.ext
  have h := tr10_eq (grid0.coords t)
  have h0 : cc0_transform_10 (grid0.coords t) (0 : Fin 3) = (grid0.coords t 0).val := congrFun h 0
  have h1 : cc0_transform_10 (grid0.coords t) (1 : Fin 3) = (grid0.coords t 1).val := congrFun h 1
  have h2 : cc0_transform_10 (grid0.coords t) (2 : Fin 3) = 0 := congrFun h 2
  match ax with
  | ⟨0, _⟩ =>
    show cc0_transform_10 (grid0.coords t) (0 : Fin 3) * 1 + 1 * 0 = (grid0.coords t 0).val
    omega
  | ⟨1, _⟩ =>
    show cc0_transform_10 (grid0.coords t) (1 : Fin 3) * 256 + 1 * r.val = 256 * (grid0.coords t 1).val + r.val
    omega
  | ⟨2, _⟩ =>
    show cc0_transform_10 (grid0.coords t) (2 : Fin 3) * 768 + 1 * d.val = d.val
    omega

/-! ### The output windows: written back everywhere, and their blocks tile the array -/

private theorem flushAt8 (a : (pcfg0 (F := F)).Adm) : ∀ t : Fin (cfg0 a).N, ((cfg0 a).win 8).flush t = true :=
  (by decide +kernel : ∀ t : Fin grid0.N, Pipeline.Window.flushOf grid0 true cc0_transform_8 t = true)
private theorem flushAt9 (a : (pcfg0 (F := F)).Adm) : ∀ t : Fin (cfg0 a).N, ((cfg0 a).win 9).flush t = true :=
  (by decide +kernel : ∀ t : Fin grid0.N, Pipeline.Window.flushOf grid0 true cc0_transform_9 t = true)
private theorem flushAt10 (a : (pcfg0 (F := F)).Adm) : ∀ t : Fin (cfg0 a).N, ((cfg0 a).win 10).flush t = true :=
  (by decide +kernel : ∀ t : Fin grid0.N, Pipeline.Window.flushOf grid0 true cc0_transform_10 t = true)

private theorem memBlk8 (a : (pcfg0 (F := F)).Adm) (t : Fin (cfg0 a).N) (j : S64x512x768.Idx)
    (e0 : (j 0).val = (grid0.coords t 0).val) (e1 : (j 1).val / 256 = (grid0.coords t 1).val) :
    j ∈ (((cfg0 a).win 8).blk t).view.set := by
  have hs := View.set_slice_whole main_v58_0 (((cfg0 a).win 8).rect t)
  refine (Finset.ext_iff.mp hs j).mpr (Rect.mem_set_unit.mpr fun ax => ?_)
  have h := tr8_eq (grid0.coords t)
  have h0 : cc0_transform_8 (grid0.coords t) (0 : Fin 3) = (grid0.coords t 0).val := congrFun h 0
  have h1 : cc0_transform_8 (grid0.coords t) (1 : Fin 3) = (grid0.coords t 1).val := congrFun h 1
  have h2 : cc0_transform_8 (grid0.coords t) (2 : Fin 3) = 0 := congrFun h 2
  have b2 : (j 2).val < 768 := (j 2).isLt
  match ax with
  | ⟨0, _⟩ =>
    show cc0_transform_8 (grid0.coords t) (0 : Fin 3) * 1 ≤ (j 0).val ∧ (j 0).val < cc0_transform_8 (grid0.coords t) (0 : Fin 3) * 1 + 1
    omega
  | ⟨1, _⟩ =>
    show cc0_transform_8 (grid0.coords t) (1 : Fin 3) * 256 ≤ (j 1).val ∧ (j 1).val < cc0_transform_8 (grid0.coords t) (1 : Fin 3) * 256 + 256
    omega
  | ⟨2, _⟩ =>
    show cc0_transform_8 (grid0.coords t) (2 : Fin 3) * 768 ≤ (j 2).val ∧ (j 2).val < cc0_transform_8 (grid0.coords t) (2 : Fin 3) * 768 + 768
    omega

private theorem coverAt8 (a : (pcfg0 (F := F)).Adm) (j : S64x512x768.Idx) :
    ∃ t : Fin (cfg0 a).N, ((cfg0 a).win 8).flush t = true ∧ j ∈ (((cfg0 a).win 8).blk t).view.set := by
  have b0 : (j 0).val < 64 := (j 0).isLt
  have b1 : (j 1).val < 512 := (j 1).isLt
  have hN : grid0.N = 128 := by decide
  let t : Fin grid0.N := ⟨2 * (j 0).val + (j 1).val / 256, by rw [hN]; omega⟩
  have ht : t.val = 2 * (j 0).val + (j 1).val / 256 := rfl
  obtain ⟨c0, c1⟩ := coords_closed t
  exact ⟨t, flushAt8 a t, memBlk8 a t j (by omega) (by omega)⟩

private theorem memBlk9 (a : (pcfg0 (F := F)).Adm) (t : Fin (cfg0 a).N) (j : S64x512x768.Idx)
    (e0 : (j 0).val = (grid0.coords t 0).val) (e1 : (j 1).val / 256 = (grid0.coords t 1).val) :
    j ∈ (((cfg0 a).win 9).blk t).view.set := by
  have hs := View.set_slice_whole main_v58_1 (((cfg0 a).win 9).rect t)
  refine (Finset.ext_iff.mp hs j).mpr (Rect.mem_set_unit.mpr fun ax => ?_)
  have h := tr9_eq (grid0.coords t)
  have h0 : cc0_transform_9 (grid0.coords t) (0 : Fin 3) = (grid0.coords t 0).val := congrFun h 0
  have h1 : cc0_transform_9 (grid0.coords t) (1 : Fin 3) = (grid0.coords t 1).val := congrFun h 1
  have h2 : cc0_transform_9 (grid0.coords t) (2 : Fin 3) = 0 := congrFun h 2
  have b2 : (j 2).val < 768 := (j 2).isLt
  match ax with
  | ⟨0, _⟩ =>
    show cc0_transform_9 (grid0.coords t) (0 : Fin 3) * 1 ≤ (j 0).val ∧ (j 0).val < cc0_transform_9 (grid0.coords t) (0 : Fin 3) * 1 + 1
    omega
  | ⟨1, _⟩ =>
    show cc0_transform_9 (grid0.coords t) (1 : Fin 3) * 256 ≤ (j 1).val ∧ (j 1).val < cc0_transform_9 (grid0.coords t) (1 : Fin 3) * 256 + 256
    omega
  | ⟨2, _⟩ =>
    show cc0_transform_9 (grid0.coords t) (2 : Fin 3) * 768 ≤ (j 2).val ∧ (j 2).val < cc0_transform_9 (grid0.coords t) (2 : Fin 3) * 768 + 768
    omega

private theorem coverAt9 (a : (pcfg0 (F := F)).Adm) (j : S64x512x768.Idx) :
    ∃ t : Fin (cfg0 a).N, ((cfg0 a).win 9).flush t = true ∧ j ∈ (((cfg0 a).win 9).blk t).view.set := by
  have b0 : (j 0).val < 64 := (j 0).isLt
  have b1 : (j 1).val < 512 := (j 1).isLt
  have hN : grid0.N = 128 := by decide
  let t : Fin grid0.N := ⟨2 * (j 0).val + (j 1).val / 256, by rw [hN]; omega⟩
  have ht : t.val = 2 * (j 0).val + (j 1).val / 256 := rfl
  obtain ⟨c0, c1⟩ := coords_closed t
  exact ⟨t, flushAt9 a t, memBlk9 a t j (by omega) (by omega)⟩

private theorem memBlk10 (a : (pcfg0 (F := F)).Adm) (t : Fin (cfg0 a).N) (j : S64x512x768.Idx)
    (e0 : (j 0).val = (grid0.coords t 0).val) (e1 : (j 1).val / 256 = (grid0.coords t 1).val) :
    j ∈ (((cfg0 a).win 10).blk t).view.set := by
  have hs := View.set_slice_whole main_v58_2 (((cfg0 a).win 10).rect t)
  refine (Finset.ext_iff.mp hs j).mpr (Rect.mem_set_unit.mpr fun ax => ?_)
  have h := tr10_eq (grid0.coords t)
  have h0 : cc0_transform_10 (grid0.coords t) (0 : Fin 3) = (grid0.coords t 0).val := congrFun h 0
  have h1 : cc0_transform_10 (grid0.coords t) (1 : Fin 3) = (grid0.coords t 1).val := congrFun h 1
  have h2 : cc0_transform_10 (grid0.coords t) (2 : Fin 3) = 0 := congrFun h 2
  have b2 : (j 2).val < 768 := (j 2).isLt
  match ax with
  | ⟨0, _⟩ =>
    show cc0_transform_10 (grid0.coords t) (0 : Fin 3) * 1 ≤ (j 0).val ∧ (j 0).val < cc0_transform_10 (grid0.coords t) (0 : Fin 3) * 1 + 1
    omega
  | ⟨1, _⟩ =>
    show cc0_transform_10 (grid0.coords t) (1 : Fin 3) * 256 ≤ (j 1).val ∧ (j 1).val < cc0_transform_10 (grid0.coords t) (1 : Fin 3) * 256 + 256
    omega
  | ⟨2, _⟩ =>
    show cc0_transform_10 (grid0.coords t) (2 : Fin 3) * 768 ≤ (j 2).val ∧ (j 2).val < cc0_transform_10 (grid0.coords t) (2 : Fin 3) * 768 + 768
    omega

private theorem coverAt10 (a : (pcfg0 (F := F)).Adm) (j : S64x512x768.Idx) :
    ∃ t : Fin (cfg0 a).N, ((cfg0 a).win 10).flush t = true ∧ j ∈ (((cfg0 a).win 10).blk t).view.set := by
  have b0 : (j 0).val < 64 := (j 0).isLt
  have b1 : (j 1).val < 512 := (j 1).isLt
  have hN : grid0.N = 128 := by decide
  let t : Fin grid0.N := ⟨2 * (j 0).val + (j 1).val / 256, by rw [hN]; omega⟩
  have ht : t.val = 2 * (j 0).val + (j 1).val / 256 := rfl
  obtain ⟨c0, c1⟩ := coords_closed t
  exact ⟨t, flushAt10 a t, memBlk10 a t j (by omega) (by omega)⟩

theorem iblk0_apply (c : Dev nD) (t : Fin (cfgM m).N) (r : Fin 256) (d : Fin 768) :
    (iblk m c 0 t : Vec F S1x256x768 .f32) (ix3 0 r d)
      = (V m c main_v1 : S64x512x768.Idx → Elt F .f32) (ix3 (bOf (grid0.coords t)) (rowAt (grid0.coords t) r) d) := by
  exact blkRead0 (adm m) (V m c main_v1) t r d

theorem iblk1_apply (c : Dev nD) (t : Fin (cfgM m).N) (r : Fin 256) :
    (iblk m c 1 t : Vec F S1x256x1 .f32) (ix3 0 r 0)
      = (V m c main_v18 : S64x512x1.Idx → Elt F .f32) (ix3 (bOf (grid0.coords t)) (rowAt (grid0.coords t) r) 0) := by
  exact blkRead1 (adm m) (V m c main_v18) t r

theorem iblk2_eq (c : Dev nD) (t : Fin (cfgM m).N) :
    (iblk m c 2 t : Vec F S12x768x768 .bf16) = (V m c main_v56 : S12x768x768.Idx → Elt F .bf16) := by
  exact blkRead2 (adm m) (V m c main_v56) t

theorem iblk5_eq (c : Dev nD) (t : Fin (cfgM m).N) :
    (iblk m c 5 t : Vec F S12x768x768 .bf16) = (V m c main_v57 : S12x768x768.Idx → Elt F .bf16) := by
  exact blkRead5 (adm m) (V m c main_v57) t

theorem iblk3_apply (c : Dev nD) (t : Fin (cfgM m).N) (k : Fin 768) :
    (iblk m c 3 t : Vec F S1x1x768 .f32) (ix3 0 0 k) = (V m c main_v31 : S64x1x768.Idx → Elt F .f32) (ix3 (bOf (grid0.coords t)) 0 k) := by
  exact blkRead3 (adm m) (V m c main_v31) t k
theorem iblk4_apply (c : Dev nD) (t : Fin (cfgM m).N) (k : Fin 768) :
    (iblk m c 4 t : Vec F S1x1x768 .f32) (ix3 0 0 k) = (V m c main_v39 : S64x1x768.Idx → Elt F .f32) (ix3 (bOf (grid0.coords t)) 0 k) := by
  exact blkRead4 (adm m) (V m c main_v39) t k
theorem iblk6_apply (c : Dev nD) (t : Fin (cfgM m).N) (k : Fin 768) :
    (iblk m c 6 t : Vec F S1x1x768 .f32) (ix3 0 0 k) = (V m c main_v47 : S64x1x768.Idx → Elt F .f32) (ix3 (bOf (grid0.coords t)) 0 k) := by
  exact blkRead6 (adm m) (V m c main_v47) t k
theorem iblk7_apply (c : Dev nD) (t : Fin (cfgM m).N) (k : Fin 768) :
    (iblk m c 7 t : Vec F S1x1x768 .f32) (ix3 0 0 k) = (V m c main_v55 : S64x1x768.Idx → Elt F .f32) (ix3 (bOf (grid0.coords t)) 0 k) := by
  exact blkRead7 (adm m) (V m c main_v55) t k

/-- Output window 8 is written back at every point, at any contents of the tables. -/
theorem flush0_8 (a : (pcfg0 (F := F)).Adm) (t : Fin (cfg0 a).N) : ((cfg0 a).win 8).flush t = true := by
  exact flushAt8 a t

/-- Output window 8's block at a point, read off any array of the result's shape: rows `256 h … 256 h + 255` of batch row `b`. -/
theorem read_blk8 (G : S64x512x768.Idx → Elt F .f32) (t : Fin (cfgM m).N) (r : Fin 256) (e : Fin 768) :
    ((((cfgM m).win 8).blk t).view.read (Elt F) G : Vec F S1x256x768 .f32) (ix3 0 r e)
      = G (ix3 (bOf (grid0.coords t)) (rowAt (grid0.coords t) r) e) := by
  exact blkRead8 (adm m) G t r e

/-- Every entry of the result array lies in the block of some point (batch row `b`, half `row / 256`). -/
theorem cover8 (j : S64x512x768.Idx) : ∃ t : Fin (cfgM m).N, ((cfgM m).win 8).flush t = true ∧ j ∈ (((cfgM m).win 8).blk t).view.set := by
  exact coverAt8 (adm m) j

/-- Output window 9 is written back at every point, at any contents of the tables. -/
theorem flush0_9 (a : (pcfg0 (F := F)).Adm) (t : Fin (cfg0 a).N) : ((cfg0 a).win 9).flush t = true := by
  exact flushAt9 a t

/-- Output window 9's block at a point, read off any array of the result's shape: rows `256 h … 256 h + 255` of batch row `b`. -/
theorem read_blk9 (G : S64x512x768.Idx → Elt F .f32) (t : Fin (cfgM m).N) (r : Fin 256) (e : Fin 768) :
    ((((cfgM m).win 9).blk t).view.read (Elt F) G : Vec F S1x256x768 .f32) (ix3 0 r e)
      = G (ix3 (bOf (grid0.coords t)) (rowAt (grid0.coords t) r) e) := by
  exact blkRead9 (adm m) G t r e

/-- Every entry of the result array lies in the block of some point (batch row `b`, half `row / 256`). -/
theorem cover9 (j : S64x512x768.Idx) : ∃ t : Fin (cfgM m).N, ((cfgM m).win 9).flush t = true ∧ j ∈ (((cfgM m).win 9).blk t).view.set := by
  exact coverAt9 (adm m) j

/-- Output window 10 is written back at every point, at any contents of the tables. -/
theorem flush0_10 (a : (pcfg0 (F := F)).Adm) (t : Fin (cfg0 a).N) : ((cfg0 a).win 10).flush t = true := by
  exact flushAt10 a t

/-- Output window 10's block at a point, read off any array of the result's shape: rows `256 h … 256 h + 255` of batch row `b`. -/
theorem read_blk10 (G : S64x512x768.Idx → Elt F .f32) (t : Fin (cfgM m).N) (r : Fin 256) (e : Fin 768) :
    ((((cfgM m).win 10).blk t).view.read (Elt F) G : Vec F S1x256x768 .f32) (ix3 0 r e)
      = G (ix3 (bOf (grid0.coords t)) (rowAt (grid0.coords t) r) e) := by
  exact blkRead10 (adm m) G t r e

/-- Every entry of the result array lies in the block of some point (batch row `b`, half `row / 256`). -/
theorem cover10 (j : S64x512x768.Idx) : ∃ t : Fin (cfgM m).N, ((cfgM m).win 10).flush t = true ∧ j ∈ (((cfgM m).win 10).blk t).view.set := by
  exact coverAt10 (adm m) j

/-- The slab at leading offset `s` is the table's `s`-th matrix. -/
theorem slab_apply (x : Vec F S12x768x768 .bf16) (off : Fin 3 → Nat) (h : ∀ a, off a + S1x768x768.size a ≤ S12x768x768.size a)
    (s : Fin 12) (hoff : off = ![s.val, 0, 0]) (d k : Fin 768) :
    slab x off h (ix3 0 d k) = x (ix3 s d k) := by
  subst hoff
  show x _ = x _
  congr 1
  funext ax
  apply Fin.ext
  match ax with
  | ⟨0, _⟩ => show s.val + 1 * 0 = s.val; omega
  | ⟨1, _⟩ => show 0 + 1 * d.val = d.val; omega
  | ⟨2, _⟩ => show 0 + 1 * k.val = k.val; omega

end Cert.KernelIdeal.Route

end
-- ==== Proof.KIPay.lean ====
import proofs.«405048_j65712999629030_3_alg».proof.Proof.Gen.KernelIdeal.Skeleton
import proofs.«405048_j65712999629030_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Spec
open Idealize.ShloMosaic Idealize.ShloMosaic.TcCoe Idealize.ShloMosaic.ValueIdx

/-! ## The body's arithmetic, read at an index of the 256 × 768 block (extended reals)

With `x` the block of 256 embedding rows, `f` the membership column, `w1`, `w2` two loaded 768 × 768 slabs and
`c1`, `c2` two bias rows, the body's product is, at row `r` and column `e`, the routed map of row `r` times `f r`:
the two matrix products into a zero accumulator are plain sums over the 768 contracted coordinates, the format
changes are the identity, and the reshapes only rename coordinates. -/

/-! ### Where the matrix product reads its operands

The product contracts the left operand's second axis with the right operand's first: at output `(r, e)` and
contracted coordinate `q` it reads the left operand at `(r, q)` and the right operand at `(q, e)`. -/

/-- The left operand's row is the output's row. -/
theorem lhs_axis0 (i : S256x768.Idx) (q : dot_S256x768_S768x768_S256x768_1_0_0_1_n_n.contr.Idx) :
    (dot_S256x768_S768x768_S256x768_1_0_0_1_n_n.lhsIdx i q 0).val = (i 0).val := by
  unfold DotDims.lhsIdx
  rw [dif_neg (show ¬(0 : Fin S256x768.rank) ∈ dot_S256x768_S768x768_S256x768_1_0_0_1_n_n.lhsBatch by decide),
    dif_pos (show (0 : Fin S256x768.rank) ∈ dot_S256x768_S768x768_S256x768_1_0_0_1_n_n.lhsNonContracting by decide)]
  rfl
/-- The left operand's column is the contracted coordinate. -/
theorem lhs_axis1 (i : S256x768.Idx) (q : dot_S256x768_S768x768_S256x768_1_0_0_1_n_n.contr.Idx) :
    (dot_S256x768_S768x768_S256x768_1_0_0_1_n_n.lhsIdx i q 1).val = (q ⟨0, by decide⟩).val :=
  dot_S256x768_S768x768_S256x768_1_0_0_1_n_n.lhsIdx_val_of_single rfl i q
/-- The right operand's row is the contracted coordinate. -/
theorem rhs_axis0 (i : S256x768.Idx) (q : dot_S256x768_S768x768_S256x768_1_0_0_1_n_n.contr.Idx) :
    (dot_S256x768_S768x768_S256x768_1_0_0_1_n_n.rhsIdx i q 0).val = (q ⟨0, by decide⟩).val :=
  dot_S256x768_S768x768_S256x768_1_0_0_1_n_n.rhsIdx_val_of_single rfl i q
/-- The right operand's column is the output's column. -/
theorem rhs_axis1 (i : S256x768.Idx) (q : dot_S256x768_S768x768_S256x768_1_0_0_1_n_n.contr.Idx) :
    (dot_S256x768_S768x768_S256x768_1_0_0_1_n_n.rhsIdx i q 1).val = (i 1).val := by
  unfold DotDims.rhsIdx
  rw [dif_neg (show ¬(1 : Fin S768x768.rank) ∈ dot_S256x768_S768x768_S256x768_1_0_0_1_n_n.rhsBatch by decide),
    dif_pos (show (1 : Fin S768x768.rank) ∈ dot_S256x768_S768x768_S256x768_1_0_0_1_n_n.rhsNonContracting by decide)]
  rfl

/-- A matrix product into the zero accumulator, at `(r, e)`: the sum over the 768 contracted coordinates. -/
theorem matmul_zero_ix2 (A : FVec Ideal S256x768 .bf16) (B : FVec Ideal S768x768 .bf16) (r : Fin 256) (e : Fin 768) :
    matmul dot_S256x768_S768x768_S256x768_1_0_0_1_n_n none A B (constant (F := Ideal) S256x768 .f32 0x00000000#32) (ix2 r e)
      = ∑ k : Fin 768, A (ix2 r k) * B (ix2 k e) := by
  refine (Ideal.matmul_constant_zero_apply dot_S256x768_S768x768_S256x768_1_0_0_1_n_n none A B (ix2 r e)).trans ?_
  rw [← Equiv.sum_comp (contrEquiv1 dot_S256x768_S768x768_S256x768_1_0_0_1_n_n 768 rfl rfl).symm]
  refine Finset.sum_congr rfl fun k _ => ?_
  have hk := contrEquiv1_symm_val dot_S256x768_S768x768_S256x768_1_0_0_1_n_n 768 rfl rfl k
  have el : dot_S256x768_S768x768_S256x768_1_0_0_1_n_n.lhsIdx (ix2 r e) ((contrEquiv1 dot_S256x768_S768x768_S256x768_1_0_0_1_n_n 768 rfl rfl).symm k) = ix2 r k :=
    funext fun a => Fin.ext (by
      match a with
      | ⟨0, _⟩ => exact lhs_axis0 _ _
      | ⟨1, _⟩ => exact (lhs_axis1 _ _).trans hk)
  have er : dot_S256x768_S768x768_S256x768_1_0_0_1_n_n.rhsIdx (ix2 r e) ((contrEquiv1 dot_S256x768_S768x768_S256x768_1_0_0_1_n_n 768 rfl rfl).symm k) = ix2 k e :=
    funext fun a => Fin.ext (by
      match a with
      | ⟨0, _⟩ => exact (rhs_axis0 _ _).trans hk
      | ⟨1, _⟩ => exact rhs_axis1 _ _)
  rw [el, er]

/-! ### The pointwise and layout operations the body uses -/

/-- The hyperbolic tangent of a block is taken entry by entry. -/
theorem tanh_apply {s : Shape} {φ : FTy} (a : FVec Ideal s φ) (i : s.Idx) : tanh a i = Ideal.tanh (a i) := rfl

/-- A `[256, 1]` column broadcast to `[256, 768]` reads, at `(r, e)`, the column's entry at row `r`. -/
theorem broadcastTo_a1_ab_apply {α : Type} {a b : ℕ} (v : (⟨2, ![a, 1]⟩ : Shape).Idx → α)
    (h : (⟨2, ![a, 1]⟩ : Shape).Broadcasts ⟨2, ![a, b]⟩) (hb : a ≠ 1) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg hb]
  | ⟨1, _⟩ => rfl

/-- One layer before its nonlinearity: the block times a loaded slab, plus the loaded bias row on every row. -/
theorem layer_apply (A : FVec Ideal S256x768 .bf16) (w : Vec Ideal S1x768x768 .bf16) (c : Vec Ideal S1x1x768 .f32)
    (r : Fin 256) (e : Fin 768) :
    addf (matmul dot_S256x768_S768x768_S256x768_1_0_0_1_n_n none A (shapeCast S768x768 w shapeCasts_S1x768x768_S768x768 : FVec Ideal S768x768 .bf16)
            (constant (F := Ideal) S256x768 .f32 0x00000000#32))
         (broadcastTo S256x768 (shapeCast S1x768 c shapeCasts_S1x1x768_S1x768 : FVec Ideal S1x768 .f32)
            broadcasts_S1x768_S256x768 : FVec Ideal S256x768 .f32) (ix2 r e)
      = (∑ k : Fin 768, A (ix2 r k) * w (ix3 0 k e)) + c (ix3 0 0 e) := by
  rw [addf_apply, matmul_zero_ix2, broadcastTo_1b_ab_apply, shapeCast_1ab_ab_apply]
  refine congrArg (· + c (ix3 0 0 e)) (Finset.sum_congr rfl fun k _ => ?_)
  rw [shapeCast_1ab_ab_apply]

/-- The body's product, handed the membership column and the reformatted block directly. -/
theorem pay3_body (v7 : FVec Ideal S256x1 .f32) (v8 : FVec Ideal S256x768 .bf16) (v42 v44 : Vec Ideal S1x1x768 .f32)
    (v47 v50 : Vec Ideal S1x768x768 .bf16) (r : Fin 256) (e : Fin 768) :
    k0_pay3 (F := Ideal) v7 v8 v42 v44 v47 v50 (ix3 0 r e)
      = mlp (fun d => v8 (ix2 r d)) (fun d k => v47 (ix3 0 d k)) (fun k => v42 (ix3 0 0 k))
          (fun k e => v50 (ix3 0 k e)) (fun e => v44 (ix3 0 0 e)) e * v7 (ix2 r 0) := by
  unfold k0_pay3
  refine (shapeCast_ab_1ab_apply _ shapeCasts_S256x768_S1x256x768 0 r e).trans ?_
  rw [mulf_apply, layer_apply, broadcastTo_a1_ab_apply v7 broadcasts_S256x1_S256x768 (by decide)]
  unfold mlp
  refine congrArg (fun s => (s + v44 (ix3 0 0 e)) * v7 (ix2 r 0)) (Finset.sum_congr rfl fun k _ => ?_)
  rw [truncf_apply, tanh_apply, layer_apply]

/-- The block with its leading unit axis dropped, at `(r, d)`. -/
theorem pay4_apply (v4 : Vec Ideal S1x256x768 .f32) (r : Fin 256) (d : Fin 768) :
    k0_pay4 (F := Ideal) v4 (ix2 r d) = v4 (ix3 0 r d) := by
  unfold k0_pay4
  rw [shapeCast_1ab_ab_apply]

/-- The reformatted block, at `(r, d)`: the format change is the identity. -/
theorem pay6_apply (v4 : Vec Ideal S1x256x768 .f32) (r : Fin 256) (d : Fin 768) :
    k0_pay6 (F := Ideal) v4 (ix2 r d) = v4 (ix3 0 r d) := by
  unfold k0_pay6
  rw [truncf_apply, pay4_apply]

/-- The membership column with its leading unit axis dropped, at row `r`. -/
theorem pay5_apply (v6 : Vec Ideal S1x256x1 .f32) (r : Fin 256) :
    k0_pay5 (F := Ideal) v6 (ix2 r 0) = v6 (ix3 0 r 0) := by
  unfold k0_pay5
  rw [shapeCast_1ab_ab_apply]

/-- What is stored to the `last` output where the two words differ: the routed map with the earlier slot's slabs and
    bias rows, over the same block and column (handed over as the reshaped column and the reformatted block). -/
theorem pay3_apply (v4 : Vec Ideal S1x256x768 .f32) (v6 : Vec Ideal S1x256x1 .f32) (v42 v44 : Vec Ideal S1x1x768 .f32)
    (v47 v50 : Vec Ideal S1x768x768 .bf16) (r : Fin 256) (e : Fin 768) :
    k0_pay3 (F := Ideal) (k0_pay5 v6) (k0_pay6 v4) v42 v44 v47 v50 (ix3 0 r e)
      = mlp (fun d => v4 (ix3 0 r d)) (fun d k => v47 (ix3 0 d k)) (fun k => v42 (ix3 0 0 k))
          (fun k e => v50 (ix3 0 k e)) (fun e => v44 (ix3 0 0 e)) e * v6 (ix3 0 r 0) := by
  rw [pay3_body, pay5_apply]
  exact congrArg (fun x => mlp x (fun d k => v47 (ix3 0 d k)) (fun k => v42 (ix3 0 0 k))
    (fun k e => v50 (ix3 0 k e)) (fun e => v44 (ix3 0 0 e)) e * v6 (ix3 0 r 0)) (funext fun d => pay6_apply v4 r d)

/-- What is stored to the `now` output. -/
theorem pay8_apply (v4 : Vec Ideal S1x256x768 .f32) (v6 : Vec Ideal S1x256x1 .f32) (v9 v11 : Vec Ideal S1x1x768 .f32)
    (v14 v17 : Vec Ideal S1x768x768 .bf16) (r : Fin 256) (e : Fin 768) :
    k0_pay8 (F := Ideal) v4 v6 v9 v11 v14 v17 (ix3 0 r e)
      = mlp (fun d => v4 (ix3 0 r d)) (fun d k => v14 (ix3 0 d k)) (fun k => v9 (ix3 0 0 k))
          (fun k e => v17 (ix3 0 k e)) (fun e => v11 (ix3 0 0 e)) e * v6 (ix3 0 r 0) :=
  pay3_apply v4 v6 v9 v11 v14 v17 r e

/-- The body's product before its leading unit axis is put back, at `(r, e)`. -/
theorem pay7_apply (v4 : Vec Ideal S1x256x768 .f32) (v6 : Vec Ideal S1x256x1 .f32) (v9 v11 : Vec Ideal S1x1x768 .f32)
    (v14 v17 : Vec Ideal S1x768x768 .bf16) (r : Fin 256) (e : Fin 768) :
    k0_pay7 (F := Ideal) v4 v6 v9 v11 v14 v17 (ix2 r e)
      = mlp (fun d => v4 (ix3 0 r d)) (fun d k => v14 (ix3 0 d k)) (fun k => v9 (ix3 0 0 k))
          (fun k e => v17 (ix3 0 k e)) (fun e => v11 (ix3 0 0 e)) e * v6 (ix3 0 r 0) :=
  (shapeCast_ab_1ab_apply (k0_pay7 (F := Ideal) v4 v6 v9 v11 v14 v17) shapeCasts_S256x768_S1x256x768 0 r e).symm.trans
    (pay8_apply v4 v6 v9 v11 v14 v17 r e)

/-- What is stored to the `last` output where the two words agree: the same product. -/
theorem pay2_pay7_apply (v4 : Vec Ideal S1x256x768 .f32) (v6 : Vec Ideal S1x256x1 .f32) (v9 v11 : Vec Ideal S1x1x768 .f32)
    (v14 v17 : Vec Ideal S1x768x768 .bf16) (r : Fin 256) (e : Fin 768) :
    k0_pay2 (F := Ideal) (k0_pay7 v4 v6 v9 v11 v14 v17) (ix3 0 r e)
      = mlp (fun d => v4 (ix3 0 r d)) (fun d k => v14 (ix3 0 d k)) (fun k => v9 (ix3 0 0 k))
          (fun k e => v17 (ix3 0 k e)) (fun e => v11 (ix3 0 0 e)) e * v6 (ix3 0 r 0) := by
  unfold k0_pay2
  rw [shapeCast_ab_1ab_apply, pay7_apply]

/-- What is stored to the sum output: the embedding row plus the `now` product. -/
theorem pay1_pay9_apply (v4 : Vec Ideal S1x256x768 .f32) (v6 : Vec Ideal S1x256x1 .f32) (v9 v11 : Vec Ideal S1x1x768 .f32)
    (v14 v17 : Vec Ideal S1x768x768 .bf16) (r : Fin 256) (e : Fin 768) :
    k0_pay1 (F := Ideal) (k0_pay9 v4 v6 v9 v11 v14 v17) (ix3 0 r e)
      = v4 (ix3 0 r e) + mlp (fun d => v4 (ix3 0 r d)) (fun d k => v14 (ix3 0 d k)) (fun k => v9 (ix3 0 0 k))
          (fun k e => v17 (ix3 0 k e)) (fun e => v11 (ix3 0 0 e)) e * v6 (ix3 0 r 0) := by
  unfold k0_pay1 k0_pay9
  rw [shapeCast_ab_1ab_apply, addf_apply, pay4_apply, pay7_apply]

end Cert.KernelIdeal.Pay

end
-- ==== Proof.LibTakeFill.lean ====
/-
  A gather that fills out-of-range rows, when no row is out of range. `jnp.take(x, idx, axis=0)` lowers to: wrap a
  negative index by adding the extent `N`; test the wrapped index against `[0, N − 1]`; gather the rows (the start index
  clamped); and select, row by row, the gathered row where the test passed and a fill value where it did not. When every
  index word `i` satisfies `−N ≤ i < N` the wrapped index lies in `[0, N − 1]`, the test passes on every row, and the
  select returns the gathered rows: the fill value is never read.
-/
import Idealize.ShloMosaic.PureOps.Vector
import Idealize.ShloMosaic.PureOps.Contract
import Idealize.ShloMosaic.PureOps.ShapeOps
import Idealize.ShloMosaic.Lib.ValueIdx
import Idealize.ShloMosaic.Lib.Pipeline.Value
import Idealize.ShloMosaic.Lib.ReduceAll

noncomputable section

namespace Cert.LibTakeFill

open Idealize.ShloMosaic Idealize.ShloMosaic.ValueIdx

/-- The rank-0 shape. -/
abbrev Sc : Shape := ⟨0, ![]⟩
/-- A vector of `E` words. -/
abbrev V1 (E : Nat) : Shape := ⟨1, ![E]⟩
/-- A column of `E` words. -/
abbrev Col (E : Nat) : Shape := ⟨2, ![E, 1]⟩
/-- The `1 × 1` shape. -/
abbrev One2 : Shape := ⟨2, ![1, 1]⟩

/-- The index vector after the wrap of its negative words (`i < 0 ↦ i + N`), laid out as a column. -/
abbrev wrapCol {E : Nat} (hb0 : Sc.BroadcastsInDim (V1 E) (![] : Fin 0 → Fin 1))
    (hbc : (V1 E).BroadcastsInDim (Col E) (![0] : Fin 1 → Fin 2)) (Nw : BitVec 32) (idx : IVec (V1 E) 32) : IVec (Col E) 32 :=
  broadcastInDim (Col E) (![0] : Fin 1 → Fin 2) hbc
    (select (cmpi .slt idx (broadcastInDim (V1 E) (![] : Fin 0 → Fin 1) hb0 (constantI Sc 32 0#32)))
      (addi idx (broadcastInDim (V1 E) (![] : Fin 0 → Fin 1) hb0 (constantI Sc 32 Nw))) idx)

/-- The word of a natural number below `2³¹` reads, signed, as that number. -/
theorem toInt_ofNat_small (a : ℕ) (ha : a < 2 ^ 31) : (BitVec.ofNat 32 a).toInt = (a : ℤ) := by
  rw [BitVec.toInt_ofNat']
  exact Int.bmod_eq_of_le_mul_two (by omega) (by omega)

/-- One word: with `−N ≤ i < N`, the wrapped word `i'` (`i + N` when `i < 0`, else `i`) passes both tests
    `i' ≥ 0` and `i' ≤ N − 1` (signed compares on 32-bit words; `N` far below `2³¹`). -/
theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  obtain ⟨h1, h2⟩ := hi
  have hNi : (BitVec.ofNat 32 N).toInt = (N : ℤ) := toInt_ofNat_small N (by omega)
  have hN1 : (BitVec.ofNat 32 (N - 1)).toInt = ((N - 1 : ℕ) : ℤ) := toInt_ofNat_small (N - 1) (by omega)
  have h0 : (0#32).toInt = 0 := BitVec.toInt_zero
  rw [IntOp.andi_eq_one, IntOp.cmpi_sge, IntOp.cmpi_sle, h0, hN1]
  by_cases hneg : i.toInt < 0
  · have hc : IntOp.cmpi .slt i 0#32 = 1#1 := IntOp.cmpi_slt.mpr (by rw [h0]; exact hneg)
    rw [hc, select_one]
    have hsum : (IntOp.addi i (BitVec.ofNat 32 N)).toInt = i.toInt + (N : ℤ) := by
      show (i + BitVec.ofNat 32 N).toInt = _
      rw [BitVec.toInt_add, hNi]
      exact Int.bmod_eq_of_le_mul_two (by omega) (by omega)
    rw [hsum]
    omega
  · have hc : ¬ IntOp.cmpi .slt i 0#32 = 1#1 := fun h => hneg (by have := IntOp.cmpi_slt.mp h; rwa [h0] at this)
    have hsel : Scalar.select (IntOp.cmpi .slt i 0#32) (IntOp.addi i (BitVec.ofNat 32 N)) i = i := if_neg hc
    rw [hsel]
    omega

/-- A broadcast of a vector that is `c` everywhere is `c` everywhere: the result at an index is the operand at some index. -/
theorem broadcastInDim_eq_const {α : Type} {s t : Shape} (dims : Fin s.rank → Fin t.rank) (h : s.BroadcastsInDim t dims)
    (x : s.Idx → α) (c : α) (hx : ∀ k, x k = c) (j : t.Idx) : broadcastInDim t dims h x j = c := hx _

/-- A fold of `and` from the bit `1` over bits that are all `1` is `1`. -/
theorem foldl_andi_ones {ι : Type} (x : ι → BitVec 1) (hx : ∀ n, x n = 1#1) (l : List ι) :
    l.foldl (fun r n => IntOp.andi r (x n)) 1#1 = 1#1 := by
  induction l with
  | nil => rfl
  | cons a l ih =>
    have h1 : IntOp.andi 1#1 (x a) = 1#1 := by rw [hx a]; decide
    simp only [List.foldl_cons, h1]
    exact ih

/-- A reduction by `and`, from an initial value that is `1`, of a vector of ones is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

/-- THE FILLING GATHER IS THE GATHER when every index word lies in `[−N, N)`: the row mask (the reduction by `and`, along
    the unit axis, of the two range tests of the wrapped column) is all ones, so the select keeps `g` everywhere. -/
theorem take_fill_eq {α : Type} {E C : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (⟨2, ![E, C]⟩ : Shape) (![0] : Fin 1 → Fin 2))
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (⟨2, ![E, C]⟩ : Shape).Idx → α) :
    select (broadcastInDim (⟨2, ![E, C]⟩ : Shape) (![0] : Fin 1 → Fin 2) hbEC
        (Host.reduce IntOp.andi
          (andi (cmpi .sge (wrapCol hb0 hbc Nw idx) (broadcastInDim (Col E) (![] : Fin 0 → Fin 2) hb01 (constantI Sc 32 0#32)))
            (cmpi .sle (wrapCol hb0 hbc Nw idx)
              (broadcastInDim (Col E) (![0, 1] : Fin 2 → Fin 2) hb1E
                (broadcastInDim One2 (![1] : Fin 1 → Fin 2) hb11 (constantI (V1 1) 32 Nm1)))))
          (constantI Sc 1 1#1) hr h0)) g fill = g := by
  subst hNw hNm1
  funext j
  rw [select_apply]
  have hmask : broadcastInDim (⟨2, ![E, C]⟩ : Shape) (![0] : Fin 1 → Fin 2) hbEC
        (Host.reduce IntOp.andi
          (andi (cmpi .sge (wrapCol hb0 hbc (BitVec.ofNat 32 N) idx) (broadcastInDim (Col E) (![] : Fin 0 → Fin 2) hb01 (constantI Sc 32 0#32)))
            (cmpi .sle (wrapCol hb0 hbc (BitVec.ofNat 32 N) idx)
              (broadcastInDim (Col E) (![0, 1] : Fin 2 → Fin 2) hb1E
                (broadcastInDim One2 (![1] : Fin 1 → Fin 2) hb11 (constantI (V1 1) 32 (BitVec.ofNat 32 (N - 1)))))))
          (constantI Sc 1 1#1) hr h0) j = 1#1 :=
    broadcastInDim_eq_const _ _ _ _
      (fun k => reduce_andi_ones _ _ _ _ (fun i => wrap_word_in_range N hN0 hN (idx _) (hidx _)) (fun _ => rfl) k) j
  rw [hmask, select_one]

end Cert.LibTakeFill

end
-- ==== Proof.KIHostEmb.lean ====
import proofs.«405048_j65712999629030_3_alg».proof.Proof.KIArgs
import proofs.«405048_j65712999629030_3_alg».proof.Proof.LibTakeFill
import Idealize.ShloMosaic.Lib.StableHlo.Run
import Idealize.ShloMosaic.Lib.IdealHost

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx Cert.Spec

/-! ## The two arrays the host computes from the token ids, read at an index (extended reals)

The filling row gather: with every token id in [0, 30522) no row is filled, and row `(b, l)` is the embedding table's
row of that id. The membership column: ones scattered at the (clipped, here unchanged) filter ids into a zero vector of
30522, then gathered at the token ids: 1 exactly where some filter id equals the token id. -/

/-! ## Words in range: the wrap of a negative word and the clip into the table do nothing -/

/-- A word that reads, signed, as a number that is not negative is not wrapped. -/
private theorem wrap_of_nonneg (w N : BitVec 32) (h0 : 0 ≤ w.toInt) :
    Scalar.select (IntOp.cmpi .slt w 0#32) (IntOp.addi w N) w = w := by
  have hc : ¬ IntOp.cmpi .slt w 0#32 = 1#1 := fun h => by
    have := IntOp.cmpi_slt.mp h
    rw [BitVec.toInt_zero] at this
    omega
  exact if_neg hc

/-- A word in `[0, 30522)` is its own clip into `[0, 30521]`. -/
private theorem clip_of_inRange (w : BitVec 32) (h0 : 0 ≤ w.toInt) (h1 : w.toInt < 30522) :
    IntOp.minsi 30521#32 (IntOp.maxsi 0#32 w) = w := by
  have hz : (0#32 : BitVec 32).toInt = 0 := BitVec.toInt_zero
  have ht : (30521#32 : BitVec 32).toInt = 30521 := by decide
  have hmax : IntOp.maxsi 0#32 w = w := by
    unfold IntOp.maxsi
    rw [if_neg]
    rw [BitVec.slt_iff_toInt_lt, hz]
    omega
  rw [hmax]
  unfold IntOp.minsi
  rw [if_neg]
  rw [BitVec.slt_iff_toInt_lt, ht]
  omega

/-- Two 32-bit words agree exactly when their signed readings do. -/
private theorem word_eq_iff_toInt (v w : BitVec 32) : v = w ↔ v.toInt = w.toInt :=
  ⟨fun h => by rw [h], fun h => BitVec.eq_of_toInt_eq h⟩

/-! ## The layout operations of the two gathers, read at an index -/

/-- An array over `[64, 512]` given a trailing unit axis reads, at `(b, l, k)`, the array at `(b, l)`. -/
private theorem bcast_unit_apply {α : Type} (x : S64x512.Idx → α) (b : Fin 64) (l : Fin 512) (k : Fin 1) :
    broadcastInDim S64x512x1 ![0, 1] bcast_S64x512_S64x512x1_0_1 x (ix3 b l k) = x (ix2 b l) := by
  unfold broadcastInDim
  refine congrArg x (funext fun a => ?_)
  match a with
  | ⟨0, _⟩ => rfl
  | ⟨1, _⟩ => rfl

/-- An array over `[64, 512]` stretched along a third axis of 768 reads, at `(b, l, d)`, the array at `(b, l)`. -/
private theorem bcast_rows_apply {α : Type} (x : S64x512.Idx → α) (b : Fin 64) (l : Fin 512) (d : Fin 768) :
    broadcastInDim S64x512x768 ![0, 1] bcast_S64x512_S64x512x768_0_1 x (ix3 b l d) = x (ix2 b l) := by
  unfold broadcastInDim
  refine congrArg x (funext fun a => ?_)
  match a with
  | ⟨0, _⟩ => rfl
  | ⟨1, _⟩ => rfl

/-- The row gather read at `(b, l, d)`: column `d` of the table's row at the start index `idx[b, l, 0]`, read signed and
    clamped into `[0, 30521]`. -/
private theorem gather_row_apply {α : Type} {w : Nat} (x : S30522x768.Idx → α) (idx : IVec S64x512x1 w) (b : Fin 64) (l : Fin 512) (d : Fin 768) :
    Host.gather gather_S30522x768_S64x512x1_S64x512x768_2_0_n_n_0_2_1768 x idx (ix3 b l d)
      = x (ix2 ⟨min (idx (ix3 b l 0)).toInt.toNat 30521, by omega⟩ d) := by
  unfold Host.gather
  refine congrArg x (funext fun a => Fin.ext ?_)
  match a with
  | ⟨0, _⟩ =>
    show GatherDims.start _ (ix3 b l d) idx 0 + GatherDims.batchCoord _ (ix3 b l d) 0 + GatherDims.offCoord _ (ix3 b l d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S30522x768_S64x512x1_S64x512x768_2_0_n_n_0_2_1768.startIndexMap from List.mem_singleton.mpr rfl)]
    have hsi : gather_S30522x768_S64x512x1_S64x512x768_2_0_n_n_0_2_1768.siIdx (ix3 b l d)
        ⟨List.idxOf (0 : Fin 2) gather_S30522x768_S64x512x1_S64x512x768_2_0_n_n_0_2_1768.startIndexMap,
          List.idxOf_lt_length_iff.2 (List.mem_singleton.mpr rfl)⟩ = ix3 b l 0 := by
      funext c; refine Fin.ext ?_
      match c with
      | ⟨0, _⟩ => rfl
      | ⟨1, _⟩ => rfl
      | ⟨2, _⟩ => rfl
    rw [hsi]
    rfl
  | ⟨1, _⟩ =>
    show GatherDims.start _ (ix3 b l d) idx 1 + GatherDims.batchCoord _ (ix3 b l d) 1 + GatherDims.offCoord _ (ix3 b l d) 1 = _
    rw [GatherDims.batchCoord_eq_zero _ _ _ List.not_mem_nil]
    unfold GatherDims.start
    rw [dif_neg (show (1 : Fin 2) ∉ gather_S30522x768_S64x512x1_S64x512x768_2_0_n_n_0_2_1768.startIndexMap from by decide)]
    have hk : (1 : Fin 2) ∈ gather_S30522x768_S64x512x1_S64x512x768_2_0_n_n_0_2_1768.sKept :=
      (GatherDims.mem_sKept _ _).mpr ⟨by decide, List.not_mem_nil⟩
    unfold GatherDims.offCoord
    rw [dif_pos hk]
    simp only [Nat.zero_add]
    rfl

/-! ## The filling row gather -/

/-- `Scalar.select` on a bit known to be `1` is its first operand. -/
private theorem select_of_eq_one {α : Type} {c : BitVec 1} (h : c = 1#1) (a a' : α) : Scalar.select c a a' = a := by
  rw [h]; exact select_one a a'

/-- The token ids after the wrap of their negative words (`i < 0 ↦ i + 30522`), given a trailing unit axis: the start
    indices of both gathers. -/
private abbrev wrapTok (rv : IVec S64x512 32) : IVec S64x512x1 32 :=
  broadcastInDim S64x512x1 ![0, 1] bcast_S64x512_S64x512x1_0_1
    (select (cmpi .slt rv (broadcastInDim S64x512 ![] bcast_S_S64x512 (constantI S_ 32 0#32)))
      (addi rv (broadcastInDim S64x512 ![] bcast_S_S64x512 (constantI S_ 32 30522#32))) rv)

/-- Where the token id is not negative the wrapped column holds the id itself. -/
private theorem wrapTok_apply (rv : IVec S64x512 32) (b : Fin 64) (l : Fin 512) (k : Fin 1) (h0 : 0 ≤ (rv (ix2 b l)).toInt) :
    wrapTok rv (ix3 b l k) = rv (ix2 b l) := by
  unfold wrapTok
  rw [bcast_unit_apply]
  exact wrap_of_nonneg _ _ h0

/-- With every token id in `[0, 30522)` both range tests pass on every row, the select keeps the gathered row, and the
    gathered row is the table's row of that id: the fill value is never read. -/
private theorem take_fill_row (rv : IVec S64x512 32) (emb : FVec Ideal S30522x768 .f32)
    (hrv : ∀ j, 0 ≤ (rv j).toInt ∧ (rv j).toInt < 30522) (b : Fin 64) (l : Fin 512) (d : Fin 768) :
    select (broadcastInDim S64x512x768 ![0, 1] bcast_S64x512_S64x512x768_0_1
        (Host.reduce IntOp.andi
          (andi (cmpi .sge (wrapTok rv) (broadcastInDim S64x512x1 ![] bcast_S_S64x512x1 (constantI S_ 32 0#32)))
            (cmpi .sle (wrapTok rv) (broadcastInDim S64x512x1 ![0, 1, 2] bcast_S1x1x1_S64x512x1_0_1_2
              (broadcastInDim S1x1x1 ![2] bcast_S1_S1x1x1_2 (constantI S1 32 30521#32)))))
          (constantI S_ 1 1#1) reducesTo_S64x512x1_S64x512_d2 h_S_))
      (Host.gather gather_S30522x768_S64x512x1_S64x512x768_2_0_n_n_0_2_1768 emb (wrapTok rv))
      (broadcastInDim S64x512x768 ![] bcast_S_S64x512x768 (constant (F := Ideal) S_ .f32 0x7FC00000#32)) (ix3 b l d)
    = embRow rv emb b l d := by
  rw [select_apply, bcast_rows_apply]
  refine (select_of_eq_one (Cert.LibTakeFill.reduce_andi_ones _ _ _ _ (fun i => ?_) (fun _ => rfl) _) _ _).trans ?_
  · exact Cert.LibTakeFill.wrap_word_in_range 30522 (by norm_num) (by norm_num) (rv _)
      ⟨by have := (hrv (fun a => if h1 : S64x512.size a = 1 then ⟨0, by omega⟩ else ⟨(i ((![0, 1] : Fin 2 → Fin 3) a)).val, by
          rcases bcast_S64x512_S64x512x1_0_1.2 a with h2 | h2
          · exact absurd h2 h1
          · rw [h2]; exact (i _).isLt⟩)).1; omega, (hrv _).2⟩
  · rw [gather_row_apply]
    refine congrArg (fun r => emb (ix2 r d)) (Fin.ext ?_)
    show min (wrapTok rv (ix3 b l 0)).toInt.toNat 30521 = min (rv (ix2 b l)).toInt.toNat 30521
    rw [wrapTok_apply rv b l 0 (hrv _).1]

set_option maxHeartbeats 4000000 in
/-- THE EMBEDDING ROWS at launch: row `(b, l)` is the embedding table's row of token `(b, l)`'s id. -/
theorem V_embs (c : Dev nD) (hr : InR m c) (b : Fin 64) (l : Fin 512) (d : Fin 768) :
    (V (F := Ideal) m c main_v1 : S64x512x768.Idx → EReal) (ix3 b l d) = embRow (rvArr m c) (embArr m c) b l d := by
  dsimp only [V]
  simp only [hostOps0, hostOps0_1, hostOps0_2, hostOps0_3, hostOps0_4, hostOps0_5, List.flatten_cons, List.flatten_nil, List.append_nil, List.cons_append, List.nil_append]
  after_results_simp
  simp only [StableHlo.TRef.ofBuf, StableHlo.TRef.toBuf, cast_eq]
  exact take_fill_row (rvArr m c) (embArr m c) hr.rv b l d

/-! ## A scatter that sets one constant -/

section ScatterConst
variable {α : Type} {s si u : Shape} {w : Nat}

/-- The fold of the scatter's step over a list of updates, all of them the value `one` and the body returning the update:
    a slot some update of the list lands on holds `one`, whichever of them wrote last; any other slot is untouched. -/
private theorem scatter_fold_const (d : ScatterDims s si u) (idx : IVec si w) (upd : u.Idx → α) (one : α)
    (hupd : ∀ j, upd j = one) (i' : s.Idx) (L : List (Fin u.numel)) (r : s.Idx → α) :
    (L.foldl (fun r n =>
        match d.resultIdx? (u.rowMajor.symm n) idx with
        | some i => fun i' => if i' = i then (fun (_ : α) (b : α) => b) (r i) (upd (u.rowMajor.symm n)) else r i'
        | none => r) r) i'
      = if (∃ n ∈ L, d.resultIdx? (u.rowMajor.symm n) idx = some i') then one else r i' := by
  induction L generalizing r with
  | nil => simp
  | cons n L ih =>
    rw [List.foldl_cons, ih]
    by_cases hL : ∃ n' ∈ L, d.resultIdx? (u.rowMajor.symm n') idx = some i'
    · have hL' : ∃ n' ∈ n :: L, d.resultIdx? (u.rowMajor.symm n') idx = some i' := by
        obtain ⟨n', hn', e⟩ := hL
        exact ⟨n', List.mem_cons_of_mem _ hn', e⟩
      rw [if_pos hL, if_pos hL']
    · rw [if_neg hL]
      cases hg : d.resultIdx? (u.rowMajor.symm n) idx with
      | none =>
        have hL' : ¬ ∃ n' ∈ n :: L, d.resultIdx? (u.rowMajor.symm n') idx = some i' := by
          rintro ⟨n', hn', e⟩
          rcases List.mem_cons.1 hn' with h | h
          · rw [h, hg] at e; cases e
          · exact hL ⟨n', h, e⟩
        rw [if_neg hL']
      | some i =>
        by_cases hi : i' = i
        · have hL' : ∃ n' ∈ n :: L, d.resultIdx? (u.rowMajor.symm n') idx = some i' :=
            ⟨n, List.mem_cons_self, by rw [hg, hi]⟩
          rw [if_pos hL']
          show (if i' = i then upd (u.rowMajor.symm n) else r i') = one
          rw [if_pos hi]; exact hupd _
        · have hL' : ¬ ∃ n' ∈ n :: L, d.resultIdx? (u.rowMajor.symm n') idx = some i' := by
            rintro ⟨n', hn', e⟩
            rcases List.mem_cons.1 hn' with h | h
            · rw [h, hg] at e; exact hi (Option.some.inj e).symm
            · exact hL ⟨n', h, e⟩
          rw [if_neg hL']
          show (if i' = i then upd (u.rowMajor.symm n) else r i') = r i'
          rw [if_neg hi]

/-- A `set` scatter of updates that are all `one`: a slot some update index lands on reads `one` … -/
private theorem scatter_const_hit (d : ScatterDims s si u) (x : s.Idx → α) (idx : IVec si w) (upd : u.Idx → α) (one : α)
    (hupd : ∀ j, upd j = one) (i' : s.Idx) (h : ∃ j : u.Idx, d.resultIdx? j idx = some i') :
    Host.scatter d (fun _ b => b) x idx upd i' = one := by
  unfold Host.scatter
  refine (scatter_fold_const d idx upd one hupd i' _ x).trans (if_pos ?_)
  obtain ⟨j, e⟩ := h
  exact ⟨u.rowMajor j, List.mem_finRange _, by rw [Equiv.symm_apply_apply]; exact e⟩

/-- … and a slot none lands on reads the operand. -/
private theorem scatter_const_miss (d : ScatterDims s si u) (x : s.Idx → α) (idx : IVec si w) (upd : u.Idx → α) (one : α)
    (hupd : ∀ j, upd j = one) (i' : s.Idx) (h : ¬ ∃ j : u.Idx, d.resultIdx? j idx = some i') :
    Host.scatter d (fun _ b => b) x idx upd i' = x i' := by
  unfold Host.scatter
  refine (scatter_fold_const d idx upd one hupd i' _ x).trans (if_neg ?_)
  rintro ⟨n, _, e⟩
  exact h ⟨_, e⟩

end ScatterConst

/-! ## The membership column -/

/-- A vector of 5000 laid out as a column reads, at `(j, k)`, the vector at `j`. -/
private theorem bcast_col_apply {α : Type} (x : S5000.Idx → α) (j : Fin 5000) (k : Fin 1) :
    broadcastInDim S5000x1 ![0] bcast_S5000_S5000x1_0 x (ix2 j k) = x (ix1 j) := by
  unfold broadcastInDim
  refine congrArg x (funext fun a => ?_)
  match a with
  | ⟨0, _⟩ => rfl

/-- The slot update `j` of the scatter aims at: the scatter index `idx[j, 0]` read signed (the operand's one axis is the
    inserted one, so the window adds nothing). -/
private theorem scat_aim {w : Nat} (idx : IVec S5000x1 w) (j : S5000.Idx) (a : Fin 1) :
    scatter_S30522_S5000x1_S5000_n_0_0_1.start j idx a + (scatter_S30522_S5000x1_S5000_n_0_0_1.window j a : Int)
      = (idx (ix2 (j 0) 0)).toInt := by
  obtain rfl : a = 0 := Subsingleton.elim _ _
  unfold ScatterDims.start ScatterDims.window
  rw [dif_pos (show (0 : Fin 1) ∈ scatter_S30522_S5000x1_S5000_n_0_0_1.scatterDimsToOperandDims from List.mem_singleton.mpr rfl),
    dif_neg (show (0 : Fin 1) ∉ scatter_S30522_S5000x1_S5000_n_0_0_1.sKept from by decide)]
  have hsi : scatter_S30522_S5000x1_S5000_n_0_0_1.siIdx j
      ⟨List.idxOf (0 : Fin 1) scatter_S30522_S5000x1_S5000_n_0_0_1.scatterDimsToOperandDims,
        List.idxOf_lt_length_iff.2 (List.mem_singleton.mpr rfl)⟩ = ix2 (j 0) 0 := by
    funext c; refine Fin.ext ?_
    match c with
    | ⟨0, _⟩ => rfl
    | ⟨1, _⟩ => rfl
  rw [hsi]
  simp

/-- Update `j` lands on slot `i'` exactly when its scatter index, read signed, is `i'`: an index outside
    `[0, 30522)` lands nowhere. -/
private theorem scat_lands_iff {w : Nat} (idx : IVec S5000x1 w) (j : S5000.Idx) (i' : S30522.Idx) :
    scatter_S30522_S5000x1_S5000_n_0_0_1.resultIdx? j idx = some i' ↔ (idx (ix2 (j 0) 0)).toInt = ((i' 0).val : Int) := by
  have hlt : ((i' 0).val : Int) < 30522 := by have := (i' 0).isLt; exact_mod_cast this
  unfold ScatterDims.resultIdx?
  split
  · next h =>
    constructor
    · intro e
      have e0 := congrArg (fun f : S30522.Idx => (f 0).val) (Option.some.inj e)
      have h0 := h 0
      rw [scat_aim] at h0
      simp only [scat_aim] at e0
      omega
    · intro e
      refine congrArg some (funext fun a => Fin.ext ?_)
      obtain rfl : a = 0 := Subsingleton.elim _ _
      show (scatter_S30522_S5000x1_S5000_n_0_0_1.start j idx 0 + (scatter_S30522_S5000x1_S5000_n_0_0_1.window j 0 : Int)).toNat = _
      rw [scat_aim, e]
      simp
  · next h =>
    constructor
    · intro e; cases e
    · intro e
      refine absurd (fun a => ?_) h
      rw [scat_aim, e]
      have : (S30522.size a : Int) = 30522 := by
        obtain rfl : a = 0 := Subsingleton.elim _ _
        rfl
      constructor <;> omega

/-- The filter ids clipped into `[0, 30521]`. -/
private abbrev clipFilt (vf : IVec S5000 32) : IVec S5000 32 :=
  minsi (broadcastInDim S5000 ![] bcast_S_S5000 (id (constantI S_ 32 30521#32)))
    (maxsi (broadcastInDim S5000 ![] bcast_S_S5000 (id (constantI S_ 32 0#32))) vf)

/-- The clipped filter ids after the wrap of their negative words, as a column: the scatter's indices. -/
private abbrev filtCol (vf : IVec S5000 32) : IVec S5000x1 32 :=
  broadcastInDim S5000x1 ![0] bcast_S5000_S5000x1_0
    (select (cmpi .slt (clipFilt vf) (broadcastInDim S5000 ![] bcast_S_S5000 (constantI S_ 32 0#32)))
      (addi (clipFilt vf) (broadcastInDim S5000 ![] bcast_S_S5000 (constantI S_ 32 30522#32))) (clipFilt vf))

/-- A filter id in `[0, 30522)` passes the clip and the wrap unchanged. -/
private theorem filtCol_apply (vf : IVec S5000 32) (j : Fin 5000) (k : Fin 1)
    (h : 0 ≤ (vf (ix1 j)).toInt ∧ (vf (ix1 j)).toInt < 30522) : filtCol vf (ix2 j k) = vf (ix1 j) := by
  unfold filtCol
  rw [bcast_col_apply]
  have hc : clipFilt vf (ix1 j) = vf (ix1 j) := clip_of_inRange _ h.1 h.2
  show Scalar.select (IntOp.cmpi .slt (clipFilt vf (ix1 j)) 0#32) (IntOp.addi (clipFilt vf (ix1 j)) 30522#32) (clipFilt vf (ix1 j)) = _
  rw [hc]
  exact wrap_of_nonneg _ _ h.1

/-- The start-indices index of result `(b, l)` of the rank-1 gather is `(b, l, 0)`. -/
private theorem takeIdx_ix2 (b : Fin 64) (l : Fin 512) : takeIdx (ix2 b l) = ix3 b l (0 : Fin 1) := by
  funext a
  match a with
  | ⟨0, _⟩ => rfl
  | ⟨1, _⟩ => rfl
  | ⟨2, _⟩ => rfl

/-- Ones scattered at the filter ids into zeros, gathered back at the token ids: with every id in `[0, 30522)` the entry
    of token `(b, l)` is 1 when some filter id is its id and 0 when none is. -/
private theorem member_col (rv : IVec S64x512 32) (vf : IVec S5000 32)
    (hrv : ∀ j, 0 ≤ (rv j).toInt ∧ (rv j).toInt < 30522) (hvf : ∀ j, 0 ≤ (vf j).toInt ∧ (vf j).toInt < 30522)
    (b : Fin 64) (l : Fin 512) :
    broadcastInDim S64x512x1 ![0, 1] bcast_S64x512_S64x512x1_0_1
      (Host.gather gather_S30522_S64x512x1_S64x512_n_0_n_n_0_2_1
        (Host.scatter scatter_S30522_S5000x1_S5000_n_0_0_1 (fun _ b => b)
          (broadcastInDim S30522 ![] bcast_S_S30522 (constant (F := Ideal) S_ .f32 0x00000000#32))
          (filtCol vf)
          (broadcastInDim S5000 ![] bcast_S_S5000 (constant (F := Ideal) S_ .f32 0x3F800000#32)))
        (wrapTok rv)) (ix3 b l 0)
    = member rv vf b l := by
  rw [bcast_unit_apply]
  refine (gather_take_apply (N := 30522) (R := 64) (C := 512) (by norm_num)
    gather_S30522_S64x512x1_S64x512_n_0_n_n_0_2_1.wf _ (wrapTok rv) (ix2 b l)).trans ?_
  have hw : wrapTok rv (takeIdx (ix2 b l)) = rv (ix2 b l) := by
    rw [takeIdx_ix2]; exact wrapTok_apply rv b l 0 (hrv _).1
  simp only [hw]
  obtain ⟨h0, h1⟩ := hrv (ix2 b l)
  -- the slot read is the token's id
  have hslot : ∀ j : S5000.Idx,
      scatter_S30522_S5000x1_S5000_n_0_0_1.resultIdx? j (filtCol vf)
          = some (ix1 ⟨min (rv (ix2 b l)).toInt.toNat (30522 - 1), by omega⟩)
        ↔ vf (ix1 (j 0)) = rv (ix2 b l) := by
    intro j
    rw [scat_lands_iff, filtCol_apply vf (j 0) 0 (hvf _), word_eq_iff_toInt]
    show (vf (ix1 (j 0))).toInt = ((min (rv (ix2 b l)).toInt.toNat (30522 - 1) : Nat) : Int) ↔ _
    omega
  unfold member
  by_cases hm : ∃ j : Fin 5000, vf (ix1 j) = rv (ix2 b l)
  · rw [if_pos hm]
    obtain ⟨j, e⟩ := hm
    exact scatter_const_hit _ _ _ _ (1 : EReal) (fun _ => Ideal.ofBits_one_f32) _ ⟨ix1 j, (hslot _).2 e⟩
  · rw [if_neg hm]
    refine (scatter_const_miss _ _ _ _ (1 : EReal) (fun _ => Ideal.ofBits_one_f32) _ ?_).trans Ideal.ofBits_zero_f32
    rintro ⟨j, e⟩
    exact hm ⟨j 0, (hslot j).1 e⟩

set_option maxHeartbeats 4000000 in
/-- THE MEMBERSHIP COLUMN at launch: entry `(b, l)` is 1 when token `(b, l)`'s id occurs among the filter ids, else 0. -/
theorem V_filt (c : Dev nD) (hr : InR m c) (b : Fin 64) (l : Fin 512) :
    (V (F := Ideal) m c main_v18 : S64x512x1.Idx → EReal) (ix3 b l 0) = member (rvArr m c) (vfArr m c) b l := by
  dsimp only [V]
  simp only [hostOps0, hostOps0_1, hostOps0_2, hostOps0_3, hostOps0_4, hostOps0_5, List.flatten_cons, List.flatten_nil, List.append_nil, List.cons_append, List.nil_append]
  after_results_simp
  simp only [StableHlo.TRef.ofBuf, StableHlo.TRef.toBuf, cast_eq]
  exact member_col (rvArr m c) (vfArr m c) hr.rv hr.vf b l

end Cert.KernelIdeal.Route

end
-- ==== Proof.KIHostBias.lean ====
import proofs.«405048_j65712999629030_3_alg».proof.Proof.KIArgs
import Idealize.ShloMosaic.Lib.Pipeline.Value
import Idealize.ShloMosaic.Lib.StableHlo.Run

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx Cert.Spec

/-! ## A row gather of a [12, 768] table read at an index

The gather takes, for each of sixty-four start words, the whole table row at that word: the row axis is collapsed and
indexed by the start word, read signed and clamped into the twelve rows; the column axis is carried over. -/

section Gather
variable {α : Type}

/-- The gather's dimension numbers. -/
private abbrev G12 : GatherDims S12x768 S64x1 S64x768 := gather_S12x768_S64x1_S64x768_1_0_n_n_0_1_1768

/-- The start-index entry a result row reads is the row's only one. -/
private theorem G12_siIdx (b : Fin 64) (k : Fin 768) (h) :
    G12.siIdx (ix2 b k) ⟨List.idxOf (0 : Fin 2) G12.startIndexMap, h⟩ = ix2 b (0 : Fin 1) := by
  funext c; refine Fin.ext ?_
  match c with
  | ⟨0, _⟩ => rfl
  | ⟨1, _⟩ => rfl

/-- On the row axis the operand coordinate is the clamped start word … -/
private theorem G12_axis0 (idx : IVec S64x1 32) (b : Fin 64) (k : Fin 768) :
    G12.start (ix2 b k) idx 0 + G12.batchCoord (ix2 b k) 0 + G12.offCoord (ix2 b k) 0
      = min (idx (ix2 b (0 : Fin 1))).toInt.toNat 11 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ G12.startIndexMap from List.mem_singleton.mpr rfl)]
  rw [G12_siIdx]
  rfl

/-- … and on the column axis it is the result's column. -/
private theorem G12_axis1 (idx : IVec S64x1 32) (b : Fin 64) (k : Fin 768) :
    G12.start (ix2 b k) idx 1 + G12.batchCoord (ix2 b k) 1 + G12.offCoord (ix2 b k) 1 = k.val := by
  rw [GatherDims.batchCoord_eq_zero _ _ _ List.not_mem_nil]
  unfold GatherDims.start
  rw [dif_neg (show ¬ (1 : Fin 2) ∈ G12.startIndexMap from by decide)]
  unfold GatherDims.offCoord
  rw [dif_pos (show (1 : Fin 2) ∈ G12.sKept from by decide)]
  have h1 : ∀ (h : List.idxOf (1 : Fin 2) G12.sKept < G12.offsetDims.length),
      G12.offsetDims[List.idxOf (1 : Fin 2) G12.sKept]'h = (1 : Fin 2) := by decide
  rw [h1]
  simp only [Nat.zero_add]

/-- THE GATHER READ AT (b, k): the table at (row b's start word, clamped into [0, 11]; k). -/
private theorem rowGather_apply (x : S12x768.Idx → α) (idx : IVec S64x1 32) (b : Fin 64) (k : Fin 768) :
    Host.gather G12 x idx (ix2 b k) = x (ix2 (⟨min (idx (ix2 b (0 : Fin 1))).toInt.toNat 11, by omega⟩ : Fin 12) k) := by
  unfold Host.gather
  refine congrArg x (funext fun a => Fin.ext ?_)
  match a with
  | ⟨0, _⟩ => exact G12_axis0 idx b k
  | ⟨1, _⟩ => exact G12_axis1 idx b k

end Gather

/-! ## The clip and the wrap on one word

A time in [0, 12) is one of twelve words; on each the clip into [0, 11] and the wrap of a negative index do nothing, and
the predecessor floored at zero reads as the natural-number predecessor. -/

/-- A word whose signed value lies in [0, 12) is one of the twelve small words. -/
private theorem word_lt12 (w : BitVec 32) (h0 : 0 ≤ w.toInt) (h1 : w.toInt < 12) : ∃ n : Fin 12, w = BitVec.ofNat 32 n.val := by
  have hn : w.toNat < 12 := by
    rw [BitVec.toInt_eq_toNat_cond] at h0 h1
    have := w.isLt
    split at h0 <;> omega
  refine ⟨⟨w.toNat, hn⟩, BitVec.eq_of_toNat_eq ?_⟩
  rw [BitVec.toNat_ofNat]
  exact (Nat.mod_eq_of_lt w.isLt).symm

/-- The clip of a word into [0, 11]. -/
private abbrev clipW (w : BitVec 32) : BitVec 32 := IntOp.minsi 11#32 (IntOp.maxsi 0#32 w)
/-- The predecessor of a word, floored at zero. -/
private abbrev prevW (t : BitVec 32) : BitVec 32 := IntOp.maxsi (IntOp.subi t 1#32) 0#32
/-- A negative index counted from the end of twelve. -/
private abbrev wrapW (t : BitVec 32) : BitVec 32 := Scalar.select (IntOp.cmpi .slt t 0#32) (IntOp.addi t 12#32) t

private theorem slot_word (w : BitVec 32) (h0 : 0 ≤ w.toInt) (h1 : w.toInt < 12) :
    min (wrapW (clipW w)).toInt.toNat 11 = min w.toInt.toNat 11 := by
  obtain ⟨n, rfl⟩ := word_lt12 w h0 h1
  revert n; decide

private theorem prev_word (w : BitVec 32) (h0 : 0 ≤ w.toInt) (h1 : w.toInt < 12) :
    min (wrapW (prevW (clipW w))).toInt.toNat 11 = min (w.toInt.toNat - 1) 11 := by
  obtain ⟨n, rfl⟩ := word_lt12 w h0 h1
  revert n; decide

/-! ## A bias table's row for each batch row

The host broadcasts the constant words over the sixty-four batch rows, clips the times, wraps the clipped word as an
index counted from the end when negative, gathers the table's row at that word, and inserts a unit axis. Read at
(b, 0, k) the result is the table at (the word of row b, clamped into the twelve rows; k). -/

/-- A word broadcast over the batch rows. -/
private abbrev bc64 (n : BitVec 32) : IVec S64 32 := broadcastInDim S64 ![] bcast_S_S64 (constantI S_ 32 n)
/-- The times clipped into [0, 11]. -/
private abbrev clipT (tm : IVec S64 32) : IVec S64 32 := minsi (bc64 11#32) (maxsi (bc64 0#32) tm)
/-- The clipped times less one, floored at zero. -/
private abbrev prevT (t : IVec S64 32) : IVec S64 32 := maxsi (subi t (bc64 1#32)) (bc64 0#32)
/-- The word column the gather reads: each word wrapped, as a [64, 1] array. -/
private abbrev wrapCol (t : IVec S64 32) : IVec S64x1 32 :=
  broadcastInDim S64x1 ![0] bcast_S64_S64x1_0 (select (cmpi .slt t (bc64 0#32)) (addi t (bc64 12#32)) t)
/-- The gathered rows with the unit axis inserted. -/
private abbrev biasRows (x : FVec Ideal S12x768 .f32) (t : IVec S64 32) : FVec Ideal S64x1x768 .f32 :=
  broadcastInDim S64x1x768 ![0, 2] bcast_S64x768_S64x1x768_0_2 (Host.gather G12 x (wrapCol t))

/-- The word column at (b, 0) is row b's word, wrapped. -/
private theorem wrapCol_apply (t : IVec S64 32) (b : Fin 64) : wrapCol t (ix2 b (0 : Fin 1)) = wrapW (t (ix1 b)) :=
  broadcastInDim_apply _ _ _ (ix2 b (0 : Fin 1)) (ix1 b) (fun a => by match a with | ⟨0, _⟩ => rfl)

/-- THE ROW GATHER READ AT (b, 0, k): the table at row b's wrapped word clamped into the twelve rows, column k. -/
private theorem biasRows_apply (x : FVec Ideal S12x768 .f32) (t : IVec S64 32) (b : Fin 64) (k : Fin 768) :
    biasRows x t (ix3 b (0 : Fin 1) k) = x (ix2 (⟨min (wrapW (t (ix1 b))).toInt.toNat 11, by omega⟩ : Fin 12) k) := by
  have e1 : biasRows x t (ix3 b (0 : Fin 1) k) = Host.gather G12 x (wrapCol t) (ix2 b k) :=
    broadcastInDim_apply _ _ _ (ix3 b (0 : Fin 1) k) (ix2 b k) (fun a => by match a with | ⟨0, _⟩ => rfl | ⟨1, _⟩ => rfl)
  rw [e1, rowGather_apply]
  exact congrArg (fun r : Fin 12 => x (ix2 r k)) (Fin.ext (congrArg (fun w : BitVec 32 => min w.toInt.toNat 11) (wrapCol_apply t b)))

/-- With the time in [0, 12) that row is the time's slot … -/
private theorem biasRows_now (x : FVec Ideal S12x768 .f32) (tm : IVec S64 32) (b : Fin 64) (k : Fin 768)
    (h0 : 0 ≤ (tm (ix1 b)).toInt) (h1 : (tm (ix1 b)).toInt < 12) :
    biasRows x (clipT tm) (ix3 b (0 : Fin 1) k) = x (ix2 (slotOf (tm (ix1 b))) k) := by
  rw [biasRows_apply]
  exact congrArg (fun r : Fin 12 => x (ix2 r k)) (Fin.ext (slot_word (tm (ix1 b)) h0 h1))

/-- … and over the clipped times less one, the slot before it. -/
private theorem biasRows_last (x : FVec Ideal S12x768 .f32) (tm : IVec S64 32) (b : Fin 64) (k : Fin 768)
    (h0 : 0 ≤ (tm (ix1 b)).toInt) (h1 : (tm (ix1 b)).toInt < 12) :
    biasRows x (prevT (clipT tm)) (ix3 b (0 : Fin 1) k) = x (ix2 (prevOf (tm (ix1 b))) k) := by
  rw [biasRows_apply]
  exact congrArg (fun r : Fin 12 => x (ix2 r k)) (Fin.ext (prev_word (tm (ix1 b)) h0 h1))

/-! ## The six arrays as terms of the argument arrays -/

set_option maxHeartbeats 4000000 in
/-- Running the host operations: the two weight tables are the format changes of the argument tables, and each bias
    array is the row gather of its table over the clipped times or over the clipped times less one. -/
private theorem V_host (c : Dev nD) :
    (V (F := Ideal) m c main_v56 : S12x768x768.Idx → EReal) = truncf .bf16 (w1Arr m c) bitsLt_bf16_f32
    ∧ (V (F := Ideal) m c main_v57 : S12x768x768.Idx → EReal) = truncf .bf16 (w2Arr m c) bitsLt_bf16_f32
    ∧ (V (F := Ideal) m c main_v31 : S64x1x768.Idx → EReal) = biasRows (b1Arr m c) (clipT (tmArr m c))
    ∧ (V (F := Ideal) m c main_v39 : S64x1x768.Idx → EReal) = biasRows (b1Arr m c) (prevT (clipT (tmArr m c)))
    ∧ (V (F := Ideal) m c main_v47 : S64x1x768.Idx → EReal) = biasRows (b2Arr m c) (clipT (tmArr m c))
    ∧ (V (F := Ideal) m c main_v55 : S64x1x768.Idx → EReal) = biasRows (b2Arr m c) (prevT (clipT (tmArr m c))) := by
  dsimp only [V]
  simp only [hostOps0, hostOps0_1, hostOps0_2, hostOps0_3, hostOps0_4, hostOps0_5, List.flatten_cons, List.flatten_nil, List.append_nil, List.cons_append, List.nil_append]
  after_results_simp
  exact ⟨trivial, trivial, rfl, rfl, rfl, rfl⟩

/-! ## The weight tables and the four per-batch bias rows the host prepares, read at an index (extended reals)

A change of float format is the identity on the extended reals, so the two converted weight tables are the argument
tables. Each bias array holds, for batch row `b`, the bias table's row at the time's slot (`now`) or at the slot
before it (`last`). -/

theorem V_w1 (c : Dev nD) : (V (F := Ideal) m c main_v56 : S12x768x768.Idx → EReal) = w1Arr m c :=
  (V_host m c).1.trans (funext fun i => truncf_apply _ _ i)
theorem V_w2 (c : Dev nD) : (V (F := Ideal) m c main_v57 : S12x768x768.Idx → EReal) = w2Arr m c :=
  (V_host m c).2.1.trans (funext fun i => truncf_apply _ _ i)

theorem V_b1now (c : Dev nD) (hr : InR m c) (b : Fin 64) (k : Fin 768) :
    (V (F := Ideal) m c main_v31 : S64x1x768.Idx → EReal) (ix3 b 0 k) = b1Arr m c (ix2 (slotOf (tmArr m c (ix1 b))) k) :=
  (congrFun (V_host m c).2.2.1 _).trans (biasRows_now _ _ b k (hr.tm (ix1 b)).1 (hr.tm (ix1 b)).2)
theorem V_b1last (c : Dev nD) (hr : InR m c) (b : Fin 64) (k : Fin 768) :
    (V (F := Ideal) m c main_v39 : S64x1x768.Idx → EReal) (ix3 b 0 k) = b1Arr m c (ix2 (prevOf (tmArr m c (ix1 b))) k) :=
  (congrFun (V_host m c).2.2.2.1 _).trans (biasRows_last _ _ b k (hr.tm (ix1 b)).1 (hr.tm (ix1 b)).2)
theorem V_b2now (c : Dev nD) (hr : InR m c) (b : Fin 64) (k : Fin 768) :
    (V (F := Ideal) m c main_v47 : S64x1x768.Idx → EReal) (ix3 b 0 k) = b2Arr m c (ix2 (slotOf (tmArr m c (ix1 b))) k) :=
  (congrFun (V_host m c).2.2.2.2.1 _).trans (biasRows_now _ _ b k (hr.tm (ix1 b)).1 (hr.tm (ix1 b)).2)
theorem V_b2last (c : Dev nD) (hr : InR m c) (b : Fin 64) (k : Fin 768) :
    (V (F := Ideal) m c main_v55 : S64x1x768.Idx → EReal) (ix3 b 0 k) = b2Arr m c (ix2 (prevOf (tmArr m c (ix1 b))) k) :=
  (congrFun (V_host m c).2.2.2.2.2 _).trans (biasRows_last _ _ b k (hr.tm (ix1 b)).1 (hr.tm (ix1 b)).2)

end Cert.KernelIdeal.Route

end
-- ==== Proof.KIHostTab.lean ====
import proofs.«405048_j65712999629030_3_alg».proof.Proof.KIArgs

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx Cert.Spec

/-! ## The two tables' words

The first table is the times clipped into [0, 11] (`max 0` then `min 11`), the second that table less one, floored
at zero. So whatever the times are, the slot word is at most 11 and the earlier-slot word at most 10: the body's two
assumptions hold at every point with no precondition. Where the times lie in [0, 12) the clip does nothing, and the two
words are the slot and its predecessor. -/

/-! ### Signed maximum and minimum of words, read as integers -/

/-- The signed maximum of two words reads as the larger of their signed readings. -/
private theorem toInt_maxsi (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

/-- The signed minimum of two words reads as the smaller of their signed readings. -/
private theorem toInt_minsi (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

/-- A word whose signed reading is a natural number has that number as its unsigned reading. -/
private theorem toNat_of_toInt (x : BitVec 32) (n : Nat) (h : x.toInt = (n : Int)) : x.toNat = n := by
  have e := BitVec.toInt_eq_toNat_cond x
  have := x.isLt
  split at e <;> omega

/-- A word clipped into [0, 11]: its unsigned reading is its signed reading, floored at zero and capped at 11. -/
private theorem slot_toNat (w : BitVec 32) : (IntOp.minsi 11#32 (IntOp.maxsi 0#32 w)).toNat = min w.toInt.toNat 11 := by
  apply toNat_of_toInt
  rw [toInt_minsi, toInt_maxsi]
  have h0 : (0#32 : BitVec 32).toInt = 0 := by decide
  have h11 : (11#32 : BitVec 32).toInt = 11 := by decide
  rw [h0, h11]; omega

/-- A word at most 11, less one and floored at zero: its unsigned reading is the truncated predecessor. -/
private theorem prev_toNat (a : BitVec 32) (ha : a.toNat ≤ 11) : (IntOp.maxsi (IntOp.subi a 1#32) 0#32).toNat = a.toNat - 1 := by
  apply toNat_of_toInt
  rw [toInt_maxsi]
  have h0 : (0#32 : BitVec 32).toInt = 0 := by decide
  have e : (IntOp.subi a 1#32).toInt = (a.toNat : Int) - 1 := by
    unfold IntOp.subi
    have e := BitVec.toInt_eq_toNat_cond (a - 1#32)
    rw [BitVec.toNat_sub] at e
    have h1 : (1#32 : BitVec 32).toNat = 1 := by decide
    rw [h1] at e
    split at e <;> omega
  rw [e, h0]; omega

/-! ### The two tables as functions of the times -/

set_option maxHeartbeats 4000000 in
/-- The first table: each time floored at zero, then capped at 11. -/
private theorem V_tab0 (c : Dev nD) :
    (V m c main_v19 : S64.Idx → BitVec 32) = fun i => IntOp.minsi 11#32 (IntOp.maxsi 0#32 (tmArr m c i)) := by
  dsimp only [V]
  simp only [hostOps0, hostOps0_1, hostOps0_2, hostOps0_3, hostOps0_4, hostOps0_5, List.flatten_cons, List.flatten_nil, List.append_nil, List.cons_append, List.nil_append]
  after_results_simp
  rfl

set_option maxHeartbeats 4000000 in
/-- The second table: the first less one, floored at zero. -/
private theorem V_tab1 (c : Dev nD) :
    (V m c main_v23 : S64.Idx → BitVec 32)
      = fun i => IntOp.maxsi (IntOp.subi (IntOp.minsi 11#32 (IntOp.maxsi 0#32 (tmArr m c i))) 1#32) 0#32 := by
  dsimp only [V]
  simp only [hostOps0, hostOps0_1, hostOps0_2, hostOps0_3, hostOps0_4, hostOps0_5, List.flatten_cons, List.flatten_nil, List.append_nil, List.cons_append, List.nil_append]
  after_results_simp
  rfl

/-! ### The word read at a point -/

/-- The one-word rectangle at a point's first coordinate selects the table's entry at that coordinate. -/
private theorem unit_idx (i : grid0.Coords) (h1 : 0 < S1.numel) :
    (Rect.unit (s := S64) (k0_off1 i) S1.size (k0_off1_inb i)).toLoadRect.idx (Shape.Idx.first h1) = ix1 (bOf i) := by
  funext a
  apply Fin.ext
  match a with
  | ⟨0, _⟩ =>
    show k0_off1 i 0 + 1 * (Shape.Idx.first h1 (0 : Fin 1)).val = (i 0).val
    rw [k0_off1_eq]
    show (i 0).val + 1 * 0 = (i 0).val
    omega

/-- A word read at a point is the table's entry at the point's batch row. -/
private theorem word0_eq (c : Dev nD) (xt : TbBuf0 (F := F) c tbM0_0) (i : grid0.Coords) :
    word0 c xt i = (xt : S64.Idx → BitVec 32) (ix1 (bOf i)) :=
  congrArg (xt : S64.Idx → BitVec 32) (unit_idx i _)
private theorem word1_eq (c : Dev nD) (xt : TbBuf0 (F := F) c tbM0_1) (i : grid0.Coords) :
    word1 c xt i = (xt : S64.Idx → BitVec 32) (ix1 (bOf i)) :=
  congrArg (xt : S64.Idx → BitVec 32) (unit_idx i _)

/-- The launch's first table is the clipped times. -/
private theorem tbl0_eq : (tbl m 0 : S64.Idx → BitVec 32) = fun i => IntOp.minsi 11#32 (IntOp.maxsi 0#32 (tmArr m 0 i)) :=
  V_tab0 m 0
/-- The launch's second table is the clipped times less one, floored at zero. -/
private theorem tbl1_eq : (tbl m 1 : S64.Idx → BitVec 32)
    = fun i => IntOp.maxsi (IntOp.subi (IntOp.minsi 11#32 (IntOp.maxsi 0#32 (tmArr m 0 i))) 1#32) 0#32 :=
  V_tab1 m 0

/-- The slot word at a point: the batch row's time, clipped into [0, 11]. -/
private theorem word0_tbl (c : Dev nD) (i : grid0.Coords) :
    word0 c (tbl m 0) i = IntOp.minsi 11#32 (IntOp.maxsi 0#32 (tmArr m c (ix1 (bOf i)))) := by
  refine (word0_eq c (tbl m 0) i).trans ?_
  obtain rfl : c = 0 := Subsingleton.elim _ _
  exact congrFun (tbl0_eq m) _

/-- The earlier-slot word at a point: the slot word less one, floored at zero. -/
private theorem word1_tbl (c : Dev nD) (i : grid0.Coords) :
    word1 c (tbl m 1) i
      = IntOp.maxsi (IntOp.subi (IntOp.minsi 11#32 (IntOp.maxsi 0#32 (tmArr m c (ix1 (bOf i))))) 1#32) 0#32 := by
  refine (word1_eq c (tbl m 1) i).trans ?_
  obtain rfl : c = 0 := Subsingleton.elim _ _
  exact congrFun (tbl1_eq m) _

/-! ### A word at most 11 names a slab of the twelve -/

/-- A slab of one starting at a word at most 11 lies inside the twelve. -/
private theorem slab_inb (v : BitVec 32) (h : v.toNat ≤ 11) :
    ∀ a : Fin 3, (![(Scalar.indexCast v).toNat, 0, 0] : Fin 3 → Nat) a + S1x768x768.size a ≤ S12x768x768.size a := by
  intro a
  match a with
  | ⟨0, _⟩ => show v.toNat + 1 ≤ 12; omega
  | ⟨1, _⟩ => show 0 + 768 ≤ 768; omega
  | ⟨2, _⟩ => show 0 + 768 ≤ 768; omega

/-- The first conditional's test holds only of equal words. -/
private theorem eq_of_cond1 (v1 v3 : BitVec 32) (h : k0_cond1 v1 v3 = 1#1) : v1 = v3 := by
  have key : ∀ b : BitVec 1, Scalar.cmpi .ne (Scalar.extui b) 0#32 = 1#1 → b = 1#1 := by decide
  have hb : BitVec.ofBool (v1 == v3) = 1#1 := key _ h
  by_contra hne
  rw [show (v1 == v3) = false from beq_eq_false_iff_ne.mpr hne] at hb
  exact absurd hb (by decide)

/-- The body's assumptions hold at every point, for any memory. -/
theorem hyps : Hyps m := by
  intro c t
  rw [word0_tbl m c (grid0.coords t), word1_tbl m c (grid0.coords t)]
  have ha : (IntOp.minsi 11#32 (IntOp.maxsi 0#32 (tmArr m c (ix1 (bOf (grid0.coords t)))))).toNat ≤ 11 := by
    rw [slot_toNat]; omega
  refine ⟨slab_inb _ ha, fun _ => slab_inb _ ?_⟩
  rw [prev_toNat _ ha]; omega

/-- With the times in range, the slab the slot word selects is the time's slot. -/
theorem off2_word0 (c : Dev nD) (hr : InR m c) (t : Fin (cfgM m).N) :
    k0_off2 (word0 c (tbl m 0) (grid0.coords t)) = ![(slotOf (tmArr m c (ix1 (bOf (grid0.coords t))))).val, 0, 0] := by
  rw [word0_tbl m c (grid0.coords t)]
  show (![(IntOp.minsi 11#32 (IntOp.maxsi 0#32 (tmArr m c (ix1 (bOf (grid0.coords t)))))).toNat, 0, 0] : Fin 3 → Nat)
    = ![min (tmArr m c (ix1 (bOf (grid0.coords t)))).toInt.toNat 11, 0, 0]
  rw [slot_toNat]

/-- With the times in range, the slab the earlier-slot word selects is the slot before the time's. -/
theorem off3_word1 (c : Dev nD) (hr : InR m c) (t : Fin (cfgM m).N) :
    k0_off3 (word1 c (tbl m 1) (grid0.coords t)) = ![(prevOf (tmArr m c (ix1 (bOf (grid0.coords t))))).val, 0, 0] := by
  rw [word1_tbl m c (grid0.coords t)]
  have ha : (IntOp.minsi 11#32 (IntOp.maxsi 0#32 (tmArr m c (ix1 (bOf (grid0.coords t)))))).toNat ≤ 11 := by
    rw [slot_toNat]; omega
  have hlt := (hr.tm (ix1 (bOf (grid0.coords t)))).2
  show (![(IntOp.maxsi (IntOp.subi (IntOp.minsi 11#32 (IntOp.maxsi 0#32 (tmArr m c (ix1 (bOf (grid0.coords t)))))) 1#32) 0#32).toNat, 0, 0] : Fin 3 → Nat)
    = ![min ((tmArr m c (ix1 (bOf (grid0.coords t)))).toInt.toNat - 1) 11, 0, 0]
  rw [prev_toNat _ ha, slot_toNat]
  congr 1
  omega

/-- Where the two words agree the slot is its own predecessor (the time is 0). -/
theorem slot_eq_prev_of_cond1 (c : Dev nD) (hr : InR m c) (t : Fin (cfgM m).N)
    (h : k0_cond1 (word0 c (tbl m 0) (grid0.coords t)) (word1 c (tbl m 1) (grid0.coords t)) = 1#1) :
    slotOf (tmArr m c (ix1 (bOf (grid0.coords t)))) = prevOf (tmArr m c (ix1 (bOf (grid0.coords t)))) := by
  have e := eq_of_cond1 _ _ h
  rw [word0_tbl m c (grid0.coords t), word1_tbl m c (grid0.coords t)] at e
  have ha : (IntOp.minsi 11#32 (IntOp.maxsi 0#32 (tmArr m c (ix1 (bOf (grid0.coords t)))))).toNat ≤ 11 := by
    rw [slot_toNat]; omega
  have e' := congrArg BitVec.toNat e
  rw [prev_toNat _ ha, slot_toNat] at e'
  apply Fin.ext
  show min (tmArr m c (ix1 (bOf (grid0.coords t)))).toInt.toNat 11 = min ((tmArr m c (ix1 (bOf (grid0.coords t)))).toInt.toNat - 1) 11
  omega

end Cert.KernelIdeal.Route

end
-- ==== Proof.KIFrame.lean ====
import proofs.«405048_j65712999629030_3_alg».proof.Proof.KIOuts
import proofs.«405048_j65712999629030_3_alg».proof.Proof.KIHyps
import proofs.«405048_j65712999629030_3_alg».proof.Defs

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the `last` output's staging buffer holds after the body at point `t`: the case the two words select. -/
def outAt0_8 (hH : Hyps m) (c : Dev nD) (t : Fin (cfgM m).N) : Vec F S1x256x768 .f32 :=
  if h : k0_cond1 (word0 c (tbl m 0) (grid0.coords t)) (word1 c (tbl m 1) (grid0.coords t)) = 1#1 then
    out0_A_8 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h)
  else
    out0_B_8 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h)
theorem outAt0_8_A (hH : Hyps m) (c : Dev nD) (t : Fin (cfgM m).N) (h : k0_cond1 (word0 c (tbl m 0) (grid0.coords t)) (word1 c (tbl m 1) (grid0.coords t)) = 1#1) :
    outAt0_8 m hH c t = out0_A_8 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h) := dif_pos h
theorem outAt0_8_B (hH : Hyps m) (c : Dev nD) (t : Fin (cfgM m).N) (h : ¬ k0_cond1 (word0 c (tbl m 0) (grid0.coords t)) (word1 c (tbl m 1) (grid0.coords t)) = 1#1) :
    outAt0_8 m hH c t = out0_B_8 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h) := dif_neg h

/-- What the `now` output's staging buffer holds after the body at point `t`: the case the two words select. -/
def outAt0_9 (hH : Hyps m) (c : Dev nD) (t : Fin (cfgM m).N) : Vec F S1x256x768 .f32 :=
  if h : k0_cond1 (word0 c (tbl m 0) (grid0.coords t)) (word1 c (tbl m 1) (grid0.coords t)) = 1#1 then
    out0_A_9 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h)
  else
    out0_B_9 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h)
theorem outAt0_9_A (hH : Hyps m) (c : Dev nD) (t : Fin (cfgM m).N) (h : k0_cond1 (word0 c (tbl m 0) (grid0.coords t)) (word1 c (tbl m 1) (grid0.coords t)) = 1#1) :
    outAt0_9 m hH c t = out0_A_9 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h) := dif_pos h
theorem outAt0_9_B (hH : Hyps m) (c : Dev nD) (t : Fin (cfgM m).N) (h : ¬ k0_cond1 (word0 c (tbl m 0) (grid0.coords t)) (word1 c (tbl m 1) (grid0.coords t)) = 1#1) :
    outAt0_9 m hH c t = out0_B_9 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h) := dif_neg h

/-- What the sum output's staging buffer holds after the body at point `t`: the case the two words select. -/
def outAt0_10 (hH : Hyps m) (c : Dev nD) (t : Fin (cfgM m).N) : Vec F S1x256x768 .f32 :=
  if h : k0_cond1 (word0 c (tbl m 0) (grid0.coords t)) (word1 c (tbl m 1) (grid0.coords t)) = 1#1 then
    out0_A_10 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h)
  else
    out0_B_10 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h)
theorem outAt0_10_A (hH : Hyps m) (c : Dev nD) (t : Fin (cfgM m).N) (h : k0_cond1 (word0 c (tbl m 0) (grid0.coords t)) (word1 c (tbl m 1) (grid0.coords t)) = 1#1) :
    outAt0_10 m hH c t = out0_A_10 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h) := dif_pos h
theorem outAt0_10_B (hH : Hyps m) (c : Dev nD) (t : Fin (cfgM m).N) (h : ¬ k0_cond1 (word0 c (tbl m 0) (grid0.coords t)) (word1 c (tbl m 1) (grid0.coords t)) = 1#1) :
    outAt0_10 m hH c t = out0_B_10 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h) := dif_neg h

/-! ## The launch's proof data -/

/-- The arrays as the launch finds them; after the body at a point each input's buffer at its block and each
    output's at what the point's case leaves; the invariant: the scoped rest, the generator register and the two
    tables' read-only halves; nothing owed; full shares. -/
def dats (hH : Hyps m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt0_8 m hH c t
    | ⟨9, _⟩ => outAt0_9 m hH c t
    | ⟨10, _⟩ => outAt0_10 m hH c t
  Φ _ := iprop(Pipeline.ΦA spec0 c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = iblk m c 1 t := by dsimp only [dats]; try rfl
theorem after0_2 (hH : Hyps m) (c : Dev nD) (t : Fin (cfgM m).N) : (dats m hH 0 c).after 2 t = iblk m c 2 t := by dsimp only [dats]; try rfl
theorem after0_3 (hH : Hyps m) (c : Dev nD) (t : Fin (cfgM m).N) : (dats m hH 0 c).after 3 t = iblk m c 3 t := by dsimp only [dats]; try rfl
theorem after0_4 (hH : Hyps m) (c : Dev nD) (t : Fin (cfgM m).N) : (dats m hH 0 c).after 4 t = iblk m c 4 t := by dsimp only [dats]; try rfl
theorem after0_5 (hH : Hyps m) (c : Dev nD) (t : Fin (cfgM m).N) : (dats m hH 0 c).after 5 t = iblk m c 5 t := by dsimp only [dats]; try rfl
theorem after0_6 (hH : Hyps m) (c : Dev nD) (t : Fin (cfgM m).N) : (dats m hH 0 c).after 6 t = iblk m c 6 t := by dsimp only [dats]; try rfl
theorem after0_7 (hH : Hyps m) (c : Dev nD) (t : Fin (cfgM m).N) : (dats m hH 0 c).after 7 t = iblk m c 7 t := by dsimp only [dats]; try rfl
theorem after0_8 (hH : Hyps m) (c : Dev nD) (t : Fin (cfgM m).N) : (dats m hH 0 c).after 8 t = outAt0_8 m hH c t := by dsimp only [dats]; try rfl
theorem after0_9 (hH : Hyps m) (c : Dev nD) (t : Fin (cfgM m).N) : (dats m hH 0 c).after 9 t = outAt0_9 m hH c t := by dsimp only [dats]; try rfl
theorem after0_10 (hH : Hyps m) (c : Dev nD) (t : Fin (cfgM m).N) : (dats m hH 0 c).after 10 t = outAt0_10 m hH c t := by dsimp only [dats]; try rfl

theorem before0_0 (hH : Hyps m) (c : Dev nD) (t : Fin (cfgM m).N) (d) : (dats m hH 0 c).before 0 t d = iblk m c 0 t :=
  before0_0_of m (dats m hH 0 c) (A_eq m hH c 0) (after0_0 m hH c) t d
theorem before0_1 (hH : Hyps m) (c : Dev nD) (t : Fin (cfgM m).N) (d) : (dats m hH 0 c).before 1 t d = iblk m c 1 t :=
  before0_1_of m (dats m hH 0 c) (A_eq m hH c 1) (after0_1 m hH c) t d
theorem before0_2 (hH : Hyps m) (c : Dev nD) (t : Fin (cfgM m).N) (d) : (dats m hH 0 c).before 2 t d = iblk m c 2 t :=
  before0_2_of m (dats m hH 0 c) (A_eq m hH c 2) (after0_2 m hH c) t d
theorem before0_3 (hH : Hyps m) (c : Dev nD) (t : Fin (cfgM m).N) (d) : (dats m hH 0 c).before 3 t d = iblk m c 3 t :=
  before0_3_of m (dats m hH 0 c) (A_eq m hH c 3) (after0_3 m hH c) t d
theorem before0_4 (hH : Hyps m) (c : Dev nD) (t : Fin (cfgM m).N) (d) : (dats m hH 0 c).before 4 t d = iblk m c 4 t :=
  before0_4_of m (dats m hH 0 c) (A_eq m hH c 4) (after0_4 m hH c) t d
theorem before0_5 (hH : Hyps m) (c : Dev nD) (t : Fin (cfgM m).N) (d) : (dats m hH 0 c).before 5 t d = iblk m c 5 t :=
  before0_5_of m (dats m hH 0 c) (A_eq m hH c 5) (after0_5 m hH c) t d
theorem before0_6 (hH : Hyps m) (c : Dev nD) (t : Fin (cfgM m).N) (d) : (dats m hH 0 c).before 6 t d = iblk m c 6 t :=
  before0_6_of m (dats m hH 0 c) (A_eq m hH c 6) (after0_6 m hH c) t d
theorem before0_7 (hH : Hyps m) (c : Dev nD) (t : Fin (cfgM m).N) (d) : (dats m hH 0 c).before 7 t d = iblk m c 7 t :=
  before0_7_of m (dats m hH 0 c) (A_eq m hH c 7) (after0_7 m hH c) t d

/-! ## The body obligation, at a generic point -/

def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d))
    ∗ (∃ d, owns (c : Thread nD τ) (ms0_3 m t) fullShare ((dats m hH 0 c).before 3 t d))
    ∗ (∃ d, owns (c : Thread nD τ) (ms0_4 m t) fullShare ((dats m hH 0 c).before 4 t d))
    ∗ (∃ d, owns (c : Thread nD τ) (ms0_5 m t) fullShare ((dats m hH 0 c).before 5 t d))
    ∗ (∃ d, owns (c : Thread nD τ) (ms0_6 m t) fullShare ((dats m hH 0 c).before 6 t d))
    ∗ (∃ d, owns (c : Thread nD τ) (ms0_7 m t) fullShare ((dats m hH 0 c).before 7 t d))
    ∗ (∃ d, owns (c : Thread nD τ) (ms0_8 m t) fullShare ((dats m hH 0 c).before 8 t d))
    ∗ (∃ d, owns (c : Thread nD τ) (ms0_9 m t) fullShare ((dats m hH 0 c).before 9 t d))
    ∗ (∃ d, owns (c : Thread nD τ) (ms0_10 m t) fullShare ((dats m hH 0 c).before 10 t d)))

def bodyPost (hH : Hyps m) (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t)
    ∗ owns (c : Thread nD τ) (ms0_3 m t) fullShare ((dats m hH 0 c).after 3 t)
    ∗ owns (c : Thread nD τ) (ms0_4 m t) fullShare ((dats m hH 0 c).after 4 t)
    ∗ owns (c : Thread nD τ) (ms0_5 m t) fullShare ((dats m hH 0 c).after 5 t)
    ∗ owns (c : Thread nD τ) (ms0_6 m t) fullShare ((dats m hH 0 c).after 6 t)
    ∗ owns (c : Thread nD τ) (ms0_7 m t) fullShare ((dats m hH 0 c).after 7 t)
    ∗ owns (c : Thread nD τ) (ms0_8 m t) fullShare ((dats m hH 0 c).after 8 t)
    ∗ owns (c : Thread nD τ) (ms0_9 m t) fullShare ((dats m hH 0 c).after 9 t)
    ∗ owns (c : Thread nD τ) (ms0_10 m t) fullShare ((dats m hH 0 c).after 10 t))

set_option maxHeartbeats 1600000 in
/-- The body at any point: the inputs' buffers hold their blocks; the two words say which case the point is in;
    that case's run applies; the invariant passes through, the tables lent and returned. -/
theorem sound_body (hH : Hyps m) (c : Dev nD) (t : Fin (cfgM m).N) :
    bodyPre m hH c t ⊢ wp frame (wpE (defs₀ (F := F)) Variants.none c none) Set.univ (bodyAt0 (adm m) t) (fun _ => bodyPost m hH c t) := by
  unfold bodyPre bodyPost bodyAt0
  simp only [before0_0, before0_1, before0_2, before0_3, before0_4, before0_5, before0_6, before0_7]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10]
  rw [show (dats m hH 0 c).Φ t.castSucc = iprop(Pipeline.ΦA spec0 c ∗ Pipeline.ΦT pre0 (tbl m) c) from rfl, PhiT0_eq]
  by_cases h : k0_cond1 (word0 c (tbl m 0) (grid0.coords t)) (word1 c (tbl m 1) (grid0.coords t)) = 1#1
  · rw [outAt0_8_A m hH c t h, outAt0_9_A m hH c t h, outAt0_10_A m hH c t h]
    unfold out0_A_8 out0_A_9 out0_A_10
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HT0]; · iexact HT0
    isplitl [HT1]; · iexact HT1
    iintro ⟨H0, H1, H2, H3, H4, H5, H6, H7, ⟨%e8, H8⟩, ⟨%e9, H9⟩, ⟨%e10, H10⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _)
  · rw [outAt0_8_B m hH c t h, outAt0_9_B m hH c t h, outAt0_10_B m hH c t h]
    unfold out0_B_8 out0_B_9 out0_B_10
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HT0]; · iexact HT0
    isplitl [HT1]; · iexact HT1
    iintro ⟨H0, H1, H2, H3, H4, H5, H6, H7, ⟨%e8, H8⟩, ⟨%e9, H9⟩, ⟨%e10, H10⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_B_10 c _ _ _ _ _ _ _ _ _ _ _ _ _ _ _ _ _ _ _ _ _ _ _ _ _ _ _ _ _ _ _ _ _ _ _ _ _)

end Cert.KernelIdeal.Route

end
-- ==== Proof.KILaunch.lean ====
import proofs.«405048_j65712999629030_3_alg».proof.Proof.KIFrame

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation at every point, and the run -/

set_option maxHeartbeats 1600000 in
theorem body_obligation (hH : Hyps m) (c : Dev nD) : BodyObligation (dats (F := F) m hH 0 c) (defs₀ (F := F)) Variants.none () Set.univ := fun t => by
  rw [bigSep_W0, bigSep_W0]
  simp only [idle_all (adm m)]
  rw [idle8_false (tbl m)]
  exact sound_body m hH c t

/-! ## The run -/

set_option maxHeartbeats 1600000 in
set_option backward.isDefEq.respectTransparency.types false in
/-- Every weakly fair execution of the program terminates, nothing faulting, every array of the launch at what the
    proof data computes and every other unscoped buffer as the launch found it. -/
theorem run_main (hH : Hyps m) : θ_run defs (onTc (τ := τ) (main (F := F))) (s₀ m ρ) (Pipeline.FramePost (Pipeline.pin pcfgs fun _ => adm m) (dats m hH) 0 (V m)) :=
  Pipeline.θ_run_frameP pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hΦ := fun _ _ => rfl)

end Cert.KernelIdeal.Route

end
-- ==== Proof.KIClaims.lean ====
import proofs.«405048_j65712999629030_3_alg».proof.Proof.KILaunch

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame, and the run with the three result arrays named

No window of the launch stages an argument array (the windows stage what the host computed from them), so each
argument is one of the unscoped buffers the launch leaves as it found them, and the host stretches before the launch
write none of them. -/

/-- The program runs to the end, nothing faulting, and leaves its eight argument arrays unchanged. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) (run_main m ρ hH)

/-- The same run, also naming what the three result arrays hold: what the proof data computes after the last point. -/
theorem run_named (hH : Hyps m) : θ_run defs (onTc (τ := τ) (main (F := F))) ⟨m, fun _ => 0, ρ⟩ (fun r => ∀ c : Dev nD,
      r.2.mem ((c.tc : Thread nD τ).loc main_v58_0) = (dats m hH 0 c).arrAt 8 (cfgM m).N
      ∧ r.2.mem ((c.tc : Thread nD τ).loc main_v58_1) = (dats m hH 0 c).arrAt 9 (cfgM m).N
      ∧ r.2.mem ((c.tc : Thread nD τ).loc main_v58_2) = (dats m hH 0 c).arrAt 10 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 8, (h c).1 9, (h c).1 10,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) (run_main m ρ hH)

end Cert.KernelIdeal.Route

end
-- ==== Proof.KIJoin.lean ====
import proofs.«405048_j65712999629030_3_alg».proof.Proof.KIBlocks
import proofs.«405048_j65712999629030_3_alg».proof.Proof.KIPay
import proofs.«405048_j65712999629030_3_alg».proof.Proof.KIHostEmb
import proofs.«405048_j65712999629030_3_alg».proof.Proof.KIHostBias
import proofs.«405048_j65712999629030_3_alg».proof.Proof.KIHostTab
import proofs.«405048_j65712999629030_3_alg».proof.Proof.KIClaims

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx Cert.Spec

/-! ## The kernel's three result arrays are the specification's (extended reals)

At the point with coordinates `(b, h)` the body's blocks are: rows `256 h …` of batch row `b` of the embedding rows and of
the membership column; the bias rows of `b`'s slot and of the slot before; out of each weight table the matrix of the
slot (and, where the time is positive, of the slot before). So what it stores at `(0, r, e)` is the specification's value at
`(b, 256 h + r, e)`; every point writes its block back, and the 128 blocks tile the arrays. -/

theorem mlp_congr {x x' : Fin 768 → EReal} {w1 w1' : Fin 768 → Fin 768 → EReal} {c1 c1' : Fin 768 → EReal}
    {w2 w2' : Fin 768 → Fin 768 → EReal} {c2 c2' : Fin 768 → EReal}
    (hx : x = x') (h1 : w1 = w1') (hc1 : c1 = c1') (h2 : w2 = w2') (hc2 : c2 = c2') (e : Fin 768) :
    mlp x w1 c1 w2 c2 e = mlp x' w1' c1' w2' c2' e := by
  subst hx h1 hc1 h2 hc2; rfl

/-! ### The point's eight input blocks, named at their literal types -/

abbrev xb0 (c : Dev nD) (t : Fin (cfgM m).N) : Vec Ideal S1x256x768 .f32 := iblk m c 0 t
abbrev xb1 (c : Dev nD) (t : Fin (cfgM m).N) : Vec Ideal S1x256x1 .f32 := iblk m c 1 t
abbrev xb2 (c : Dev nD) (t : Fin (cfgM m).N) : Vec Ideal S12x768x768 .bf16 := iblk m c 2 t
abbrev xb3 (c : Dev nD) (t : Fin (cfgM m).N) : Vec Ideal S1x1x768 .f32 := iblk m c 3 t
abbrev xb4 (c : Dev nD) (t : Fin (cfgM m).N) : Vec Ideal S1x1x768 .f32 := iblk m c 4 t
abbrev xb5 (c : Dev nD) (t : Fin (cfgM m).N) : Vec Ideal S12x768x768 .bf16 := iblk m c 5 t
abbrev xb6 (c : Dev nD) (t : Fin (cfgM m).N) : Vec Ideal S1x1x768 .f32 := iblk m c 6 t
abbrev xb7 (c : Dev nD) (t : Fin (cfgM m).N) : Vec Ideal S1x1x768 .f32 := iblk m c 7 t

section point
variable (c : Dev nD) (hr : InR m c) (t : Fin (cfgM m).N)
include hr

/-! ### The blocks the body reads, as the arguments' entries -/

theorem rd_x (r : Fin 256) :
    (fun d : Fin 768 => (xb0 m c t) (ix3 0 r d)) = embRow (rvArr m c) (embArr m c) (bOf (grid0.coords t)) (rowAt (grid0.coords t) r) :=
  funext fun d => (iblk0_apply m c t r d).trans (V_embs m c hr _ _ d)

theorem rd_f (r : Fin 256) :
    (xb1 m c t) (ix3 0 r 0) = member (rvArr m c) (vfArr m c) (bOf (grid0.coords t)) (rowAt (grid0.coords t) r) :=
  (iblk1_apply m c t r).trans (V_filt m c hr _ _)

theorem rd_b1now : (fun k : Fin 768 => (xb3 m c t) (ix3 0 0 k)) = fun k => b1Arr m c (ix2 (slotOf (tmArr m c (ix1 (bOf (grid0.coords t))))) k) :=
  funext fun k => (iblk3_apply m c t k).trans (V_b1now m c hr _ k)
theorem rd_b1last : (fun k : Fin 768 => (xb4 m c t) (ix3 0 0 k)) = fun k => b1Arr m c (ix2 (prevOf (tmArr m c (ix1 (bOf (grid0.coords t))))) k) :=
  funext fun k => (iblk4_apply m c t k).trans (V_b1last m c hr _ k)
theorem rd_b2now : (fun k : Fin 768 => (xb6 m c t) (ix3 0 0 k)) = fun k => b2Arr m c (ix2 (slotOf (tmArr m c (ix1 (bOf (grid0.coords t))))) k) :=
  funext fun k => (iblk6_apply m c t k).trans (V_b2now m c hr _ k)
theorem rd_b2last : (fun k : Fin 768 => (xb7 m c t) (ix3 0 0 k)) = fun k => b2Arr m c (ix2 (prevOf (tmArr m c (ix1 (bOf (grid0.coords t))))) k) :=
  funext fun k => (iblk7_apply m c t k).trans (V_b2last m c hr _ k)

theorem rd_w1 (off : Fin 3 → Nat) (h : ∀ a, off a + S1x768x768.size a ≤ S12x768x768.size a) (s : Fin 12) (hoff : off = ![s.val, 0, 0]) :
    (fun d k : Fin 768 => slab (xb2 m c t) off h (ix3 0 d k)) = fun d k => w1Arr m c (ix3 s d k) :=
  funext fun d => funext fun k => (slab_apply _ off h s hoff d k).trans (congrFun ((iblk2_eq m c t).trans (V_w1 m c)) _)
theorem rd_w2 (off : Fin 3 → Nat) (h : ∀ a, off a + S1x768x768.size a ≤ S12x768x768.size a) (s : Fin 12) (hoff : off = ![s.val, 0, 0]) :
    (fun d k : Fin 768 => slab (xb5 m c t) off h (ix3 0 d k)) = fun d k => w2Arr m c (ix3 s d k) :=
  funext fun d => funext fun k => (slab_apply _ off h s hoff d k).trans (congrFun ((iblk5_eq m c t).trans (V_w2 m c)) _)

/-! ### The routed products at the point -/

/-- The routed map over the slot word's slabs and the `now` bias rows, times the membership column: the `now` value. -/
theorem prod_now (h1 : ∀ a, k0_off2 (word0 c (tbl m 0) (grid0.coords t)) a + S1x768x768.size a ≤ S12x768x768.size a) (r : Fin 256) (e : Fin 768) :
    mlp (fun d => (xb0 m c t) (ix3 0 r d))
        (fun d k => slab (xb2 m c t) (k0_off2 (word0 c (tbl m 0) (grid0.coords t))) h1 (ix3 0 d k))
        (fun k => (xb3 m c t) (ix3 0 0 k))
        (fun k e => slab (xb5 m c t) (k0_off2 (word0 c (tbl m 0) (grid0.coords t))) h1 (ix3 0 k e))
        (fun e => (xb6 m c t) (ix3 0 0 e)) e
      * (xb1 m c t) (ix3 0 r 0)
      = nowAt (rvArr m c) (tmArr m c) (vfArr m c) (embArr m c) (w1Arr m c) (b1Arr m c) (w2Arr m c) (b2Arr m c) (bOf (grid0.coords t)) (rowAt (grid0.coords t) r) e := by
  unfold nowAt offsetAt
  exact congrArg₂ (· * ·)
    (mlp_congr (rd_x m c hr t r) (rd_w1 m c hr t _ h1 (slotOf (tmArr m c (ix1 (bOf (grid0.coords t))))) (off2_word0 m c hr t)) (rd_b1now m c hr t)
      (rd_w2 m c hr t _ h1 (slotOf (tmArr m c (ix1 (bOf (grid0.coords t))))) (off2_word0 m c hr t)) (rd_b2now m c hr t) e)
    (rd_f m c hr t r)

/-- The routed map over the earlier-slot word's slabs and the `last` bias rows, times the membership column: the `last` value. -/
theorem prod_last (h3 : ∀ a, k0_off3 (word1 c (tbl m 1) (grid0.coords t)) a + S1x768x768.size a ≤ S12x768x768.size a) (r : Fin 256) (e : Fin 768) :
    mlp (fun d => (xb0 m c t) (ix3 0 r d))
        (fun d k => slab (xb2 m c t) (k0_off3 (word1 c (tbl m 1) (grid0.coords t))) h3 (ix3 0 d k))
        (fun k => (xb4 m c t) (ix3 0 0 k))
        (fun k e => slab (xb5 m c t) (k0_off3 (word1 c (tbl m 1) (grid0.coords t))) h3 (ix3 0 k e))
        (fun e => (xb7 m c t) (ix3 0 0 e)) e
      * (xb1 m c t) (ix3 0 r 0)
      = lastAt (rvArr m c) (tmArr m c) (vfArr m c) (embArr m c) (w1Arr m c) (b1Arr m c) (w2Arr m c) (b2Arr m c) (bOf (grid0.coords t)) (rowAt (grid0.coords t) r) e := by
  unfold lastAt offsetAt
  exact congrArg₂ (· * ·)
    (mlp_congr (rd_x m c hr t r) (rd_w1 m c hr t _ h3 (prevOf (tmArr m c (ix1 (bOf (grid0.coords t))))) (off3_word1 m c hr t)) (rd_b1last m c hr t)
      (rd_w2 m c hr t _ h3 (prevOf (tmArr m c (ix1 (bOf (grid0.coords t))))) (off3_word1 m c hr t)) (rd_b2last m c hr t) e)
    (rd_f m c hr t r)

/-! ### What each output's buffer holds after the point, at an index -/

theorem now_apply (r : Fin 256) (e : Fin 768) :
    outAt0_9 m (hyps m) c t (ix3 0 r e) = nowAt (rvArr m c) (tmArr m c) (vfArr m c) (embArr m c) (w1Arr m c) (b1Arr m c) (w2Arr m c) (b2Arr m c) (bOf (grid0.coords t)) (rowAt (grid0.coords t) r) e := by
  have key : ∀ (h1 : k0_chk1 (word0 c (tbl m 0) (grid0.coords t))),
      k0_pay8 (F := Ideal) (xb0 m c t) (xb1 m c t) (xb3 m c t) (xb6 m c t) (slab (xb2 m c t) (k0_off2 (word0 c (tbl m 0) (grid0.coords t))) (k0_off2_inb _ h1)) (slab (xb5 m c t) (k0_off2 (word0 c (tbl m 0) (grid0.coords t))) (k0_off2_inb _ h1)) (ix3 0 r e)
        = nowAt (rvArr m c) (tmArr m c) (vfArr m c) (embArr m c) (w1Arr m c) (b1Arr m c) (w2Arr m c) (b2Arr m c) (bOf (grid0.coords t)) (rowAt (grid0.coords t) r) e := fun h1 =>
    (Cert.KernelIdeal.Pay.pay8_apply (xb0 m c t) (xb1 m c t) (xb3 m c t) (xb6 m c t) (slab (xb2 m c t) (k0_off2 (word0 c (tbl m 0) (grid0.coords t))) (k0_off2_inb _ h1)) (slab (xb5 m c t) (k0_off2 (word0 c (tbl m 0) (grid0.coords t))) (k0_off2_inb _ h1)) r e).trans
      (prod_now m c hr t (k0_off2_inb _ h1) r e)
  by_cases h : k0_cond1 (word0 c (tbl m 0) (grid0.coords t)) (word1 c (tbl m 1) (grid0.coords t)) = 1#1
  · rw [outAt0_9_A m (hyps m) c t h]
    exact (congrFun (out0_A_9_eq c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (xb0 m c t) (xb1 m c t) (xb2 m c t) (xb3 m c t) (xb4 m c t) (xb5 m c t) (xb6 m c t) (xb7 m c t) (tbl m 0) (tbl m 1) (Hyps.c0 (hyps m) c t) (Hyps.c1 (hyps m) c t) h (fun h2 => (cond2_iff_not_cond1 _ _).mp h2 h)) (ix3 0 r e)).trans (key (Hyps.c0 (hyps m) c t))
  · rw [outAt0_9_B m (hyps m) c t h]
    exact (congrFun (out0_B_9_eq c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (xb0 m c t) (xb1 m c t) (xb2 m c t) (xb3 m c t) (xb4 m c t) (xb5 m c t) (xb6 m c t) (xb7 m c t) (tbl m 0) (tbl m 1) (Hyps.c0 (hyps m) c t) (Hyps.c1 (hyps m) c t) h ((cond2_iff_not_cond1 _ _).mpr h)) (ix3 0 r e)).trans (key (Hyps.c0 (hyps m) c t))

theorem emb_apply (r : Fin 256) (e : Fin 768) :
    outAt0_10 m (hyps m) c t (ix3 0 r e) = embAt (rvArr m c) (tmArr m c) (vfArr m c) (embArr m c) (w1Arr m c) (b1Arr m c) (w2Arr m c) (b2Arr m c) (bOf (grid0.coords t)) (rowAt (grid0.coords t) r) e := by
  have key : ∀ (h1 : k0_chk1 (word0 c (tbl m 0) (grid0.coords t))),
      k0_pay1 (F := Ideal) (k0_pay9 (xb0 m c t) (xb1 m c t) (xb3 m c t) (xb6 m c t) (slab (xb2 m c t) (k0_off2 (word0 c (tbl m 0) (grid0.coords t))) (k0_off2_inb _ h1)) (slab (xb5 m c t) (k0_off2 (word0 c (tbl m 0) (grid0.coords t))) (k0_off2_inb _ h1))) (ix3 0 r e)
        = embAt (rvArr m c) (tmArr m c) (vfArr m c) (embArr m c) (w1Arr m c) (b1Arr m c) (w2Arr m c) (b2Arr m c) (bOf (grid0.coords t)) (rowAt (grid0.coords t) r) e := fun h1 =>
    (Cert.KernelIdeal.Pay.pay1_pay9_apply (xb0 m c t) (xb1 m c t) (xb3 m c t) (xb6 m c t) (slab (xb2 m c t) (k0_off2 (word0 c (tbl m 0) (grid0.coords t))) (k0_off2_inb _ h1)) (slab (xb5 m c t) (k0_off2 (word0 c (tbl m 0) (grid0.coords t))) (k0_off2_inb _ h1)) r e).trans
      (by unfold embAt; exact congrArg₂ (· + ·) (congrFun (rd_x m c hr t r) e) (prod_now m c hr t (k0_off2_inb _ h1) r e))
  by_cases h : k0_cond1 (word0 c (tbl m 0) (grid0.coords t)) (word1 c (tbl m 1) (grid0.coords t)) = 1#1
  · rw [outAt0_10_A m (hyps m) c t h]
    exact (congrFun (out0_A_10_eq c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (xb0 m c t) (xb1 m c t) (xb2 m c t) (xb3 m c t) (xb4 m c t) (xb5 m c t) (xb6 m c t) (xb7 m c t) (tbl m 0) (tbl m 1) (Hyps.c0 (hyps m) c t) (Hyps.c1 (hyps m) c t) h (fun h2 => (cond2_iff_not_cond1 _ _).mp h2 h)) (ix3 0 r e)).trans (key (Hyps.c0 (hyps m) c t))
  · rw [outAt0_10_B m (hyps m) c t h]
    exact (congrFun (out0_B_10_eq c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (xb0 m c t) (xb1 m c t) (xb2 m c t) (xb3 m c t) (xb4 m c t) (xb5 m c t) (xb6 m c t) (xb7 m c t) (tbl m 0) (tbl m 1) (Hyps.c0 (hyps m) c t) (Hyps.c1 (hyps m) c t) h ((cond2_iff_not_cond1 _ _).mpr h)) (ix3 0 r e)).trans (key (Hyps.c0 (hyps m) c t))

theorem last_apply (r : Fin 256) (e : Fin 768) :
    outAt0_8 m (hyps m) c t (ix3 0 r e) = lastAt (rvArr m c) (tmArr m c) (vfArr m c) (embArr m c) (w1Arr m c) (b1Arr m c) (w2Arr m c) (b2Arr m c) (bOf (grid0.coords t)) (rowAt (grid0.coords t) r) e := by
  by_cases h : k0_cond1 (word0 c (tbl m 0) (grid0.coords t)) (word1 c (tbl m 1) (grid0.coords t)) = 1#1
  · -- the two words agree: the slot is its own predecessor, and the stored value is the `now` product
    rw [outAt0_8_A m (hyps m) c t h]
    refine (congrFun (out0_A_8_eq c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (xb0 m c t) (xb1 m c t) (xb2 m c t) (xb3 m c t) (xb4 m c t) (xb5 m c t) (xb6 m c t) (xb7 m c t) (tbl m 0) (tbl m 1) (Hyps.c0 (hyps m) c t) (Hyps.c1 (hyps m) c t) h (fun h2 => (cond2_iff_not_cond1 _ _).mp h2 h)) (ix3 0 r e)).trans ?_
    refine (Cert.KernelIdeal.Pay.pay2_pay7_apply (xb0 m c t) (xb1 m c t) (xb3 m c t) (xb6 m c t) (slab (xb2 m c t) (k0_off2 (word0 c (tbl m 0) (grid0.coords t))) (k0_off2_inb _ (Hyps.c0 (hyps m) c t))) (slab (xb5 m c t) (k0_off2 (word0 c (tbl m 0) (grid0.coords t))) (k0_off2_inb _ (Hyps.c0 (hyps m) c t))) r e).trans ?_
    refine (prod_now m c hr t (k0_off2_inb _ (Hyps.c0 (hyps m) c t)) r e).trans ?_
    unfold nowAt lastAt
    rw [slot_eq_prev_of_cond1 m c hr t h]
  · rw [outAt0_8_B m (hyps m) c t h]
    refine (congrFun (out0_B_8_eq c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (xb0 m c t) (xb1 m c t) (xb2 m c t) (xb3 m c t) (xb4 m c t) (xb5 m c t) (xb6 m c t) (xb7 m c t) (tbl m 0) (tbl m 1) (Hyps.c0 (hyps m) c t) (Hyps.c1 (hyps m) c t) h ((cond2_iff_not_cond1 _ _).mpr h)) (ix3 0 r e)).trans ?_
    refine (Cert.KernelIdeal.Pay.pay3_apply (xb0 m c t) (xb1 m c t) (xb4 m c t) (xb7 m c t) (slab (xb2 m c t) (k0_off3 (word1 c (tbl m 1) (grid0.coords t))) (k0_off3_inb _ _ (Hyps.c1 (hyps m) c t) ((cond2_iff_not_cond1 _ _).mpr h))) (slab (xb5 m c t) (k0_off3 (word1 c (tbl m 1) (grid0.coords t))) (k0_off3_inb _ _ (Hyps.c1 (hyps m) c t) ((cond2_iff_not_cond1 _ _).mpr h))) r e).trans ?_
    exact prod_last m c hr t (k0_off3_inb _ _ (Hyps.c1 (hyps m) c t) ((cond2_iff_not_cond1 _ _).mpr h)) r e

end point

/-! ### The written-back blocks, the cover, and the run -/

section arrays
variable (c : Dev nD) (hr : InR m c)
include hr

theorem flushed8_eq (t : Fin (cfgM m).N) :
    (dats m (hyps m) 0 c).flushed 8 t = (((cfgM m).win 8).blk t).view.read (Elt Ideal) (Glast (rvArr m c) (tmArr m c) (vfArr m c) (embArr m c) (w1Arr m c) (b1Arr m c) (w2Arr m c) (b2Arr m c)) := by
  show ((cfgM m).win 8).cut (grid0.coords t) ((dats m (hyps m) 0 c).after 8 t) = _
  rw [after0_8]
  refine funext fun (y : S1x256x768.Idx) => ?_
  obtain ⟨r, e, rfl⟩ : ∃ (r : Fin 256) (e : Fin 768), y = ix3 0 r e :=
    ⟨y 1, y 2, funext fun a => by
      match a with
      | ⟨0, _⟩ => exact Subsingleton.elim (α := Fin 1) _ _
      | ⟨1, _⟩ => rfl
      | ⟨2, _⟩ => rfl⟩
  exact (last_apply m c hr t r e).trans (read_blk8 m (Glast (rvArr m c) (tmArr m c) (vfArr m c) (embArr m c) (w1Arr m c) (b1Arr m c) (w2Arr m c) (b2Arr m c)) t r e).symm

theorem final8 : (dats m (hyps m) 0 c).arrAt 8 (cfgM m).N = Glast (rvArr m c) (tmArr m c) (vfArr m c) (embArr m c) (w1Arr m c) (b1Arr m c) (w2Arr m c) (b2Arr m c) :=
  (dats m (hyps m) 0 c).arrAt_eq_of_cover 8 (Glast (rvArr m c) (tmArr m c) (vfArr m c) (embArr m c) (w1Arr m c) (b1Arr m c) (w2Arr m c) (b2Arr m c)) (fun t _ => flushed8_eq m c hr t) (cover8 m)

theorem flushed9_eq (t : Fin (cfgM m).N) :
    (dats m (hyps m) 0 c).flushed 9 t = (((cfgM m).win 9).blk t).view.read (Elt Ideal) (Gnow (rvArr m c) (tmArr m c) (vfArr m c) (embArr m c) (w1Arr m c) (b1Arr m c) (w2Arr m c) (b2Arr m c)) := by
  show ((cfgM m).win 9).cut (grid0.coords t) ((dats m (hyps m) 0 c).after 9 t) = _
  rw [after0_9]
  refine funext fun (y : S1x256x768.Idx) => ?_
  obtain ⟨r, e, rfl⟩ : ∃ (r : Fin 256) (e : Fin 768), y = ix3 0 r e :=
    ⟨y 1, y 2, funext fun a => by
      match a with
      | ⟨0, _⟩ => exact Subsingleton.elim (α := Fin 1) _ _
      | ⟨1, _⟩ => rfl
      | ⟨2, _⟩ => rfl⟩
  exact (now_apply m c hr t r e).trans (read_blk9 m (Gnow (rvArr m c) (tmArr m c) (vfArr m c) (embArr m c) (w1Arr m c) (b1Arr m c) (w2Arr m c) (b2Arr m c)) t r e).symm

theorem final9 : (dats m (hyps m) 0 c).arrAt 9 (cfgM m).N = Gnow (rvArr m c) (tmArr m c) (vfArr m c) (embArr m c) (w1Arr m c) (b1Arr m c) (w2Arr m c) (b2Arr m c) :=
  (dats m (hyps m) 0 c).arrAt_eq_of_cover 9 (Gnow (rvArr m c) (tmArr m c) (vfArr m c) (embArr m c) (w1Arr m c) (b1Arr m c) (w2Arr m c) (b2Arr m c)) (fun t _ => flushed9_eq m c hr t) (cover9 m)

theorem flushed10_eq (t : Fin (cfgM m).N) :
    (dats m (hyps m) 0 c).flushed 10 t = (((cfgM m).win 10).blk t).view.read (Elt Ideal) (Gemb (rvArr m c) (tmArr m c) (vfArr m c) (embArr m c) (w1Arr m c) (b1Arr m c) (w2Arr m c) (b2Arr m c)) := by
  show ((cfgM m).win 10).cut (grid0.coords t) ((dats m (hyps m) 0 c).after 10 t) = _
  rw [after0_10]
  refine funext fun (y : S1x256x768.Idx) => ?_
  obtain ⟨r, e, rfl⟩ : ∃ (r : Fin 256) (e : Fin 768), y = ix3 0 r e :=
    ⟨y 1, y 2, funext fun a => by
      match a with
      | ⟨0, _⟩ => exact Subsingleton.elim (α := Fin 1) _ _
      | ⟨1, _⟩ => rfl
      | ⟨2, _⟩ => rfl⟩
  exact (emb_apply m c hr t r e).trans (read_blk10 m (Gemb (rvArr m c) (tmArr m c) (vfArr m c) (embArr m c) (w1Arr m c) (b1Arr m c) (w2Arr m c) (b2Arr m c)) t r e).symm

theorem final10 : (dats m (hyps m) 0 c).arrAt 10 (cfgM m).N = Gemb (rvArr m c) (tmArr m c) (vfArr m c) (embArr m c) (w1Arr m c) (b1Arr m c) (w2Arr m c) (b2Arr m c) :=
  (dats m (hyps m) 0 c).arrAt_eq_of_cover 10 (Gemb (rvArr m c) (tmArr m c) (vfArr m c) (embArr m c) (w1Arr m c) (b1Arr m c) (w2Arr m c) (b2Arr m c)) (fun t _ => flushed10_eq m c hr t) (cover10 m)

end arrays

/-- THE RUN, READ: with the three integer inputs in range, every weakly fair execution of the program terminates with
    the three result arrays at the specification's three arrays of the arguments, and the arguments unchanged. -/
theorem run (hr : ∀ c, InR m c) : θ_run defs (onTc (τ := τ) (main (F := Ideal))) ⟨m, fun _ => 0, ρ⟩ (fun r => ∀ c : Dev nD,
      r.2.mem ((c.tc : Thread nD τ).loc main_v58_0) = Glast (rvArr m c) (tmArr m c) (vfArr m c) (embArr m c) (w1Arr m c) (b1Arr m c) (w2Arr m c) (b2Arr m c)
      ∧ r.2.mem ((c.tc : Thread nD τ).loc main_v58_1) = Gnow (rvArr m c) (tmArr m c) (vfArr m c) (embArr m c) (w1Arr m c) (b1Arr m c) (w2Arr m c) (b2Arr m c)
      ∧ r.2.mem ((c.tc : Thread nD τ).loc main_v58_2) = Gemb (rvArr m c) (tmArr m c) (vfArr m c) (embArr m c) (w1Arr m c) (b1Arr m c) (w2Arr m c) (b2Arr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (final8 m c (hr c)), (h c).2.1.trans (final9 m c (hr c)), (h c).2.2.1.trans (final10 m c (hr c)), (h c).2.2.2⟩)
    (run_named m ρ (hyps m))

end Cert.KernelIdeal.Route

end
-- ==== Proof.KBase.lean ====
import proofs.«405048_j65712999629030_3_alg».proof.Proof.Gen.Kernel.Launch
import proofs.«405048_j65712999629030_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Route

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch

The program is six stretches of host operations (the clip of the filter ids, the filling row gather, the scatter
of ones and its gather back, the clip of the times and the four bias gathers, the two weight conversions) and then
ONE launch over the grid 64 × 2 with two prefetched tables of 64 words each. -/

/-- Core `c`'s buffers when the launch is entered: the given memory after the six host stretches. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

/-- The program reduces to the launch holding the buffers at `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- No host operation before the launch writes argument 0: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 1: the launch finds it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 2: the launch finds it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 3: the launch finds it as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 4: the launch finds it as it was given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 5: the launch finds it as it was given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 6: the launch finds it as it was given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the launch writes argument 7: the launch finds it as it was given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The two tables -/

/-- The tables' contents at the launch: the clipped times and the clipped times less one, floored at zero. -/
def tbl : pre0.Contents (Elt F) := fun j => V m (0 : Dev nD) (pre0.ref j)
/-- There is one device. -/
theorem V_pre (c : Dev nD) (j : Fin 2) : V m c (pre0.ref j) = tbl m j := by
  obtain rfl : c = 0 := Subsingleton.elim _ _; rfl
/-- No index map reads a table, so every contents is admissible. -/
abbrev adm : (pcfg0 (F := F)).Adm := ⟨tbl m, trivial⟩
abbrev cfgM : Pipeline.Cfg sig Λ₀ := cfg0 (adm m)

/-- Each table as the body is handed it. -/
abbrev tbM0_0 : Memref sig .tc .smem S64 .i32 := Memref.whole main_v19
abbrev htbM0_0 : tbM0_0.IsWhole := Memref.isWhole_whole _
abbrev tbM0_1 : Memref sig .tc .smem S64 .i32 := Memref.whole main_v23
abbrev htbM0_1 : tbM0_1.IsWhole := Memref.isWhole_whole _

abbrev TbBuf0 (c : Dev nD) {S : Shape} {e : EltTy} (M : Memref sig .tc .smem S e) : Type := Buf (Elt F) (M.view.loc (c : Thread nD τ))
/-- A table held read-only: half the full share. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the launch lends the body, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the launch finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current staging buffer holds the window's block of the array at every point, fetched there or not. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block of the array at every point, fetched there or not. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block of the array at every point, fetched there or not. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block of the array at every point, fetched there or not. -/
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block of the array at every point, fetched there or not. -/
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block of the array at every point, fetched there or not. -/
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block of the array at every point, fetched there or not. -/
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds the window's block of the array at every point, fetched there or not. -/
theorem before0_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs and the body at a point -/

abbrev ms0_0 (t : Fin (cfgM m).N) : Memref sig .tc .vmem S1x256x768 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x256x1 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S12x768x768 .bf16 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x1x768 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x1x768 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S12x768x768 .bf16 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x1x768 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S1x1x768 .f32 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S1x256x768 .f32 := spec0_8.stage ((cfgM m).slots t 8)
abbrev hs0_8 (t : Fin (cfgM m).N) : (ms0_8 m t).IsWhole := hstage0_8 (((cfgM m).slots t 8).cast nbuf0_8)
abbrev ms0_9 (t : Fin (cfgM m).N) : Memref sig .tc .vmem S1x256x768 .f32 := spec0_9.stage ((cfgM m).slots t 9)
abbrev hs0_9 (t : Fin (cfgM m).N) : (ms0_9 m t).IsWhole := hstage0_9 (((cfgM m).slots t 9).cast nbuf0_9)
abbrev ms0_10 (t : Fin (cfgM m).N) : Memref sig .tc .vmem S1x256x768 .f32 := spec0_10.stage ((cfgM m).slots t 10)
abbrev hs0_10 (t : Fin (cfgM m).N) : (ms0_10 m t).IsWhole := hstage0_10 (((cfgM m).slots t 10).cast nbuf0_10)

/-- The kernel body as the launch calls it at point `t`. -/
abbrev bodyAt0 (a : (pcfg0 (F := F)).Adm) (t : Fin (cfg0 a).N) : Prog (TpuEff nD τ sig (Elt F) Λ₀ .tc) PUnit :=
  cc0__offset_routing_kernel (grid0.coords t) (Memref.whole main_v19) (Memref.isWhole_whole _) (Memref.whole main_v23) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10))

/-- One staging buffer of each output window, through which its contents are stated. -/
abbrev VO0_8 : View sig .tc .vmem S1x256x768 .f32 := (Memref.whole cc0_stg8_0 : Memref sig .tc .vmem S1x256x768 .f32).view
abbrev VO0_9 : View sig .tc .vmem S1x256x768 .f32 := (Memref.whole cc0_stg9_0 : Memref sig .tc .vmem S1x256x768 .f32).view
abbrev VO0_10 : View sig .tc .vmem S1x256x768 .f32 := (Memref.whole cc0_stg10_0 : Memref sig .tc .vmem S1x256x768 .f32).view

/-! ## The two words the body reads, and what it assumes of them -/

/-- The word the body reads from a table at grid coordinates `i`: the entry at the first coordinate. -/
abbrev word0 (c : Dev nD) (xt0 : TbBuf0 (F := F) c tbM0_0) (i : grid0.Coords) : Elt F .i32 :=
  tbM0_0.view.readAt (Elt F) (Rect.unit (s := S64) (k0_off1 i) S1.size (k0_off1_inb i)).toLoadRect xt0 (Shape.Idx.first (numel1_S1.symm ▸ Nat.one_pos))
abbrev word1 (c : Dev nD) (xt1 : TbBuf0 (F := F) c tbM0_1) (i : grid0.Coords) : Elt F .i32 :=
  tbM0_1.view.readAt (Elt F) (Rect.unit (s := S64) (k0_off1 i) S1.size (k0_off1_inb i)).toLoadRect xt1 (Shape.Idx.first (numel1_S1.symm ▸ Nat.one_pos))

end Cert.Kernel.Route

end
-- ==== Proof.KRunA.lean ====
import proofs.«405048_j65712999629030_3_alg».proof.Proof.KBase

set_option maxRecDepth 16384

noncomputable section

namespace Cert.Kernel.Route

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 4000000 in
/-- THE BODY WHEN THE TWO TABLE WORDS AGREE (the clipped time is 0, so is its predecessor): what the stores leave in the three output buffers, as pieces, with the proof that the body runs from whole staging buffers — the eight inputs at their contents, the three outputs at anything, the two tables lent read-only — to the continuation holding the inputs and tables as they were and each output with its pieces written. The first conditional is taken (the `now` product is stored as the `last` output too), the second is not. -/
noncomputable def kernelRun0_A (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i))
    (hc1 : k0_cond1 (word0 c xt0 i) (word1 c xt1 i) = 1#1) (hc2 : ¬ k0_cond2 (word0 c xt0 i) (word1 c xt1 i) = 1#1) :
    { L : List (View.Piece (Elt F) S1x256x768 .f32) × List (View.Piece (Elt F) S1x256x768 .f32) × List (View.Piece (Elt F) S1x256x768 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
            ∗ (∃ d, owns (c : Thread nD τ) arg12 fullShare d) ∗ (∃ d, owns (c : Thread nD τ) arg13 fullShare d) ∗ (∃ d, owns (c : Thread nD τ) arg14 fullShare d)
            ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
                ∗ (∃ f, arg12.view.loc (c : Thread nD τ) ↦[arg12.view.set]{fullShare} arg12.view.writes (Elt F) f L.1)
                ∗ (∃ f, arg13.view.loc (c : Thread nD τ) ↦[arg13.view.set]{fullShare} arg13.view.writes (Elt F) f L.2.1)
                ∗ (∃ f, arg14.view.loc (c : Thread nD τ) ↦[arg14.view.set]{fullShare} arg14.view.writes (Elt F) f L.2.2)
                ∗ tbPt0 c tbM0_0 xt0 ∗ tbPt0 c tbM0_1 xt1) -∗ K ⟨⟩))
          ⊢ wp frame (wpE (defs₀ (F := F)) Variants.none c none) E (cc0__offset_routing_kernel i tbM0_0 htbM0_0 tbM0_1 htbM0_1 arg4 harg4 arg5 harg5 arg6 harg6 arg7 harg7 arg8 harg8 arg9 harg9 arg10 harg10 arg11 harg11 arg12 harg12 arg13 harg13 arg14 harg14) K } := by
  refine ⟨(?_, ?_, ?_), fun E K => ?run⟩
  case run =>
    simp only [cc0__offset_routing_kernel_eq_skeleton]; unfold cc0__offset_routing_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT0, HT1, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf5; obtain rfl := harg10.eq_unread hf6; obtain rfl := harg11.eq_unread hf7
    sl_exec (disch := first | sl_exact k0_hw1 | sl_exact k0_hw2 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]; · iexists _; iexact H8
    isplitl [H9]; · iexists _; iexact H9
    isplitl [H10]; · iexists _; iexact H10
    isplitl [HT0]; · iexact HT0
    iexact HT1

end Cert.Kernel.Route

end
-- ==== Proof.KRunB.lean ====
import proofs.«405048_j65712999629030_3_alg».proof.Proof.KBase

set_option maxRecDepth 16384

noncomputable section

namespace Cert.Kernel.Route

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 4000000 in
/-- THE BODY WHEN THE TWO TABLE WORDS DIFFER (the clipped time is positive): what the stores leave in the three output buffers, as pieces, with the proof that the body runs from whole staging buffers — the eight inputs at their contents, the three outputs at anything, the two tables lent read-only — to the continuation holding the inputs and tables as they were and each output with its pieces written. The first conditional is skipped; the second is taken: the routed map is computed again with the weights and biases of the earlier slot and stored as the `last` output. -/
noncomputable def kernelRun0_B (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i))
    (hc1 : ¬ k0_cond1 (word0 c xt0 i) (word1 c xt1 i) = 1#1) (hc2 : k0_cond2 (word0 c xt0 i) (word1 c xt1 i) = 1#1) :
    { L : List (View.Piece (Elt F) S1x256x768 .f32) × List (View.Piece (Elt F) S1x256x768 .f32) × List (View.Piece (Elt F) S1x256x768 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
            ∗ (∃ d, owns (c : Thread nD τ) arg12 fullShare d) ∗ (∃ d, owns (c : Thread nD τ) arg13 fullShare d) ∗ (∃ d, owns (c : Thread nD τ) arg14 fullShare d)
            ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
                ∗ (∃ f, arg12.view.loc (c : Thread nD τ) ↦[arg12.view.set]{fullShare} arg12.view.writes (Elt F) f L.1)
                ∗ (∃ f, arg13.view.loc (c : Thread nD τ) ↦[arg13.view.set]{fullShare} arg13.view.writes (Elt F) f L.2.1)
                ∗ (∃ f, arg14.view.loc (c : Thread nD τ) ↦[arg14.view.set]{fullShare} arg14.view.writes (Elt F) f L.2.2)
                ∗ tbPt0 c tbM0_0 xt0 ∗ tbPt0 c tbM0_1 xt1) -∗ K ⟨⟩))
          ⊢ wp frame (wpE (defs₀ (F := F)) Variants.none c none) E (cc0__offset_routing_kernel i tbM0_0 htbM0_0 tbM0_1 htbM0_1 arg4 harg4 arg5 harg5 arg6 harg6 arg7 harg7 arg8 harg8 arg9 harg9 arg10 harg10 arg11 harg11 arg12 harg12 arg13 harg13 arg14 harg14) K } := by
  refine ⟨(?_, ?_, ?_), fun E K => ?run⟩
  case run =>
    simp only [cc0__offset_routing_kernel_eq_skeleton]; unfold cc0__offset_routing_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT0, HT1, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf5; obtain rfl := harg10.eq_unread hf6; obtain rfl := harg11.eq_unread hf7
    sl_exec (disch := first | sl_exact k0_hw1 | sl_exact k0_hw2 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]; · iexists _; iexact H8
    isplitl [H9]; · iexists _; iexact H9
    isplitl [H10]; · iexists _; iexact H10
    isplitl [HT0]; · iexact HT0
    iexact HT1

end Cert.Kernel.Route

end
-- ==== Proof.KOuts.lean ====
import proofs.«405048_j65712999629030_3_alg».proof.Proof.KRunA
import proofs.«405048_j65712999629030_3_alg».proof.Proof.KRunB

set_option maxRecDepth 16384

noncomputable section

namespace Cert.Kernel.Route

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the three output buffers -/

/-- Case A's one store into the `last` output's buffer is of the whole block, so its pieces cover it. -/
theorem cover0_A_8 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) (y : S1x256x768.Idx) :
    ∃ pc ∈ (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1 S1x256x768.size (by sl_kernel_rfl) y

/-- What case A leaves in the `last` output's staging buffer: its pieces read back. -/
def out0_A_8 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) : Vec F S1x256x768 .f32 :=
  VO0_8.read (Elt F) (VO0_8.writes (Elt F) VO0_8.junk (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1)

/-- Case A's one store into the `now` output's buffer is of the whole block, so its pieces cover it. -/
theorem cover0_A_9 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) (y : S1x256x768.Idx) :
    ∃ pc ∈ (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1 S1x256x768.size (by sl_kernel_rfl) y

/-- What case A leaves in the `now` output's staging buffer: its pieces read back. -/
def out0_A_9 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) : Vec F S1x256x768 .f32 :=
  VO0_9.read (Elt F) (VO0_9.writes (Elt F) VO0_9.junk (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1)

/-- Case A's one store into the sum output's buffer is of the whole block, so its pieces cover it. -/
theorem cover0_A_10 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) (y : S1x256x768.Idx) :
    ∃ pc ∈ (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2 S1x256x768.size (by sl_kernel_rfl) y

/-- What case A leaves in the sum output's staging buffer: its pieces read back. -/
def out0_A_10 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : k0_cond1 (word0 c xt0 i) (word1 c xt1 i) = 1#1) (hc2 : ¬ k0_cond2 (word0 c xt0 i) (word1 c xt1 i) = 1#1) : Vec F S1x256x768 .f32 :=
  VO0_10.read (Elt F) (VO0_10.writes (Elt F) VO0_10.junk (kernelRun0_A c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2)

/-- Case B's one store into the `last` output's buffer is of the whole block, so its pieces cover it. -/
theorem cover0_B_8 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) (y : S1x256x768.Idx) :
    ∃ pc ∈ (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1 S1x256x768.size (by sl_kernel_rfl) y

/-- What case B leaves in the `last` output's staging buffer: its pieces read back. -/
def out0_B_8 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) : Vec F S1x256x768 .f32 :=
  VO0_8.read (Elt F) (VO0_8.writes (Elt F) VO0_8.junk (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.1)

/-- Case B's one store into the `now` output's buffer is of the whole block, so its pieces cover it. -/
theorem cover0_B_9 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) (y : S1x256x768.Idx) :
    ∃ pc ∈ (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1 S1x256x768.size (by sl_kernel_rfl) y

/-- What case B leaves in the `now` output's staging buffer: its pieces read back. -/
def out0_B_9 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) : Vec F S1x256x768 .f32 :=
  VO0_9.read (Elt F) (VO0_9.writes (Elt F) VO0_9.junk (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.1)

/-- Case B's one store into the sum output's buffer is of the whole block, so its pieces cover it. -/
theorem cover0_B_10 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) (y : S1x256x768.Idx) :
    ∃ pc ∈ (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2 S1x256x768.size (by sl_kernel_rfl) y

/-- What case B leaves in the sum output's staging buffer: its pieces read back. -/
def out0_B_10 (c : Dev nD) (i : grid0.Coords) (arg4 : Memref sig .tc .vmem S1x256x768 .f32) (harg4 : arg4.IsWhole) (arg5 : Memref sig .tc .vmem S1x256x1 .f32) (harg5 : arg5.IsWhole) (arg6 : Memref sig .tc .vmem S12x768x768 .bf16) (harg6 : arg6.IsWhole) (arg7 : Memref sig .tc .vmem S1x1x768 .f32) (harg7 : arg7.IsWhole) (arg8 : Memref sig .tc .vmem S1x1x768 .f32) (harg8 : arg8.IsWhole) (arg9 : Memref sig .tc .vmem S12x768x768 .bf16) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x256x768 .f32) (harg12 : arg12.IsWhole) (arg13 : Memref sig .tc .vmem S1x256x768 .f32) (harg13 : arg13.IsWhole) (arg14 : Memref sig .tc .vmem S1x256x768 .f32) (harg14 : arg14.IsWhole)
    (x0 : Vec F S1x256x768 .f32) (x1 : Vec F S1x256x1 .f32) (x2 : Vec F S12x768x768 .bf16) (x3 : Vec F S1x1x768 .f32) (x4 : Vec F S1x1x768 .f32) (x5 : Vec F S12x768x768 .bf16) (x6 : Vec F S1x1x768 .f32) (x7 : Vec F S1x1x768 .f32) (xt0 : TbBuf0 (F := F) c tbM0_0) (xt1 : TbBuf0 (F := F) c tbM0_1)
    (k0_hw1 : k0_chk1 (word0 c xt0 i)) (k0_hw2 : k0_chk2 (word0 c xt0 i) (word1 c xt1 i)) (hc1 : ¬ k0_cond1 (word0 c xt0 i) (word1 c xt1 i) = 1#1) (hc2 : k0_cond2 (word0 c xt0 i) (word1 c xt1 i) = 1#1) : Vec F S1x256x768 .f32 :=
  VO0_10.read (Elt F) (VO0_10.writes (Elt F) VO0_10.junk (kernelRun0_B c i arg4 harg4 arg5 harg5 arg6 harg6 arg7 harg7 arg8 harg8 arg9 harg9 arg10 harg10 arg11 harg11 arg12 harg12 arg13 harg13 arg14 harg14 x0 x1 x2 x3 x4 x5 x6 x7 xt0 xt1 k0_hw1 k0_hw2 hc1 hc2).1.2.2)

end Cert.Kernel.Route

end
-- ==== Proof.KHyps.lean ====
import proofs.«405048_j65712999629030_3_alg».proof.Proof.KBase

set_option maxRecDepth 16384

noncomputable section

namespace Cert.Kernel.Route

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches are complementary -/

/-- The second conditional's test is the negation of the first's: both are read off the one bit "the two words agree". -/
theorem cond2_iff_not_cond1 (v1 v3 : BitVec 32) : k0_cond2 v1 v3 = 1#1 ↔ ¬ k0_cond1 v1 v3 = 1#1 := by
  unfold k0_cond1 k0_cond2
  generalize Scalar.cmpi .eq v1 v3 = b
  revert b; decide

/-! ## No window is idle at any point -/

/-- The `last` output is written at every point: one of the two conditionals stores into it, whatever the two words are. -/
theorem idle8_false (pf : pre0.Contents (Elt F)) (i : grid0.Coords) : idle0 pf 8 i = false := by
  show (!(k0_cond1 (pf.atD 0 (k0_off1 i)) (pf.atD 1 (k0_off1 i)) == 1#1) && !(k0_cond2 (pf.atD 0 (k0_off1 i)) (pf.atD 1 (k0_off1 i)) == 1#1)) = false
  by_cases h : k0_cond1 (pf.atD 0 (k0_off1 i)) (pf.atD 1 (k0_off1 i)) = 1#1
  · simp [h]
  · have h2 := (cond2_iff_not_cond1 (pf.atD 0 (k0_off1 i)) (pf.atD 1 (k0_off1 i))).mpr h
    simp [h2]

/-- At any admissible contents of the tables, no window is idle anywhere. -/
theorem idle_all (a : (pcfg0 (F := F)).Adm) (w : Fin 11) (i : grid0.Coords) : (cfg0 a).idle w i = false := by
  have h : (cfg0 a).idle w i = idle0 a.1 w i := rfl
  rw [h]
  fin_cases w <;> first | rfl | exact idle8_false _ _

/-! ## What the body assumes of the two words, at every point -/

/-- At every point, the slot word is at most 11, and so is the earlier-slot word where the two differ: the two
    slabs of twelve the body loads by them lie inside the weight tables. -/
def Hyps (m : (ℓ : Loc nD τ sig) → Buf (Elt F) ℓ) : Prop :=
  ∀ (c : Dev nD) (t : Fin (cfgM m).N), k0_chk1 (word0 c (tbl m 0) (grid0.coords t)) ∧ k0_chk2 (word0 c (tbl m 0) (grid0.coords t)) (word1 c (tbl m 1) (grid0.coords t))

variable {m} in
theorem Hyps.c0 (hH : Hyps m) (c : Dev nD) (t : Fin (cfgM m).N) : k0_chk1 (word0 c (tbl m 0) (grid0.coords t)) := (hH c t).1
variable {m} in
theorem Hyps.c1 (hH : Hyps m) (c : Dev nD) (t : Fin (cfgM m).N) : k0_chk2 (word0 c (tbl m 0) (grid0.coords t)) (word1 c (tbl m 1) (grid0.coords t)) := (hH c t).2

end Cert.Kernel.Route

end
-- ==== Proof.KFrame.lean ====
import proofs.«405048_j65712999629030_3_alg».proof.Proof.KOuts
import proofs.«405048_j65712999629030_3_alg».proof.Proof.KHyps
import proofs.«405048_j65712999629030_3_alg».proof.Defs

set_option maxRecDepth 16384

noncomputable section

namespace Cert.Kernel.Route

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the `last` output's staging buffer holds after the body at point `t`: the case the two words select. -/
def outAt0_8 (hH : Hyps m) (c : Dev nD) (t : Fin (cfgM m).N) : Vec F S1x256x768 .f32 :=
  if h : k0_cond1 (word0 c (tbl m 0) (grid0.coords t)) (word1 c (tbl m 1) (grid0.coords t)) = 1#1 then
    out0_A_8 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h)
  else
    out0_B_8 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h)
theorem outAt0_8_A (hH : Hyps m) (c : Dev nD) (t : Fin (cfgM m).N) (h : k0_cond1 (word0 c (tbl m 0) (grid0.coords t)) (word1 c (tbl m 1) (grid0.coords t)) = 1#1) :
    outAt0_8 m hH c t = out0_A_8 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h) := dif_pos h
theorem outAt0_8_B (hH : Hyps m) (c : Dev nD) (t : Fin (cfgM m).N) (h : ¬ k0_cond1 (word0 c (tbl m 0) (grid0.coords t)) (word1 c (tbl m 1) (grid0.coords t)) = 1#1) :
    outAt0_8 m hH c t = out0_B_8 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h) := dif_neg h

/-- What the `now` output's staging buffer holds after the body at point `t`: the case the two words select. -/
def outAt0_9 (hH : Hyps m) (c : Dev nD) (t : Fin (cfgM m).N) : Vec F S1x256x768 .f32 :=
  if h : k0_cond1 (word0 c (tbl m 0) (grid0.coords t)) (word1 c (tbl m 1) (grid0.coords t)) = 1#1 then
    out0_A_9 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h)
  else
    out0_B_9 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h)
theorem outAt0_9_A (hH : Hyps m) (c : Dev nD) (t : Fin (cfgM m).N) (h : k0_cond1 (word0 c (tbl m 0) (grid0.coords t)) (word1 c (tbl m 1) (grid0.coords t)) = 1#1) :
    outAt0_9 m hH c t = out0_A_9 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h) := dif_pos h
theorem outAt0_9_B (hH : Hyps m) (c : Dev nD) (t : Fin (cfgM m).N) (h : ¬ k0_cond1 (word0 c (tbl m 0) (grid0.coords t)) (word1 c (tbl m 1) (grid0.coords t)) = 1#1) :
    outAt0_9 m hH c t = out0_B_9 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h) := dif_neg h

/-- What the sum output's staging buffer holds after the body at point `t`: the case the two words select. -/
def outAt0_10 (hH : Hyps m) (c : Dev nD) (t : Fin (cfgM m).N) : Vec F S1x256x768 .f32 :=
  if h : k0_cond1 (word0 c (tbl m 0) (grid0.coords t)) (word1 c (tbl m 1) (grid0.coords t)) = 1#1 then
    out0_A_10 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h)
  else
    out0_B_10 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h)
theorem outAt0_10_A (hH : Hyps m) (c : Dev nD) (t : Fin (cfgM m).N) (h : k0_cond1 (word0 c (tbl m 0) (grid0.coords t)) (word1 c (tbl m 1) (grid0.coords t)) = 1#1) :
    outAt0_10 m hH c t = out0_A_10 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h) := dif_pos h
theorem outAt0_10_B (hH : Hyps m) (c : Dev nD) (t : Fin (cfgM m).N) (h : ¬ k0_cond1 (word0 c (tbl m 0) (grid0.coords t)) (word1 c (tbl m 1) (grid0.coords t)) = 1#1) :
    outAt0_10 m hH c t = out0_B_10 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h) := dif_neg h

/-! ## The launch's proof data -/

/-- The arrays as the launch finds them; after the body at a point each input's buffer at its block and each
    output's at what the point's case leaves; the invariant: the scoped rest, the generator register and the two
    tables' read-only halves; nothing owed; full shares. -/
def dats (hH : Hyps m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt0_8 m hH c t
    | ⟨9, _⟩ => outAt0_9 m hH c t
    | ⟨10, _⟩ => outAt0_10 m hH c t
  Φ _ := iprop(Pipeline.ΦA spec0 c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = iblk m c 1 t := by dsimp only [dats]; try rfl
theorem after0_2 (hH : Hyps m) (c : Dev nD) (t : Fin (cfgM m).N) : (dats m hH 0 c).after 2 t = iblk m c 2 t := by dsimp only [dats]; try rfl
theorem after0_3 (hH : Hyps m) (c : Dev nD) (t : Fin (cfgM m).N) : (dats m hH 0 c).after 3 t = iblk m c 3 t := by dsimp only [dats]; try rfl
theorem after0_4 (hH : Hyps m) (c : Dev nD) (t : Fin (cfgM m).N) : (dats m hH 0 c).after 4 t = iblk m c 4 t := by dsimp only [dats]; try rfl
theorem after0_5 (hH : Hyps m) (c : Dev nD) (t : Fin (cfgM m).N) : (dats m hH 0 c).after 5 t = iblk m c 5 t := by dsimp only [dats]; try rfl
theorem after0_6 (hH : Hyps m) (c : Dev nD) (t : Fin (cfgM m).N) : (dats m hH 0 c).after 6 t = iblk m c 6 t := by dsimp only [dats]; try rfl
theorem after0_7 (hH : Hyps m) (c : Dev nD) (t : Fin (cfgM m).N) : (dats m hH 0 c).after 7 t = iblk m c 7 t := by dsimp only [dats]; try rfl
theorem after0_8 (hH : Hyps m) (c : Dev nD) (t : Fin (cfgM m).N) : (dats m hH 0 c).after 8 t = outAt0_8 m hH c t := by dsimp only [dats]; try rfl
theorem after0_9 (hH : Hyps m) (c : Dev nD) (t : Fin (cfgM m).N) : (dats m hH 0 c).after 9 t = outAt0_9 m hH c t := by dsimp only [dats]; try rfl
theorem after0_10 (hH : Hyps m) (c : Dev nD) (t : Fin (cfgM m).N) : (dats m hH 0 c).after 10 t = outAt0_10 m hH c t := by dsimp only [dats]; try rfl

theorem before0_0 (hH : Hyps m) (c : Dev nD) (t : Fin (cfgM m).N) (d) : (dats m hH 0 c).before 0 t d = iblk m c 0 t :=
  before0_0_of m (dats m hH 0 c) (A_eq m hH c 0) (after0_0 m hH c) t d
theorem before0_1 (hH : Hyps m) (c : Dev nD) (t : Fin (cfgM m).N) (d) : (dats m hH 0 c).before 1 t d = iblk m c 1 t :=
  before0_1_of m (dats m hH 0 c) (A_eq m hH c 1) (after0_1 m hH c) t d
theorem before0_2 (hH : Hyps m) (c : Dev nD) (t : Fin (cfgM m).N) (d) : (dats m hH 0 c).before 2 t d = iblk m c 2 t :=
  before0_2_of m (dats m hH 0 c) (A_eq m hH c 2) (after0_2 m hH c) t d
theorem before0_3 (hH : Hyps m) (c : Dev nD) (t : Fin (cfgM m).N) (d) : (dats m hH 0 c).before 3 t d = iblk m c 3 t :=
  before0_3_of m (dats m hH 0 c) (A_eq m hH c 3) (after0_3 m hH c) t d
theorem before0_4 (hH : Hyps m) (c : Dev nD) (t : Fin (cfgM m).N) (d) : (dats m hH 0 c).before 4 t d = iblk m c 4 t :=
  before0_4_of m (dats m hH 0 c) (A_eq m hH c 4) (after0_4 m hH c) t d
theorem before0_5 (hH : Hyps m) (c : Dev nD) (t : Fin (cfgM m).N) (d) : (dats m hH 0 c).before 5 t d = iblk m c 5 t :=
  before0_5_of m (dats m hH 0 c) (A_eq m hH c 5) (after0_5 m hH c) t d
theorem before0_6 (hH : Hyps m) (c : Dev nD) (t : Fin (cfgM m).N) (d) : (dats m hH 0 c).before 6 t d = iblk m c 6 t :=
  before0_6_of m (dats m hH 0 c) (A_eq m hH c 6) (after0_6 m hH c) t d
theorem before0_7 (hH : Hyps m) (c : Dev nD) (t : Fin (cfgM m).N) (d) : (dats m hH 0 c).before 7 t d = iblk m c 7 t :=
  before0_7_of m (dats m hH 0 c) (A_eq m hH c 7) (after0_7 m hH c) t d

/-! ## The body obligation, at a generic point -/

def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d))
    ∗ (∃ d, owns (c : Thread nD τ) (ms0_3 m t) fullShare ((dats m hH 0 c).before 3 t d))
    ∗ (∃ d, owns (c : Thread nD τ) (ms0_4 m t) fullShare ((dats m hH 0 c).before 4 t d))
    ∗ (∃ d, owns (c : Thread nD τ) (ms0_5 m t) fullShare ((dats m hH 0 c).before 5 t d))
    ∗ (∃ d, owns (c : Thread nD τ) (ms0_6 m t) fullShare ((dats m hH 0 c).before 6 t d))
    ∗ (∃ d, owns (c : Thread nD τ) (ms0_7 m t) fullShare ((dats m hH 0 c).before 7 t d))
    ∗ (∃ d, owns (c : Thread nD τ) (ms0_8 m t) fullShare ((dats m hH 0 c).before 8 t d))
    ∗ (∃ d, owns (c : Thread nD τ) (ms0_9 m t) fullShare ((dats m hH 0 c).before 9 t d))
    ∗ (∃ d, owns (c : Thread nD τ) (ms0_10 m t) fullShare ((dats m hH 0 c).before 10 t d)))

def bodyPost (hH : Hyps m) (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t)
    ∗ owns (c : Thread nD τ) (ms0_3 m t) fullShare ((dats m hH 0 c).after 3 t)
    ∗ owns (c : Thread nD τ) (ms0_4 m t) fullShare ((dats m hH 0 c).after 4 t)
    ∗ owns (c : Thread nD τ) (ms0_5 m t) fullShare ((dats m hH 0 c).after 5 t)
    ∗ owns (c : Thread nD τ) (ms0_6 m t) fullShare ((dats m hH 0 c).after 6 t)
    ∗ owns (c : Thread nD τ) (ms0_7 m t) fullShare ((dats m hH 0 c).after 7 t)
    ∗ owns (c : Thread nD τ) (ms0_8 m t) fullShare ((dats m hH 0 c).after 8 t)
    ∗ owns (c : Thread nD τ) (ms0_9 m t) fullShare ((dats m hH 0 c).after 9 t)
    ∗ owns (c : Thread nD τ) (ms0_10 m t) fullShare ((dats m hH 0 c).after 10 t))

set_option maxHeartbeats 1600000 in
/-- The body at any point: the inputs' buffers hold their blocks; the two words say which case the point is in;
    that case's run applies; the invariant passes through, the tables lent and returned. -/
theorem sound_body (hH : Hyps m) (c : Dev nD) (t : Fin (cfgM m).N) :
    bodyPre m hH c t ⊢ wp frame (wpE (defs₀ (F := F)) Variants.none c none) Set.univ (bodyAt0 (adm m) t) (fun _ => bodyPost m hH c t) := by
  unfold bodyPre bodyPost bodyAt0
  simp only [before0_0, before0_1, before0_2, before0_3, before0_4, before0_5, before0_6, before0_7]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10]
  rw [show (dats m hH 0 c).Φ t.castSucc = iprop(Pipeline.ΦA spec0 c ∗ Pipeline.ΦT pre0 (tbl m) c) from rfl, PhiT0_eq]
  by_cases h : k0_cond1 (word0 c (tbl m 0) (grid0.coords t)) (word1 c (tbl m 1) (grid0.coords t)) = 1#1
  · rw [outAt0_8_A m hH c t h, outAt0_9_A m hH c t h, outAt0_10_A m hH c t h]
    unfold out0_A_8 out0_A_9 out0_A_10
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h (fun h2 => (cond2_iff_not_cond1 _ _).mp h2 h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HT0]; · iexact HT0
    isplitl [HT1]; · iexact HT1
    iintro ⟨H0, H1, H2, H3, H4, H5, H6, H7, ⟨%e8, H8⟩, ⟨%e9, H9⟩, ⟨%e10, H10⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _)
  · rw [outAt0_8_B m hH c t h, outAt0_9_B m hH c t h, outAt0_10_B m hH c t h]
    unfold out0_B_8 out0_B_9 out0_B_10
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (tbl m 0) (tbl m 1) (Hyps.c0 hH c t) (Hyps.c1 hH c t) h ((cond2_iff_not_cond1 _ _).mpr h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HT0]; · iexact HT0
    isplitl [HT1]; · iexact HT1
    iintro ⟨H0, H1, H2, H3, H4, H5, H6, H7, ⟨%e8, H8⟩, ⟨%e9, H9⟩, ⟨%e10, H10⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_B_10 c _ _ _ _ _ _ _ _ _ _ _ _ _ _ _ _ _ _ _ _ _ _ _ _ _ _ _ _ _ _ _ _ _ _ _ _ _)

end Cert.Kernel.Route

end
-- ==== Proof.KLaunch.lean ====
import proofs.«405048_j65712999629030_3_alg».proof.Proof.KFrame

set_option maxRecDepth 16384

noncomputable section

namespace Cert.Kernel.Route

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation at every point, and the run -/

set_option maxHeartbeats 1600000 in
theorem body_obligation (hH : Hyps m) (c : Dev nD) : BodyObligation (dats (F := F) m hH 0 c) (defs₀ (F := F)) Variants.none () Set.univ := fun t => by
  rw [bigSep_W0, bigSep_W0]
  simp only [idle_all (adm m)]
  rw [idle8_false (tbl m)]
  exact sound_body m hH c t

/-! ## The run -/

set_option maxHeartbeats 1600000 in
set_option backward.isDefEq.respectTransparency.types false in
/-- Every weakly fair execution of the program terminates, nothing faulting, every array of the launch at what the
    proof data computes and every other unscoped buffer as the launch found it. -/
theorem run_main (hH : Hyps m) : θ_run defs (onTc (τ := τ) (main (F := F))) (s₀ m ρ) (Pipeline.FramePost (Pipeline.pin pcfgs fun _ => adm m) (dats m hH) 0 (V m)) :=
  Pipeline.θ_run_frameP pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hΦ := fun _ _ => rfl)

end Cert.Kernel.Route

end
-- ==== Proof.KClaims.lean ====
import proofs.«405048_j65712999629030_3_alg».proof.Proof.KLaunch

set_option maxRecDepth 16384

noncomputable section

namespace Cert.Kernel.Route

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame, and the run with the three result arrays named

No window of the launch stages an argument array (the windows stage what the host computed from them), so each
argument is one of the unscoped buffers the launch leaves as it found them, and the host stretches before the launch
write none of them. -/

/-- The program runs to the end, nothing faulting, and leaves its eight argument arrays unchanged. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) (run_main m ρ hH)

/-- The same run, also naming what the three result arrays hold: what the proof data computes after the last point. -/
theorem run_named (hH : Hyps m) : θ_run defs (onTc (τ := τ) (main (F := F))) ⟨m, fun _ => 0, ρ⟩ (fun r => ∀ c : Dev nD,
      r.2.mem ((c.tc : Thread nD τ).loc main_v58_0) = (dats m hH 0 c).arrAt 8 (cfgM m).N
      ∧ r.2.mem ((c.tc : Thread nD τ).loc main_v58_1) = (dats m hH 0 c).arrAt 9 (cfgM m).N
      ∧ r.2.mem ((c.tc : Thread nD τ).loc main_v58_2) = (dats m hH 0 c).arrAt 10 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 8, (h c).1 9, (h c).1 10,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) (run_main m ρ hH)

end Cert.Kernel.Route

end
-- ==== Proof.KArgs.lean ====
import proofs.«405048_j65712999629030_3_alg».proof.Proof.KHyps
import proofs.«405048_j65712999629030_3_alg».proof.Proof.Spec
import Idealize.ShloMosaic.Lib.ValueIdx

set_option maxRecDepth 16384

noncomputable section

namespace Cert.Kernel.Route

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

/-! ## The eight argument arrays on a core, and a point's two coordinates -/

abbrev rvArr (c : Dev nD) : IVec S64x512 32 := m ((c : Thread nD τ).loc main_arg0)
abbrev tmArr (c : Dev nD) : IVec S64 32 := m ((c : Thread nD τ).loc main_arg1)
abbrev vfArr (c : Dev nD) : IVec S5000 32 := m ((c : Thread nD τ).loc main_arg2)
abbrev embArr (c : Dev nD) : FVec F S30522x768 .f32 := m ((c : Thread nD τ).loc main_arg3)
abbrev w1Arr (c : Dev nD) : FVec F S12x768x768 .f32 := m ((c : Thread nD τ).loc main_arg4)
abbrev b1Arr (c : Dev nD) : FVec F S12x768 .f32 := m ((c : Thread nD τ).loc main_arg5)
abbrev w2Arr (c : Dev nD) : FVec F S12x768x768 .f32 := m ((c : Thread nD τ).loc main_arg6)
abbrev b2Arr (c : Dev nD) : FVec F S12x768 .f32 := m ((c : Thread nD τ).loc main_arg7)

/-- A grid point's batch row (first coordinate, of 64) and its half of the sequence (second coordinate, of 2). -/
def bOf (i : grid0.Coords) : Fin 64 := i 0
def lOf (i : grid0.Coords) : Fin 2 := i 1

/-- The ranges of the three integer arrays on core `c`. -/
abbrev InR (c : Dev nD) : Prop := Cert.Spec.InRange (rvArr m c) (tmArr m c) (vfArr m c)

end Cert.Kernel.Route

end
-- ==== Proof.KHostTab.lean ====
import proofs.«405048_j65712999629030_3_alg».proof.Proof.KArgs

set_option maxRecDepth 16384

noncomputable section

namespace Cert.Kernel.Route

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx Cert.Spec

/-! ## The two tables' words

The first table is the times clipped into [0, 11] (`max 0` then `min 11`), the second that table less one, floored
at zero. So whatever the times are, the slot word is at most 11 and the earlier-slot word at most 10: the body's two
assumptions hold at every point with no precondition. Where the times lie in [0, 12) the clip does nothing, and the two
words are the slot and its predecessor. -/

/-! ### Signed maximum and minimum of words, read as integers -/

/-- The signed maximum of two words reads as the larger of their signed readings. -/
private theorem toInt_maxsi (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

/-- The signed minimum of two words reads as the smaller of their signed readings. -/
private theorem toInt_minsi (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

/-- A word whose signed reading is a natural number has that number as its unsigned reading. -/
private theorem toNat_of_toInt (x : BitVec 32) (n : Nat) (h : x.toInt = (n : Int)) : x.toNat = n := by
  have e := BitVec.toInt_eq_toNat_cond x
  have := x.isLt
  split at e <;> omega

/-- A word clipped into [0, 11]: its unsigned reading is its signed reading, floored at zero and capped at 11. -/
private theorem slot_toNat (w : BitVec 32) : (IntOp.minsi 11#32 (IntOp.maxsi 0#32 w)).toNat = min w.toInt.toNat 11 := by
  apply toNat_of_toInt
  rw [toInt_minsi, toInt_maxsi]
  have h0 : (0#32 : BitVec 32).toInt = 0 := by decide
  have h11 : (11#32 : BitVec 32).toInt = 11 := by decide
  rw [h0, h11]; omega

/-- A word at most 11, less one and floored at zero: its unsigned reading is the truncated predecessor. -/
private theorem prev_toNat (a : BitVec 32) (ha : a.toNat ≤ 11) : (IntOp.maxsi (IntOp.subi a 1#32) 0#32).toNat = a.toNat - 1 := by
  apply toNat_of_toInt
  rw [toInt_maxsi]
  have h0 : (0#32 : BitVec 32).toInt = 0 := by decide
  have e : (IntOp.subi a 1#32).toInt = (a.toNat : Int) - 1 := by
    unfold IntOp.subi
    have e := BitVec.toInt_eq_toNat_cond (a - 1#32)
    rw [BitVec.toNat_sub] at e
    have h1 : (1#32 : BitVec 32).toNat = 1 := by decide
    rw [h1] at e
    split at e <;> omega
  rw [e, h0]; omega

/-! ### The two tables as functions of the times -/

set_option maxHeartbeats 4000000 in
/-- The first table: each time floored at zero, then capped at 11. -/
private theorem V_tab0 (c : Dev nD) :
    (V m c main_v19 : S64.Idx → BitVec 32) = fun i => IntOp.minsi 11#32 (IntOp.maxsi 0#32 (tmArr m c i)) := by
  dsimp only [V]
  simp only [hostOps0, hostOps0_1, hostOps0_2, hostOps0_3, hostOps0_4, hostOps0_5, List.flatten_cons, List.flatten_nil, List.append_nil, List.cons_append, List.nil_append]
  after_results_simp
  rfl

set_option maxHeartbeats 4000000 in
/-- The second table: the first less one, floored at zero. -/
private theorem V_tab1 (c : Dev nD) :
    (V m c main_v23 : S64.Idx → BitVec 32)
      = fun i => IntOp.maxsi (IntOp.subi (IntOp.minsi 11#32 (IntOp.maxsi 0#32 (tmArr m c i))) 1#32) 0#32 := by
  dsimp only [V]
  simp only [hostOps0, hostOps0_1, hostOps0_2, hostOps0_3, hostOps0_4, hostOps0_5, List.flatten_cons, List.flatten_nil, List.append_nil, List.cons_append, List.nil_append]
  after_results_simp
  rfl

/-! ### The word read at a point -/

/-- The one-word rectangle at a point's first coordinate selects the table's entry at that coordinate. -/
private theorem unit_idx (i : grid0.Coords) (h1 : 0 < S1.numel) :
    (Rect.unit (s := S64) (k0_off1 i) S1.size (k0_off1_inb i)).toLoadRect.idx (Shape.Idx.first h1) = ix1 (bOf i) := by
  funext a
  apply Fin.ext
  match a with
  | ⟨0, _⟩ =>
    show k0_off1 i 0 + 1 * (Shape.Idx.first h1 (0 : Fin 1)).val = (i 0).val
    rw [k0_off1_eq]
    show (i 0).val + 1 * 0 = (i 0).val
    omega

/-- A word read at a point is the table's entry at the point's batch row. -/
private theorem word0_eq (c : Dev nD) (xt : TbBuf0 (F := F) c tbM0_0) (i : grid0.Coords) :
    word0 c xt i = (xt : S64.Idx → BitVec 32) (ix1 (bOf i)) :=
  congrArg (xt : S64.Idx → BitVec 32) (unit_idx i _)
private theorem word1_eq (c : Dev nD) (xt : TbBuf0 (F := F) c tbM0_1) (i : grid0.Coords) :
    word1 c xt i = (xt : S64.Idx → BitVec 32) (ix1 (bOf i)) :=
  congrArg (xt : S64.Idx → BitVec 32) (unit_idx i _)

/-- The launch's first table is the clipped times. -/
private theorem tbl0_eq : (tbl m 0 : S64.Idx → BitVec 32) = fun i => IntOp.minsi 11#32 (IntOp.maxsi 0#32 (tmArr m 0 i)) :=
  V_tab0 m 0
/-- The launch's second table is the clipped times less one, floored at zero. -/
private theorem tbl1_eq : (tbl m 1 : S64.Idx → BitVec 32)
    = fun i => IntOp.maxsi (IntOp.subi (IntOp.minsi 11#32 (IntOp.maxsi 0#32 (tmArr m 0 i))) 1#32) 0#32 :=
  V_tab1 m 0

/-- The slot word at a point: the batch row's time, clipped into [0, 11]. -/
private theorem word0_tbl (c : Dev nD) (i : grid0.Coords) :
    word0 c (tbl m 0) i = IntOp.minsi 11#32 (IntOp.maxsi 0#32 (tmArr m c (ix1 (bOf i)))) := by
  refine (word0_eq c (tbl m 0) i).trans ?_
  obtain rfl : c = 0 := Subsingleton.elim _ _
  exact congrFun (tbl0_eq m) _

/-- The earlier-slot word at a point: the slot word less one, floored at zero. -/
private theorem word1_tbl (c : Dev nD) (i : grid0.Coords) :
    word1 c (tbl m 1) i
      = IntOp.maxsi (IntOp.subi (IntOp.minsi 11#32 (IntOp.maxsi 0#32 (tmArr m c (ix1 (bOf i))))) 1#32) 0#32 := by
  refine (word1_eq c (tbl m 1) i).trans ?_
  obtain rfl : c = 0 := Subsingleton.elim _ _
  exact congrFun (tbl1_eq m) _

/-! ### A word at most 11 names a slab of the twelve -/

/-- A slab of one starting at a word at most 11 lies inside the twelve. -/
private theorem slab_inb (v : BitVec 32) (h : v.toNat ≤ 11) :
    ∀ a : Fin 3, (![(Scalar.indexCast v).toNat, 0, 0] : Fin 3 → Nat) a + S1x768x768.size a ≤ S12x768x768.size a := by
  intro a
  match a with
  | ⟨0, _⟩ => show v.toNat + 1 ≤ 12; omega
  | ⟨1, _⟩ => show 0 + 768 ≤ 768; omega
  | ⟨2, _⟩ => show 0 + 768 ≤ 768; omega

/-- The first conditional's test holds only of equal words. -/
private theorem eq_of_cond1 (v1 v3 : BitVec 32) (h : k0_cond1 v1 v3 = 1#1) : v1 = v3 := by
  have key : ∀ b : BitVec 1, Scalar.cmpi .ne (Scalar.extui b) 0#32 = 1#1 → b = 1#1 := by decide
  have hb : BitVec.ofBool (v1 == v3) = 1#1 := key _ h
  by_contra hne
  rw [show (v1 == v3) = false from beq_eq_false_iff_ne.mpr hne] at hb
  exact absurd hb (by decide)

/-- The body's assumptions hold at every point, for any memory. -/
theorem hyps : Hyps m := by
  intro c t
  rw [word0_tbl m c (grid0.coords t), word1_tbl m c (grid0.coords t)]
  have ha : (IntOp.minsi 11#32 (IntOp.maxsi 0#32 (tmArr m c (ix1 (bOf (grid0.coords t)))))).toNat ≤ 11 := by
    rw [slot_toNat]; omega
  refine ⟨slab_inb _ ha, fun _ => slab_inb _ ?_⟩
  rw [prev_toNat _ ha]; omega

/-- With the times in range, the slab the slot word selects is the time's slot. -/
theorem off2_word0 (c : Dev nD) (hr : InR m c) (t : Fin (cfgM m).N) :
    k0_off2 (word0 c (tbl m 0) (grid0.coords t)) = ![(slotOf (tmArr m c (ix1 (bOf (grid0.coords t))))).val, 0, 0] := by
  rw [word0_tbl m c (grid0.coords t)]
  show (![(IntOp.minsi 11#32 (IntOp.maxsi 0#32 (tmArr m c (ix1 (bOf (grid0.coords t)))))).toNat, 0, 0] : Fin 3 → Nat)
    = ![min (tmArr m c (ix1 (bOf (grid0.coords t)))).toInt.toNat 11, 0, 0]
  rw [slot_toNat]

/-- With the times in range, the slab the earlier-slot word selects is the slot before the time's. -/
theorem off3_word1 (c : Dev nD) (hr : InR m c) (t : Fin (cfgM m).N) :
    k0_off3 (word1 c (tbl m 1) (grid0.coords t)) = ![(prevOf (tmArr m c (ix1 (bOf (grid0.coords t))))).val, 0, 0] := by
  rw [word1_tbl m c (grid0.coords t)]
  have ha : (IntOp.minsi 11#32 (IntOp.maxsi 0#32 (tmArr m c (ix1 (bOf (grid0.coords t)))))).toNat ≤ 11 := by
    rw [slot_toNat]; omega
  have hlt := (hr.tm (ix1 (bOf (grid0.coords t)))).2
  show (![(IntOp.maxsi (IntOp.subi (IntOp.minsi 11#32 (IntOp.maxsi 0#32 (tmArr m c (ix1 (bOf (grid0.coords t)))))) 1#32) 0#32).toNat, 0, 0] : Fin 3 → Nat)
    = ![min ((tmArr m c (ix1 (bOf (grid0.coords t)))).toInt.toNat - 1) 11, 0, 0]
  rw [prev_toNat _ ha, slot_toNat]
  congr 1
  omega

/-- Where the two words agree the slot is its own predecessor (the time is 0). -/
theorem slot_eq_prev_of_cond1 (c : Dev nD) (hr : InR m c) (t : Fin (cfgM m).N)
    (h : k0_cond1 (word0 c (tbl m 0) (grid0.coords t)) (word1 c (tbl m 1) (grid0.coords t)) = 1#1) :
    slotOf (tmArr m c (ix1 (bOf (grid0.coords t)))) = prevOf (tmArr m c (ix1 (bOf (grid0.coords t)))) := by
  have e := eq_of_cond1 _ _ h
  rw [word0_tbl m c (grid0.coords t), word1_tbl m c (grid0.coords t)] at e
  have ha : (IntOp.minsi 11#32 (IntOp.maxsi 0#32 (tmArr m c (ix1 (bOf (grid0.coords t)))))).toNat ≤ 11 := by
    rw [slot_toNat]; omega
  have e' := congrArg BitVec.toNat e
  rw [prev_toNat _ ha, slot_toNat] at e'
  apply Fin.ext
  show min (tmArr m c (ix1 (bOf (grid0.coords t)))).toInt.toNat 11 = min ((tmArr m c (ix1 (bOf (grid0.coords t)))).toInt.toNat - 1) 11
  omega

end Cert.Kernel.Route

end
-- ==== Proof.RefIsG.lean ====
import proofs.«405048_j65712999629030_3_alg».proof.Proof.RefReadP
import proofs.«405048_j65712999629030_3_alg».proof.Proof.Spec
import Idealize.ShloMosaic.Lib.ValueIdx
import Idealize.ShloMosaic.Lib.Pipeline.Value
import Idealize.ShloMosaic.PureOps.Ideal.Laws
import Idealize.ShloMosaic.PureOps.Reduce
import Idealize.ShloMosaic.Lib.Affine

noncomputable section

namespace Cert.ReferenceIdeal.RefG

open Cert.ReferenceIdeal Cert.ReferenceIdeal.Gen Cert.ReferenceIdeal.ReadP Cert.Spec
open Idealize.ShloMosaic Idealize.ShloMosaic.TcCoe Idealize.ShloMosaic.ValueIdx

/-! ## The reference's three results are the specification's three arrays (extended reals)

With the token ids in [0, 30522) and the times in [0, 12): the wrap of negative indices does nothing and each gather
returns the row its index names; the membership test (equal to some filter id, an `or` over the 5000 comparisons)
is the membership bit; the two batched products contract the 768 inner coordinates; so, index by index, each result
is the routed map at the time's slot (or the slot before it) times the membership bit, and the third adds the row. -/

private abbrev GE := gather_S30522x768_S64x512x1_S64x512x768_2_0_n_n_0_2_1768

/-- The row gather of the embedding table: result element (b, l, d) is the table at the row its start index names
    (read signed, clamped into the table) and column d. -/
private theorem gather_rows_apply {α : Type} (x : S30522x768.Idx → α) (w : IVec S64x512x1 32) (b : Fin 64) (l : Fin 512) (d : Fin 768) :
    Host.gather gather_S30522x768_S64x512x1_S64x512x768_2_0_n_n_0_2_1768 x w (ix3 b l d)
      = x (ix2 (rowOf (w (ix3 b l (0 : Fin 1)))) d) := by
  unfold Host.gather
  congr 1
  funext a
  refine Fin.ext ?_
  match a with
  | ⟨0, _⟩ =>
    show GE.start (ix3 b l d) w 0 + GE.batchCoord (ix3 b l d) 0 + GE.offCoord (ix3 b l d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GE.startIndexMap from List.mem_singleton.mpr rfl)]
    have hsi : GE.siIdx (ix3 b l d) ⟨List.idxOf (0 : Fin 2) GE.startIndexMap,
        List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  | ⟨1, _⟩ =>
    show GE.start (ix3 b l d) w 1 + GE.batchCoord (ix3 b l d) 1 + GE.offCoord (ix3 b l d) 1 = _
    rw [GatherDims.batchCoord_eq_zero _ _ _ List.not_mem_nil]
    unfold GatherDims.start
    rw [dif_neg (show (1 : Fin 2) ∉ GE.startIndexMap by decide)]
    unfold GatherDims.offCoord
    rw [dif_pos (show (1 : Fin 2) ∈ GE.sKept by decide)]
    simp only [Nat.zero_add]
    rfl

private abbrev GW := gather_S12x768x768_S64x1_S64x768x768_12_0_n_n_0_1_1768768
private abbrev GB := gather_S12x768_S64x1_S64x768_1_0_n_n_0_1_1768

/-- The slot gather of a stack of twelve matrices: result element (b, d, k) is the stack at the slot the start index of
    b names (read signed, clamped into the twelve), row d, column k. -/
private theorem gather_mats_apply {α : Type} (x : S12x768x768.Idx → α) (w : IVec S64x1 32) (b : Fin 64) (d k : Fin 768) :
    Host.gather gather_S12x768x768_S64x1_S64x768x768_12_0_n_n_0_1_1768768 x w (ix3 b d k)
      = x (ix3 (slotOf (w (ix2 b (0 : Fin 1)))) d k) := by
  unfold Host.gather
  congr 1
  funext a
  refine Fin.ext ?_
  match a with
  | ⟨0, _⟩ =>
    show GW.start (ix3 b d k) w 0 + GW.batchCoord (ix3 b d k) 0 + GW.offCoord (ix3 b d k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ GW.startIndexMap from List.mem_singleton.mpr rfl)]
    have hsi : GW.siIdx (ix3 b d k) ⟨List.idxOf (0 : Fin 3) GW.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show GW.start (ix3 b d k) w 1 + GW.batchCoord (ix3 b d k) 1 + GW.offCoord (ix3 b d k) 1 = _
    rw [GatherDims.batchCoord_eq_zero _ _ _ List.not_mem_nil]
    unfold GatherDims.start
    rw [dif_neg (show (1 : Fin 3) ∉ GW.startIndexMap by decide)]
    unfold GatherDims.offCoord
    rw [dif_pos (show (1 : Fin 3) ∈ GW.sKept by decide)]
    simp only [Nat.zero_add]
    rfl
  | ⟨2, _⟩ =>
    show GW.start (ix3 b d k) w 2 + GW.batchCoord (ix3 b d k) 2 + GW.offCoord (ix3 b d k) 2 = _
    rw [GatherDims.batchCoord_eq_zero _ _ _ List.not_mem_nil]
    unfold GatherDims.start
    rw [dif_neg (show (2 : Fin 3) ∉ GW.startIndexMap by decide)]
    unfold GatherDims.offCoord
    rw [dif_pos (show (2 : Fin 3) ∈ GW.sKept by decide)]
    simp only [Nat.zero_add]
    rfl

/-- The slot gather of a stack of twelve rows: result element (b, k) is the stack at the slot the start index of b
    names, column k. -/
private theorem gather_bias_apply {α : Type} (x : S12x768.Idx → α) (w : IVec S64x1 32) (b : Fin 64) (k : Fin 768) :
    Host.gather gather_S12x768_S64x1_S64x768_1_0_n_n_0_1_1768 x w (ix2 b k)
      = x (ix2 (slotOf (w (ix2 b (0 : Fin 1)))) k) := by
  unfold Host.gather
  congr 1
  funext a
  refine Fin.ext ?_
  match a with
  | ⟨0, _⟩ =>
    show GB.start (ix2 b k) w 0 + GB.batchCoord (ix2 b k) 0 + GB.offCoord (ix2 b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GB.startIndexMap from List.mem_singleton.mpr rfl)]
    have hsi : GB.siIdx (ix2 b k) ⟨List.idxOf (0 : Fin 2) GB.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show GB.start (ix2 b k) w 1 + GB.batchCoord (ix2 b k) 1 + GB.offCoord (ix2 b k) 1 = _
    rw [GatherDims.batchCoord_eq_zero _ _ _ List.not_mem_nil]
    unfold GatherDims.start
    rw [dif_neg (show (1 : Fin 2) ∉ GB.startIndexMap by decide)]
    unfold GatherDims.offCoord
    rw [dif_pos (show (1 : Fin 2) ∈ GB.sKept by decide)]
    simp only [Nat.zero_add]
    rfl

/-! ### Words -/

/-- A word in [0, 2³¹) reads the same signed and unsigned. -/
private theorem toNat_of_nonneg {x : BitVec 32} (h : 0 ≤ x.toInt) : (x.toNat : Int) = x.toInt := by
  rw [BitVec.toInt_eq_toNat_cond] at h ⊢
  split at h <;> rename_i hc
  · rw [if_pos hc]
  · exfalso; have := x.isLt; omega

/-- Wrapping a negative index by the axis length does nothing to a nonnegative word. -/
private theorem wrap_nonneg (x N : BitVec 32) (h : 0 ≤ x.toInt) :
    Scalar.select (IntOp.cmpi .slt x 0#32) (IntOp.addi x N) x = x := by
  have hc : ¬ IntOp.cmpi .slt x 0#32 = 1#1 := by
    rw [IntOp.cmpi_slt, show (0#32 : BitVec 32).toInt = 0 from rfl]; omega
  rw [eq_zero_of_ne_one hc, select_zero]

/-- The word max (t − 1, 0) of a time t in [0, 12): again in [0, 12), and its slot is the slot before t's. -/
private theorem prev_word (t : BitVec 32) (h0 : 0 ≤ t.toInt) (h1 : t.toInt < 12) :
    0 ≤ (IntOp.maxsi (IntOp.subi t 1#32) 0#32).toInt ∧ (IntOp.maxsi (IntOp.subi t 1#32) 0#32).toInt < 12 ∧
      slotOf (IntOp.maxsi (IntOp.subi t 1#32) 0#32) = prevOf t := by
  have ht : t.toNat < 12 := by have := toNat_of_nonneg h0; omega
  obtain ⟨n, hn, rfl⟩ : ∃ n, n < 12 ∧ t = BitVec.ofNat 32 n := ⟨t.toNat, ht, by simp⟩
  interval_cases n <;> decide

/-- A time in [0, 12) names its own slot. -/
private theorem slotOf_val (t : BitVec 32) (h0 : 0 ≤ t.toInt) (h1 : t.toInt < 12) : ((slotOf t).val : Int) = t.toInt := by
  show ((min t.toInt.toNat 11 : Nat) : Int) = t.toInt
  omega

/-! ### The or over a finite set of bits -/

/-- An or-fold from 0 over a finite set of bits is 1 exactly when some bit is 1. -/
private theorem fold_ori_eq_one {ι : Type} (S : Finset ι) (f : ι → BitVec 1) :
    S.fold IntOp.ori 0#1 f = 1#1 ↔ ∃ k ∈ S, f k = 1#1 := by
  induction S using Finset.cons_induction with
  | empty => simp
  | cons a S ha ih =>
    rw [Finset.fold_cons, IntOp.ori_eq_one, ih]
    constructor
    · rintro (h | ⟨k, hk, h⟩)
      · exact ⟨a, Finset.mem_cons_self a S, h⟩
      · exact ⟨k, Finset.mem_cons.2 (Or.inr hk), h⟩
    · rintro ⟨k, hk, h⟩
      rcases Finset.mem_cons.1 hk with rfl | hk
      · exact Or.inl h
      · exact Or.inr ⟨k, hk, h⟩

private theorem redCols : S32768x5000.Reduces [1] S32768 := by decide

/-- Row p with column k inserted on the reduced axis is the index (p, k). -/
private theorem lift_cols (p : Fin 32768) (k : Fin 5000) : redCols.lift (ix1 p) k = ix2 p k := by
  funext c; refine Fin.ext ?_
  match c with
  | ⟨0, _⟩ => rfl
  | ⟨1, _⟩ => rfl

/-- The or-reduction of a [32768 × 5000] array of bits over its columns, from 0: 1 at row p exactly when some column
    of row p holds 1. -/
private theorem reduce_ori_cols (mask : IVec S32768x5000 1) (init : IVec S_ 1) (hinit : ∀ i, init i = 0#1) (p : Fin 32768) :
    Host.reduce IntOp.ori mask init reducesTo_S32768x5000_S32768_d1 h_S_ (ix1 p) = 1#1
      ↔ ∃ k : Fin 5000, mask (ix2 p k) = 1#1 := by
  rw [Host.reduce_eq_fold_single IntOp.ori mask init reducesTo_S32768x5000_S32768_d1
    redCols h_S_ (ix1 p), hinit, fold_ori_eq_one]
  constructor
  · rintro ⟨k, -, h⟩
    refine ⟨k, ?_⟩
    rw [← lift_cols p k]; exact h
  · rintro ⟨k, h⟩
    refine ⟨k, Finset.mem_univ _, ?_⟩
    show mask (redCols.lift (ix1 p) k) = 1#1
    rw [lift_cols p k]; exact h

/-- A bit converted to a number: 1 or 0. -/
private theorem uitofp_bit (c : BitVec 1) : (FloatOps.uitofp (F := Ideal) .f32 c : EReal) = if c = 1#1 then 1 else 0 := by
  rcases BitVec.eq_zero_or_eq_one c with rfl | rfl
  · rw [if_neg (by decide)]
    show (((0 : Nat) : ℝ) : EReal) = 0
    simp
  · rw [if_pos rfl]
    show (((1 : Nat) : ℝ) : EReal) = 1
    simp

/-! ### The index words the gathers read -/

section Stages
variable (x0 : IVec S64x512 32) (x1 : IVec S64 32) (x2 : IVec S5000 32) (x3 : FVec Ideal S30522x768 .f32)
  (x4 : FVec Ideal S12x768x768 .f32) (x5 : FVec Ideal S12x768 .f32) (x6 : FVec Ideal S12x768x768 .f32) (x7 : FVec Ideal S12x768 .f32)

/-- The token word of (b, l), wrapped: the token id itself. -/
private theorem word5 (hr : InRange x0 x1 x2) (b : Fin 64) (l : Fin 512) :
    val_main_v5 (F := Ideal) x0 (ix3 b l (0 : Fin 1)) = x0 (ix2 b l) := by
  have e : idx_main_v5 (ix3 b l (0 : Fin 1)) = ix2 b l :=
    funext fun a => Fin.ext (by match a with | ⟨0, _⟩ => rfl | ⟨1, _⟩ => rfl)
  simp only [val_main_v5_apply, e, val_main_v4_apply, val_main_v1_apply, val_main_v3_apply, val_main_v0_apply,
    val_main_c_apply, val_main_v2_apply, val_main_c_0_apply]
  exact wrap_nonneg _ _ (hr.rv _).1

/-- The word max (t − 1, 0) of b's time. -/
private theorem word14 (b : Fin 64) :
    val_main_v14 (F := Ideal) x1 (ix1 b) = IntOp.maxsi (IntOp.subi (x1 (ix1 b)) 1#32) 0#32 := by
  simp only [val_main_v14_apply, val_main_v12_apply, val_main_v11_apply, val_main_c_1_apply, val_main_v13_apply,
    val_main_c_2_apply]

/-- Its four wrapped copies are that word. -/
private theorem word20 (hr : InRange x0 x1 x2) (b : Fin 64) :
    val_main_v20 (F := Ideal) x1 (ix2 b (0 : Fin 1)) = IntOp.maxsi (IntOp.subi (x1 (ix1 b)) 1#32) 0#32 := by
  have e : idx_main_v20 (ix2 b (0 : Fin 1)) = ix1 b := funext fun a => Fin.ext (by match a with | ⟨0, _⟩ => rfl)
  simp only [val_main_v20_apply, e, val_main_v19_apply, val_main_v16_apply, val_main_v18_apply, val_main_v15_apply,
    val_main_c_3_apply, val_main_v17_apply, val_main_c_4_apply, word14]
  exact wrap_nonneg _ _ (prev_word _ (hr.tm _).1 (hr.tm _).2).1
private theorem word28 (hr : InRange x0 x1 x2) (b : Fin 64) :
    val_main_v28 (F := Ideal) x1 (ix2 b (0 : Fin 1)) = IntOp.maxsi (IntOp.subi (x1 (ix1 b)) 1#32) 0#32 := by
  have e : idx_main_v28 (ix2 b (0 : Fin 1)) = ix1 b := funext fun a => Fin.ext (by match a with | ⟨0, _⟩ => rfl)
  simp only [val_main_v28_apply, e, val_main_v27_apply, val_main_v24_apply, val_main_v26_apply, val_main_v23_apply,
    val_main_c_5_apply, val_main_v25_apply, val_main_c_6_apply, word14]
  exact wrap_nonneg _ _ (prev_word _ (hr.tm _).1 (hr.tm _).2).1
private theorem word39 (hr : InRange x0 x1 x2) (b : Fin 64) :
    val_main_v39 (F := Ideal) x1 (ix2 b (0 : Fin 1)) = IntOp.maxsi (IntOp.subi (x1 (ix1 b)) 1#32) 0#32 := by
  have e : idx_main_v39 (ix2 b (0 : Fin 1)) = ix1 b := funext fun a => Fin.ext (by match a with | ⟨0, _⟩ => rfl)
  simp only [val_main_v39_apply, e, val_main_v38_apply, val_main_v35_apply, val_main_v37_apply, val_main_v34_apply,
    val_main_c_7_apply, val_main_v36_apply, val_main_c_8_apply, word14]
  exact wrap_nonneg _ _ (prev_word _ (hr.tm _).1 (hr.tm _).2).1
private theorem word47 (hr : InRange x0 x1 x2) (b : Fin 64) :
    val_main_v47 (F := Ideal) x1 (ix2 b (0 : Fin 1)) = IntOp.maxsi (IntOp.subi (x1 (ix1 b)) 1#32) 0#32 := by
  have e : idx_main_v47 (ix2 b (0 : Fin 1)) = ix1 b := funext fun a => Fin.ext (by match a with | ⟨0, _⟩ => rfl)
  simp only [val_main_v47_apply, e, val_main_v46_apply, val_main_v43_apply, val_main_v45_apply, val_main_v42_apply,
    val_main_c_9_apply, val_main_v44_apply, val_main_c_10_apply, word14]
  exact wrap_nonneg _ _ (prev_word _ (hr.tm _).1 (hr.tm _).2).1

/-- The four wrapped copies of b's time are the time. -/
private theorem word59 (hr : InRange x0 x1 x2) (b : Fin 64) : val_main_v59 (F := Ideal) x1 (ix2 b (0 : Fin 1)) = x1 (ix1 b) := by
  have e : idx_main_v59 (ix2 b (0 : Fin 1)) = ix1 b := funext fun a => Fin.ext (by match a with | ⟨0, _⟩ => rfl)
  simp only [val_main_v59_apply, e, val_main_v58_apply, val_main_v55_apply, val_main_v57_apply, val_main_v54_apply,
    val_main_c_11_apply, val_main_v56_apply, val_main_c_12_apply]
  exact wrap_nonneg _ _ (hr.tm _).1
private theorem word67 (hr : InRange x0 x1 x2) (b : Fin 64) : val_main_v67 (F := Ideal) x1 (ix2 b (0 : Fin 1)) = x1 (ix1 b) := by
  have e : idx_main_v67 (ix2 b (0 : Fin 1)) = ix1 b := funext fun a => Fin.ext (by match a with | ⟨0, _⟩ => rfl)
  simp only [val_main_v67_apply, e, val_main_v66_apply, val_main_v63_apply, val_main_v65_apply, val_main_v62_apply,
    val_main_c_13_apply, val_main_v64_apply, val_main_c_14_apply]
  exact wrap_nonneg _ _ (hr.tm _).1
private theorem word78 (hr : InRange x0 x1 x2) (b : Fin 64) : val_main_v78 (F := Ideal) x1 (ix2 b (0 : Fin 1)) = x1 (ix1 b) := by
  have e : idx_main_v78 (ix2 b (0 : Fin 1)) = ix1 b := funext fun a => Fin.ext (by match a with | ⟨0, _⟩ => rfl)
  simp only [val_main_v78_apply, e, val_main_v77_apply, val_main_v74_apply, val_main_v76_apply, val_main_v73_apply,
    val_main_c_15_apply, val_main_v75_apply, val_main_c_16_apply]
  exact wrap_nonneg _ _ (hr.tm _).1
private theorem word86 (hr : InRange x0 x1 x2) (b : Fin 64) : val_main_v86 (F := Ideal) x1 (ix2 b (0 : Fin 1)) = x1 (ix1 b) := by
  have e : idx_main_v86 (ix2 b (0 : Fin 1)) = ix1 b := funext fun a => Fin.ext (by match a with | ⟨0, _⟩ => rfl)
  simp only [val_main_v86_apply, e, val_main_v85_apply, val_main_v82_apply, val_main_v84_apply, val_main_v81_apply,
    val_main_c_17_apply, val_main_v83_apply, val_main_c_18_apply]
  exact wrap_nonneg _ _ (hr.tm _).1

/-! ### The gathers, read at an index by its coordinates -/

/-- The gathered embedding rows. -/
private theorem v6_at (hr : InRange x0 x1 x2) (j : S64x512x768.Idx) :
    val_main_v6 (F := Ideal) x0 x3 j = embRow x0 x3 (j 0) (j 1) (j 2) := by
  obtain ⟨b, l, d, rfl⟩ : ∃ (b : Fin 64) (l : Fin 512) (d : Fin 768), j = ix3 b l d := ⟨j 0, j 1, j 2, eq_ix3 j⟩
  unfold val_main_v6
  rw [gather_rows_apply, word5 x0 x1 x2 hr]
  rfl

/-- The matrices and rows of the slot before the time's … -/
private theorem v21_at (hr : InRange x0 x1 x2) (j : S64x768x768.Idx) :
    val_main_v21 (F := Ideal) x1 x4 j = x4 (ix3 (prevOf (x1 (ix1 (j 0)))) (j 1) (j 2)) := by
  obtain ⟨b, d, k, rfl⟩ : ∃ (b : Fin 64) (d k : Fin 768), j = ix3 b d k := ⟨j 0, j 1, j 2, eq_ix3 j⟩
  unfold val_main_v21
  rw [gather_mats_apply, word20 x0 x1 x2 hr, (prev_word _ (hr.tm _).1 (hr.tm _).2).2.2]
private theorem v29_at (hr : InRange x0 x1 x2) (j : S64x768.Idx) :
    val_main_v29 (F := Ideal) x1 x5 j = x5 (ix2 (prevOf (x1 (ix1 (j 0)))) (j 1)) := by
  obtain ⟨b, k, rfl⟩ : ∃ (b : Fin 64) (k : Fin 768), j = ix2 b k := ⟨j 0, j 1, eq_ix2 j⟩
  unfold val_main_v29
  rw [gather_bias_apply, word28 x0 x1 x2 hr, (prev_word _ (hr.tm _).1 (hr.tm _).2).2.2]
private theorem v40_at (hr : InRange x0 x1 x2) (j : S64x768x768.Idx) :
    val_main_v40 (F := Ideal) x1 x6 j = x6 (ix3 (prevOf (x1 (ix1 (j 0)))) (j 1) (j 2)) := by
  obtain ⟨b, d, k, rfl⟩ : ∃ (b : Fin 64) (d k : Fin 768), j = ix3 b d k := ⟨j 0, j 1, j 2, eq_ix3 j⟩
  unfold val_main_v40
  rw [gather_mats_apply, word39 x0 x1 x2 hr, (prev_word _ (hr.tm _).1 (hr.tm _).2).2.2]
private theorem v48_at (hr : InRange x0 x1 x2) (j : S64x768.Idx) :
    val_main_v48 (F := Ideal) x1 x7 j = x7 (ix2 (prevOf (x1 (ix1 (j 0)))) (j 1)) := by
  obtain ⟨b, k, rfl⟩ : ∃ (b : Fin 64) (k : Fin 768), j = ix2 b k := ⟨j 0, j 1, eq_ix2 j⟩
  unfold val_main_v48
  rw [gather_bias_apply, word47 x0 x1 x2 hr, (prev_word _ (hr.tm _).1 (hr.tm _).2).2.2]

/-- … and of the time's own slot. -/
private theorem v60_at (hr : InRange x0 x1 x2) (j : S64x768x768.Idx) :
    val_main_v60 (F := Ideal) x1 x4 j = x4 (ix3 (slotOf (x1 (ix1 (j 0)))) (j 1) (j 2)) := by
  obtain ⟨b, d, k, rfl⟩ : ∃ (b : Fin 64) (d k : Fin 768), j = ix3 b d k := ⟨j 0, j 1, j 2, eq_ix3 j⟩
  unfold val_main_v60
  rw [gather_mats_apply, word59 x0 x1 x2 hr]
private theorem v68_at (hr : InRange x0 x1 x2) (j : S64x768.Idx) :
    val_main_v68 (F := Ideal) x1 x5 j = x5 (ix2 (slotOf (x1 (ix1 (j 0)))) (j 1)) := by
  obtain ⟨b, k, rfl⟩ : ∃ (b : Fin 64) (k : Fin 768), j = ix2 b k := ⟨j 0, j 1, eq_ix2 j⟩
  unfold val_main_v68
  rw [gather_bias_apply, word67 x0 x1 x2 hr]
private theorem v79_at (hr : InRange x0 x1 x2) (j : S64x768x768.Idx) :
    val_main_v79 (F := Ideal) x1 x6 j = x6 (ix3 (slotOf (x1 (ix1 (j 0)))) (j 1) (j 2)) := by
  obtain ⟨b, d, k, rfl⟩ : ∃ (b : Fin 64) (d k : Fin 768), j = ix3 b d k := ⟨j 0, j 1, j 2, eq_ix3 j⟩
  unfold val_main_v79
  rw [gather_mats_apply, word78 x0 x1 x2 hr]
private theorem v87_at (hr : InRange x0 x1 x2) (j : S64x768.Idx) :
    val_main_v87 (F := Ideal) x1 x7 j = x7 (ix2 (slotOf (x1 (ix1 (j 0)))) (j 1)) := by
  obtain ⟨b, k, rfl⟩ : ∃ (b : Fin 64) (k : Fin 768), j = ix2 b k := ⟨j 0, j 1, eq_ix2 j⟩
  unfold val_main_v87
  rw [gather_bias_apply, word86 x0 x1 x2 hr]

/-! ### The membership bit -/

/-- Row b·512 + l of the comparison array holds a 1 exactly when some filter id is token (b, l)'s. -/
private theorem v7_at (b : Fin 64) (l : Fin 512) (hp : b.val * 512 + l.val < 32768) :
    val_main_v7 (F := Ideal) x0 x2 (ix1 ⟨b.val * 512 + l.val, hp⟩) = 1#1 ↔ ∃ k : Fin 5000, x2 (ix1 k) = x0 (ix2 b l) := by
  unfold val_main_v7
  rw [reduce_ori_cols (val_main_call0_v5 (F := Ideal) x0 x2) (val_main_call0_c (F := Ideal)) (fun _ => rfl)]
  refine exists_congr fun k => ?_
  have e0 : idx_main_call0_v0 (idx_main_call0_v1 (idx_main_call0_v3 (ix2 (⟨b.val * 512 + l.val, hp⟩ : Fin 32768) k))) = ix2 b l :=
    funext fun a => Fin.ext (by
      match a with
      | ⟨0, _⟩ => show (b.val * 512 + l.val) / 512 = b.val; have := l.isLt; omega
      | ⟨1, _⟩ => show (b.val * 512 + l.val) % 512 = l.val; have := l.isLt; omega)
  have e2 : idx_main_call0_v2 (idx_main_call0_v4 (ix2 (⟨b.val * 512 + l.val, hp⟩ : Fin 32768) k)) = ix1 k :=
    funext fun a => Fin.ext (by match a with | ⟨0, _⟩ => rfl)
  rw [val_main_call0_v5_apply, IntOp.cmpi_eq, val_main_call0_v3_apply, val_main_call0_v1_apply, val_main_call0_v0_apply, e0,
    val_main_call0_v4_apply, val_main_call0_v2_apply, e2]
  exact eq_comm

/-- The membership stage as a number. -/
private theorem v10_at (j : S64x512x1.Idx) : val_main_v10 (F := Ideal) x0 x2 j = member x0 x2 (j 0) (j 1) := by
  obtain ⟨b, l, z, rfl⟩ : ∃ (b : Fin 64) (l : Fin 512) (z : Fin 1), j = ix3 b l z := ⟨j 0, j 1, j 2, eq_ix3 j⟩
  have hp : b.val * 512 + l.val < 32768 := by have := b.isLt; have := l.isLt; omega
  have e8 : idx_main_v8 (idx_main_v9 (ix3 b l z)) = ix1 ⟨b.val * 512 + l.val, hp⟩ :=
    funext fun a => Fin.ext (by match a with | ⟨0, _⟩ => rfl)
  show val_main_v10 (F := Ideal) x0 x2 (ix3 b l z) = member x0 x2 b l
  rw [val_main_v10_apply, val_main_v9_apply, val_main_v8_apply, e8, uitofp_bit]
  unfold member
  by_cases h : ∃ k : Fin 5000, x2 (ix1 k) = x0 (ix2 b l)
  · rw [if_pos ((v7_at x0 x2 b l hp).2 h)]; exact (if_pos h).symm
  · rw [if_neg (fun h' => h ((v7_at x0 x2 b l hp).1 h'))]; exact (if_neg h).symm

end Stages

/-! ### The three results -/

theorem ref_last (x0 : IVec S64x512 32) (x1 : IVec S64 32) (x2 : IVec S5000 32) (x3 : FVec Ideal S30522x768 .f32) (x4 : FVec Ideal S12x768x768 .f32) (x5 : FVec Ideal S12x768 .f32) (x6 : FVec Ideal S12x768x768 .f32) (x7 : FVec Ideal S12x768 .f32) (hr : InRange x0 x1 x2) :
    val_main_v53 (F := Ideal) x0 x1 x2 x3 x4 x5 x6 x7 = Glast x0 x1 x2 x3 x4 x5 x6 x7 := by
  funext i
  obtain ⟨b, l, e, rfl⟩ : ∃ (b : Fin 64) (l : Fin 512) (e : Fin 768), i = ix3 b l e := ⟨i 0, i 1, i 2, eq_ix3 i⟩
  rw [Glast_ix3]
  simp only [val_main_v53_apply, val_main_v51_apply, val_main_v41_apply, val_main_v33_apply, val_main_v32_apply,
    val_main_v22_apply, val_main_v31_apply, val_main_v30_apply, val_main_v50_apply, val_main_v49_apply, val_main_v52_apply,
    v6_at x0 x1 x2 x3 hr, v21_at x0 x1 x2 x4 hr, v29_at x0 x1 x2 x5 hr, v40_at x0 x1 x2 x6 hr, v48_at x0 x1 x2 x7 hr,
    v10_at x0 x2]
  simp only [Ideal.mulf_def, Ideal.addf_def, Ideal.hostUnary_tanh_def, lastAt, offsetAt, mlp]
  refine congrArg₂ _ (congrArg₂ _ (Finset.sum_congr rfl fun k _ => ?_) rfl) rfl
  exact congrArg₂ _ (congrArg _ (congrArg₂ _ (Finset.sum_congr rfl fun d _ => rfl) rfl)) rfl

theorem ref_now (x0 : IVec S64x512 32) (x1 : IVec S64 32) (x2 : IVec S5000 32) (x3 : FVec Ideal S30522x768 .f32) (x4 : FVec Ideal S12x768x768 .f32) (x5 : FVec Ideal S12x768 .f32) (x6 : FVec Ideal S12x768x768 .f32) (x7 : FVec Ideal S12x768 .f32) (hr : InRange x0 x1 x2) :
    val_main_v92 (F := Ideal) x0 x1 x2 x3 x4 x5 x6 x7 = Gnow x0 x1 x2 x3 x4 x5 x6 x7 := by
  funext i
  obtain ⟨b, l, e, rfl⟩ : ∃ (b : Fin 64) (l : Fin 512) (e : Fin 768), i = ix3 b l e := ⟨i 0, i 1, i 2, eq_ix3 i⟩
  rw [Gnow_ix3]
  simp only [val_main_v92_apply, val_main_v90_apply, val_main_v80_apply, val_main_v72_apply, val_main_v71_apply,
    val_main_v61_apply, val_main_v70_apply, val_main_v69_apply, val_main_v89_apply, val_main_v88_apply, val_main_v91_apply,
    v6_at x0 x1 x2 x3 hr, v60_at x0 x1 x2 x4 hr, v68_at x0 x1 x2 x5 hr, v79_at x0 x1 x2 x6 hr, v87_at x0 x1 x2 x7 hr,
    v10_at x0 x2]
  simp only [Ideal.mulf_def, Ideal.addf_def, Ideal.hostUnary_tanh_def, nowAt, offsetAt, mlp]
  refine congrArg₂ _ (congrArg₂ _ (Finset.sum_congr rfl fun k _ => ?_) rfl) rfl
  exact congrArg₂ _ (congrArg _ (congrArg₂ _ (Finset.sum_congr rfl fun d _ => rfl) rfl)) rfl

theorem ref_emb (x0 : IVec S64x512 32) (x1 : IVec S64 32) (x2 : IVec S5000 32) (x3 : FVec Ideal S30522x768 .f32) (x4 : FVec Ideal S12x768x768 .f32) (x5 : FVec Ideal S12x768 .f32) (x6 : FVec Ideal S12x768x768 .f32) (x7 : FVec Ideal S12x768 .f32) (hr : InRange x0 x1 x2) :
    val_main_v93 (F := Ideal) x0 x1 x2 x3 x4 x5 x6 x7 = Gemb x0 x1 x2 x3 x4 x5 x6 x7 := by
  funext i
  obtain ⟨b, l, e, rfl⟩ : ∃ (b : Fin 64) (l : Fin 512) (e : Fin 768), i = ix3 b l e := ⟨i 0, i 1, i 2, eq_ix3 i⟩
  rw [Gemb_ix3, val_main_v93_apply, ref_now x0 x1 x2 x3 x4 x5 x6 x7 hr, Gnow_ix3, v6_at x0 x1 x2 x3 hr]
  rfl

end Cert.ReferenceIdeal.RefG

end
-- ==== Proof.PreDecode.lean ====
import proofs.«405048_j65712999629030_3_alg».proof.Pre_finite_inputs
import proofs.«405048_j65712999629030_3_alg».proof.Proof.Gen.Pre_finite_inputs
import proofs.«405048_j65712999629030_3_alg».proof.Proof.Spec
import Idealize.ShloMosaic.Lib.ReduceAll
import Idealize.ShloMosaic.Lib.StableHlo.Predicate

noncomputable section

namespace Cert.PreDecode

open Idealize.ShloMosaic Cert.Pre_finite_inputs

/-! ## The precondition's three range conjuncts, decoded

The printed precondition is a conjunction of eight "all entries satisfy" tests: five that a float array is finite, and
three that an integer array lies between two bounds (signed compares against 0 and against 30522 or 12). Where the
whole conjunction is the bit 1, each of the three range tests holds at every entry. -/

/-- One range test read back: where "every entry is at least the word `lo` and below the word `hi`", reduced by
    conjunction to a single bit, is the bit 1, each entry's signed value lies between the two words' signed values. -/
private theorem range_of_all {s : Shape} {axes : List (Fin s.rank)} (x : IVec s 32) (lo hi : BitVec 32)
    (hb : S_.BroadcastsInDim s (![] : Fin 0 → Fin s.rank)) (hr : s.ReducesTo axes S_) (h0 : 0 < S_.numel)
    (e : Host.reduce IntOp.andi
          (andi (cmpi .sge x (broadcastInDim s ![] hb (constantI S_ 32 lo)))
                (cmpi .slt x (broadcastInDim s ![] hb (constantI S_ 32 hi))))
          (constantI S_ 1 1#1) hr h0 ValueIdx.ix0 = 1#1) (j : s.Idx) :
    lo.toInt ≤ (x j).toInt ∧ (x j).toInt < hi.toInt := by
  -- the rank-0 shape has a single index, so every entry of the tested array reduces into that one result
  haveI : Subsingleton S_.Idx := ⟨fun a b => funext fun d => d.elim0⟩
  have hj := Host.reduce_andi_all _ _ hr h0 ValueIdx.ix0 e j
  -- at entry j the test is the conjunction of two signed compares against a constant spread over the array
  obtain ⟨hge, hlt⟩ := IntOp.andi_eq_one.1 hj
  exact ⟨IntOp.cmpi_sge.1 hge, IntOp.cmpi_slt.1 hlt⟩

theorem inRange_of_pre {F : FTy → Type} [FloatOps F] [Cert.Pre_finite_inputs.Facts]
    (a0 : IVec S64x512 32) (a1 : IVec S64 32) (a2 : IVec S5000 32) (a3 : FVec F S30522x768 .f32)
    (a4 : FVec F S12x768x768 .f32) (a5 : FVec F S12x768 .f32) (a6 : FVec F S12x768x768 .f32) (a7 : FVec F S12x768 .f32)
    (h : Cert.Pre_finite_inputs.fn (F := F) a0 a1 a2 a3 a4 a5 a6 a7 = fun _ => 1#1) :
    Cert.Spec.InRange a0 a1 a2 := by
  -- the whole conjunction at the one index of the scalar result
  have h0 := congrFun h ValueIdx.ix0
  dsimp only [fn, fn_part1, fn_part2] at h0
  -- a conjunction of bits is 1 only where both are: peel off the last three conjuncts, outermost first
  obtain ⟨h1, hvf⟩ := IntOp.andi_eq_one.1 h0
  obtain ⟨h2, htm⟩ := IntOp.andi_eq_one.1 h1
  obtain ⟨-, hrv⟩ := IntOp.andi_eq_one.1 h2
  -- the three bounds are small non-negative words, so their signed values are the numerals themselves
  have z0 : (0#32 : BitVec 32).toInt = 0 := by decide
  have zV : (30522#32 : BitVec 32).toInt = 30522 := by decide
  have zT : (12#32 : BitVec 32).toInt = 12 := by decide
  refine ⟨fun j => ?_, fun j => ?_, fun j => ?_⟩
  · have := range_of_all a0 0#32 30522#32 _ _ _ hrv j
    rw [z0, zV] at this; exact this
  · have := range_of_all a1 0#32 12#32 _ _ _ htm j
    rw [z0, zT] at this; exact this
  · have := range_of_all a2 0#32 30522#32 _ _ _ hvf j
    rw [z0, zV] at this; exact this

end Cert.PreDecode

end
-- ==== Proof.RefSide.lean ====
import proofs.«405048_j65712999629030_3_alg».proof.Proof.RefRunP
import proofs.«405048_j65712999629030_3_alg».proof.Proof.RefReadP
-- ==== Proof.lean ====
/-
  The proof of `Cert.Claim`: three frames, the (empty) idealization ledger, and the equality over the extended reals of
  the kernel's three results with the reference's.

  The kernel program is six stretches of host operations and one launch over a 64 × 2 grid. The host stretches clip the
  filter ids and the times into their ranges, gather the embedding rows (filling a row whose id is out of range), build
  the membership column by scattering ones at the filter ids and gathering at the token ids, and gather, per batch row,
  the bias rows of the time's slot and of the slot before. The launch's body reads two table words per point (the slot
  and the slot before), loads the two 768 × 768 weight slabs they name, and computes
      tanh (x · W1 + b1) · W2 + b2,   times the membership column,
  once for the slot (stored as the `now` result and, added to `x`, as the third result) and, where the two words differ,
  once more for the slot before (the `last` result); where they agree the `now` product is the `last` result too.

  FRAMES. Both table words are clipped by the host into [0, 11], so the two slab loads the body assumes in range are in
  range for every memory: the kernel's frames need no precondition. The reference's frame is its run with the results
  dropped.

  VALUES. Under the precondition the token ids lie in [0, 30522), the times in [0, 12) and the filter ids in [0, 30522):
  there the clips and the filling do nothing, the scatter-and-gather membership column is the `is one of the filter ids`
  bit, and a time's two table words are its slot and the slot before. Index by index both programs then compute the
  specification's three arrays (Spec.lean): on the extended reals a change of float format is the identity, a matrix
  product into a zero accumulator and the host's batched product are the same sum over the 768 contracted coordinates,
  and `tanh` is one function on both sides. No law beyond the rearrangement of these sums is used, so finiteness of the
  float inputs is never opened.
-/
import proofs.«405048_j65712999629030_3_alg».proof.Defs
import proofs.«405048_j65712999629030_3_alg».proof.Proof.KIJoin
import proofs.«405048_j65712999629030_3_alg».proof.Proof.KClaims
import proofs.«405048_j65712999629030_3_alg».proof.Proof.KHostTab
import proofs.«405048_j65712999629030_3_alg».proof.Proof.RefIsG
import proofs.«405048_j65712999629030_3_alg».proof.Proof.PreDecode
import proofs.«405048_j65712999629030_3_alg».proof.Proof.RefSide
import Idealize.ShloMosaic.Adequacy
import Idealize.ShloMosaic.Init

noncomputable section

namespace Cert.Proof

open Idealize.ShloMosaic Idealize.SL.Sem

/-- The word-level kernel runs to the end and leaves its arguments unchanged, for every memory. -/
theorem frame_k : Cert.frame_Kernel := fun m ρ _ => Cert.Kernel.Route.frame m ρ (Cert.Kernel.Route.hyps m)

/-- So does the idealized kernel. -/
theorem frame_ki : Cert.frame_KernelIdeal := fun m ρ _ => Cert.KernelIdeal.Route.frame m ρ (Cert.KernelIdeal.Route.hyps m)

/-- The reference's frame: its run, the three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The ideal pass rewrote nothing: the ledger is empty. -/
theorem preserves : Cert.preserves_Kernel_KernelIdeal := trivial

/-- Both programs end with the specification's three arrays of the (agreeing) arguments. -/
theorem algebraic : Cert.algebraic_KernelIdeal_ReferenceIdeal := by
  intro m ρ m' ρ' hpre hagree
  have hr : ∀ c, Cert.KernelIdeal.Route.InR m c := fun c => Cert.PreDecode.inRange_of_pre _ _ _ _ _ _ _ _ (hpre c)
  refine ⟨fun c => Cert.Spec.Glast (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => Cert.Spec.Gnow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => Cert.Spec.Gemb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Route.run m ρ hr, ?_⟩
  refine (θ_run Cert.ReferenceIdeal.defs _ _).mono (fun _ h c => ?_) (Cert.ReferenceIdeal.ValueP.run (F := Ideal) m' ρ')
  obtain ⟨a0, a1, a2, a3, a4, a5, a6, a7⟩ := hagree c
  have hr' : Cert.Spec.InRange (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) := by
    rw [a0, a1, a2]; exact hr c
  refine ⟨(h c).1.trans ?_, (h c).2.1.trans ?_, (h c).2.2.1.trans ?_, (h c).2.2.2⟩
  · rw [Cert.ReferenceIdeal.ReadP.val_main_v53_eq, Cert.ReferenceIdeal.RefG.ref_last _ _ _ _ _ _ _ _ hr', a0, a1, a2, a3, a4, a5, a6, a7]
  · refine (Cert.ReferenceIdeal.ReadP.val_main_v92_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))).trans ?_
    rw [Cert.ReferenceIdeal.RefG.ref_now _ _ _ _ _ _ _ _ hr', a0, a1, a2, a3, a4, a5, a6, a7]
  · refine (Cert.ReferenceIdeal.ReadP.val_main_v93_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))).trans ?_
    rw [Cert.ReferenceIdeal.RefG.ref_emb _ _ _ _ _ _ _ _ hr', a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
